-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S64x10000 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S1600000x4 : Shape := ⟨2, ![1600000, 4]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x4 : S_.BroadcastsInDim S1600000x4 (![] : Fin 0 → Fin S1600000x4.rank)
  reducesTo_S1600000x4_S_d0_1 : S1600000x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg9 : FVec F S128 .f32) (main_arg10 : FVec F S128x64 .f32) (main_arg11 : FVec F S128x64 .f32) (main_arg12 : FVec F S64 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg6 : FVec F S128 .f32) (main_arg7 : FVec F S128x128 .f32) (main_arg8 : FVec F S128x128 .f32) (main_arg9 : FVec F S128 .f32) (main_arg10 : FVec F S128x64 .f32) (main_arg11 : FVec F S128x64 .f32) (main_arg12 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S1600000x4 .f32) (main_arg4 : FVec F S128x128 .f32) (main_arg5 : FVec F S128x128 .f32) (main_arg6 : FVec F S128 .f32) (main_arg7 : FVec F S128x128 .f32) (main_arg8 : FVec F S128x128 .f32) (main_arg9 : FVec F S128 .f32) (main_arg10 : FVec F S128x64 .f32) (main_arg11 : FVec F S128x64 .f32) (main_arg12 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x4 .f32 := Host.absf main_arg3
  let main_cst_0 : FVec F S_ .f32 := constant S_ .f32 0x7F800000#32
  let main_v5 : FVec F S1600000x4 .f32 := broadcastInDim S1600000x4 ![] bcast_S_S1600000x4 main_cst_0
  let main_v6 : IVec S1600000x4 1 := cmpf .olt main_v4 main_v5
  let main_c_1 : IVec S_ 1 := constantI S_ 1 1#1
  let main_v7 : IVec S_ 1 := (fun x v => Host.reduce IntOp.andi x v reducesTo_S1600000x4_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S1600000x4 : Shape := ⟨2, ![1600000, 4]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S5000x128 : Shape := ⟨2, ![5000, 128]⟩
abbrev S1x128 : Shape := ⟨2, ![1, 128]⟩
abbrev S100000x64 : Shape := ⟨2, ![100000, 64]⟩
abbrev S5000x64 : Shape := ⟨2, ![5000, 64]⟩
abbrev S1600000x64 : Shape := ⟨2, ![1600000, 64]⟩
abbrev S1x64 : Shape := ⟨2, ![1, 64]⟩
abbrev S10x1x10000 : Shape := ⟨3, ![10, 1, 10000]⟩
abbrev S64x64 : Shape := ⟨2, ![64, 64]⟩
abbrev S10000x64 : Shape := ⟨2, ![10000, 64]⟩
abbrev S1x1x10000 : Shape := ⟨3, ![1, 1, 10000]⟩
abbrev S64x1 : Shape := ⟨2, ![64, 1]⟩
abbrev S1x10000 : Shape := ⟨2, ![1, 10000]⟩
abbrev S64x10000 : Shape := ⟨2, ![64, 10000]⟩

abbrev nBuf : Space → Nat
  | .hbm => 87
  | .vmem => 38
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S1600000x4, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S128x64, .f32⟩
  | .hbm, ⟨12, _⟩ => ⟨S64, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .f32⟩
  | .hbm, ⟨18, _⟩ => ⟨S1600000, .f32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x128, .bf16⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .bf16⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S100000x1, .f32⟩
  | .hbm, ⟨45, _⟩ => ⟨S100000x128, .f32⟩
  | .hbm, ⟨46, _⟩ => ⟨S100000x128, .f32⟩
  | .hbm, ⟨47, _⟩ => ⟨S100000x128, .bf16⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x128, .bf16⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x1, .f32⟩
  | .hbm, ⟨63, _⟩ => ⟨S100000x128, .f32⟩
  | .hbm, ⟨64, _⟩ => ⟨S100000x128, .f32⟩
  | .hbm, ⟨65, _⟩ => ⟨S100000x128, .bf16⟩
  | .hbm, ⟨66, _⟩ => ⟨S100000x64, .bf16⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x64, .bf16⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S100000x64, .f32⟩
  | .hbm, ⟨85, _⟩ => ⟨S10x1x10000, .i32⟩
  | .hbm, ⟨86, _⟩ => ⟨S64x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S5000x128, .bf16⟩
  | .local _ .vmem, ⟨8, _⟩ => ⟨S5000x128, .bf16⟩
  | .local _ .vmem, ⟨9, _⟩ => ⟨S5000x128, .f32⟩
  | .local _ .vmem, ⟨10, _⟩ => ⟨S5000x128, .f32⟩
  | .local _ .vmem, ⟨11, _⟩ => ⟨S5000x128, .bf16⟩
  | .local _ .vmem, ⟨12, _⟩ => ⟨S5000x128, .bf16⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S5000x128, .bf16⟩
  | .local _ .vmem, ⟨17, _⟩ => ⟨S5000x128, .bf16⟩
  | .local _ .vmem, ⟨18, _⟩ => ⟨S5000x128, .bf16⟩
  | .local _ .vmem, ⟨19, _⟩ => ⟨S5000x128, .bf16⟩
  | .local _ .vmem, ⟨20, _⟩ => ⟨S128x64, .f32⟩
  | .local _ .vmem, ⟨21, _⟩ => ⟨S5000x64, .bf16⟩
  | .local _ .vmem, ⟨22, _⟩ => ⟨S5000x64, .bf16⟩
  | .local _ .vmem, ⟨23, _⟩ => ⟨S5000x64, .f32⟩
  | .local _ .vmem, ⟨24, _⟩ => ⟨S5000x64, .f32⟩
  | .local _ .vmem, ⟨25, _⟩ => ⟨S5000x128, .bf16⟩
  | .local _ .vmem, ⟨26, _⟩ => ⟨S5000x128, .bf16⟩
  | .local _ .vmem, ⟨27, _⟩ => ⟨S128x64, .f32⟩
  | .local _ .vmem, ⟨28, _⟩ => ⟨S64, .f32⟩
  | .local _ .vmem, ⟨29, _⟩ => ⟨S5000x64, .f32⟩
  | .local _ .vmem, ⟨30, _⟩ => ⟨S5000x64, .f32⟩
  | .local _ .vmem, ⟨31, _⟩ => ⟨S10000x64, .f32⟩
  | .local _ .vmem, ⟨32, _⟩ => ⟨S10000x64, .f32⟩
  | .local _ .vmem, ⟨33, _⟩ => ⟨S1x1x10000, .i32⟩
  | .local _ .vmem, ⟨34, _⟩ => ⟨S1x1x10000, .i32⟩
  | .local _ .vmem, ⟨35, _⟩ => ⟨S64x64, .f32⟩
  | .local _ .vmem, ⟨36, _⟩ => ⟨S64x64, .f32⟩
  | .local _ .vmem, ⟨37, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_c_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_c_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg4_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_scratch0 : Ref sig .tc := ⟨.vmem, 36, rfl⟩
abbrev cc4_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem4_0 : DmaSem sig := 29
abbrev cc3_sem4_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_14 : BitVec 32 := 0#32
  let v30 : BitVec 1 := Scalar.cmpi .ne v29 c0_i32_14
  v30

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x10000 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bitsLt_bf16_f32 : FTy.bits .bf16 < FTy.bits .f32
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  shapeCasts_S100000_S10x1x10000 : S100000.ShapeCasts S10x1x10000
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1x10000_S1x1x10000_0_0_0 : ∀ a, (![0, 0, 0] : Fin 3 → Nat) a + S1x1x10000.size a ≤ S1x1x10000.size a
  h_S1x1x10000 : 0 < S1x1x10000.numel
  shapeCasts_S1x1x10000_S1x10000 : S1x1x10000.ShapeCasts S1x10000
  iota_S64x10000_d0_w32 : S64x10000.Iotas .tc 32 [0]
  broadcasts_S1x10000_S64x10000 : S1x10000.Broadcasts S64x10000
  natLt_1_32 : 1 < 32
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  reduces_S64x10000_S64 : S64x10000.Reduces [1] S64
  shapeCasts_S64_S64x1 : S64.ShapeCasts S64x1
  broadcasts_S64x1_S64x64 : S64x1.Broadcasts S64x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S64x10000_S10000x64_S64x64_1_0_0_1_n_n_wf : DotDims.WF S64x10000 S10000x64 S64x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .bf16 = 32 ∨ (Rect.block (s := S100000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .bf16 = 32 ∨ (Rect.block (s := S100000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .bf16 = 32 ∨ (Rect.block (s := S100000x64) S5000x64.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .bf16 = 32 ∨ (Rect.block (s := S100000x128) S5000x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1x1x10000.size a ≤ S10x1x10000.size a
  hwx4_1 : ∀ i : grid4.Coords, EltTy.bits .i32 = 32 ∨ (Rect.block (s := S10x1x10000) S1x1x10000.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S64x10000_S10000x64_S64x64_1_0_0_1_n_n : DotDims S64x10000 S10000x64 S64x64 where
  lhsContracting := [1]
  rhsContracting := [0]
  lhsNonContracting := [0]
  rhsNonContracting := [1]
  lhsBatch := []
  rhsBatch := []
  wf := dot_S64x10000_S10000x64_S64x64_1_0_0_1_n_n_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg12) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v58) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S1x1x10000.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S64x64.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S1600000x4 : Shape := ⟨2, ![1600000, 4]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩
abbrev S64x64 : Shape := ⟨2, ![64, 64]⟩
abbrev S64x1 : Shape := ⟨2, ![64, 1]⟩

abbrev nBuf : Space → Nat
  | .hbm => 140
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S1600000x4, .f32⟩
  | 4 => ⟨S128x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x64, .f32⟩
  | 11 => ⟨S128x64, .f32⟩
  | 12 => ⟨S64, .f32⟩
  | 13 => ⟨S1x1600000, .i32⟩
  | 14 => ⟨S1600000, .i32⟩
  | 15 => ⟨S1x1600000, .i32⟩
  | 16 => ⟨S1600000, .i32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S_, .f32⟩
  | 31 => ⟨S1600000, .f32⟩
  | 32 => ⟨S_, .f32⟩
  | 33 => ⟨S100000, .f32⟩
  | 34 => ⟨S1600000x1, .i32⟩
  | 35 => ⟨S100000, .f32⟩
  | 36 => ⟨S_, .f32⟩
  | 37 => ⟨S100000, .f32⟩
  | 38 => ⟨S100000, .f32⟩
  | 39 => ⟨S100000x1, .f32⟩
  | 40 => ⟨S100000x128, .f32⟩
  | 41 => ⟨S100000x128, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S1x1600000, .i32⟩
  | 52 => ⟨S1600000, .i32⟩
  | 53 => ⟨S1x1600000, .i32⟩
  | 54 => ⟨S1600000, .i32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000x1, .f32⟩
  | 78 => ⟨S100000x128, .f32⟩
  | 79 => ⟨S100000x128, .f32⟩
  | 80 => ⟨S100000x128, .f32⟩
  | 81 => ⟨S100000x128, .f32⟩
  | 82 => ⟨S100000x128, .f32⟩
  | 83 => ⟨S1x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S1x1600000, .i32⟩
  | 90 => ⟨S1600000, .i32⟩
  | 91 => ⟨S1x1600000, .i32⟩
  | 92 => ⟨S1600000, .i32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S_, .f32⟩
  | 107 => ⟨S1600000, .f32⟩
  | 108 => ⟨S_, .f32⟩
  | 109 => ⟨S100000, .f32⟩
  | 110 => ⟨S1600000x1, .i32⟩
  | 111 => ⟨S100000, .f32⟩
  | 112 => ⟨S_, .f32⟩
  | 113 => ⟨S100000, .f32⟩
  | 114 => ⟨S100000, .f32⟩
  | 115 => ⟨S100000x1, .f32⟩
  | 116 => ⟨S100000x128, .f32⟩
  | 117 => ⟨S100000x128, .f32⟩
  | 118 => ⟨S100000x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S64x64, .f32⟩
  | 126 => ⟨S100000x1, .i32⟩
  | 127 => ⟨S64x64, .f32⟩
  | _ => ⟨S100000x128, .f32⟩

abbrev hbmTy0_1 (i : Nat) : BufTy := match i % 128 with
  | 0 => ⟨S_, .f32⟩
  | 1 => ⟨S100000, .f32⟩
  | 2 => ⟨S_, .f32⟩
  | 3 => ⟨S64, .f32⟩
  | 4 => ⟨S100000x1, .i32⟩
  | 5 => ⟨S64, .f32⟩
  | 6 => ⟨S_, .f32⟩
  | 7 => ⟨S64, .f32⟩
  | 8 => ⟨S64, .f32⟩
  | 9 => ⟨S64x1, .f32⟩
  | 10 => ⟨S64x64, .f32⟩
  | 11 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_c_4 : Ref sig .tc := ⟨.hbm, 55, rfl⟩
abbrev main_v34 : Ref sig .tc := ⟨.hbm, 56, rfl⟩
abbrev main_v35 : Ref sig .tc := ⟨.hbm, 57, rfl⟩
abbrev main_c_5 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_7 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call1_cst : Ref sig .tc := ⟨.hbm, 86, rfl⟩
abbrev main_call1_v0 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_10 : Ref sig .tc := ⟨.hbm, 93, rfl⟩
abbrev main_v64 : Ref sig .tc := ⟨.hbm, 94, rfl⟩
abbrev main_v65 : Ref sig .tc := ⟨.hbm, 95, rfl⟩
abbrev main_c_11 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_13 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_16 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_17 : Ref sig .tc := ⟨.hbm, 128, rfl⟩
abbrev main_v92 : Ref sig .tc := ⟨.hbm, 129, rfl⟩
abbrev main_cst_18 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_19 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.K.Reg0.lean ====
/-
  Region 0 of the kernel program (the first SAGE combine, 20 row blocks of 5000 nodes), at any float
  instance: what the body finds in its six windows and what it leaves.  Windows 0..4 are inputs (the scaled
  neighbour sums, the node features, the two weight matrices, the bias); window 5 is the output block.  The body
  loads every input whole, computes one payload and stores it over the whole output block, so after the body the
  output block is that payload of the five input blocks and every input block is as it was.
-/
import proofs.«404932_j73151882985825_3_alg».proof.Proof.Gen.Kernel.Launch
import proofs.«404932_j73151882985825_3_alg».proof.Proof.Gen.Kernel.Skeleton
import proofs.«404932_j73151882985825_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a window whose block
    index does not move is not fetched again and still holds the same block); one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body stores through: the whole output block. -/
abbrev r0_out : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_b : Rect S128 := Rect.unit (s := S128) ![0] S128.size inb_S128_S128_0

/-- The output block after the body, from the five input blocks. -/
def out0_5 (x0 x1 : Vec F S5000x128 .f32) (x2 x3 : Vec F S128x128 .f32) (x4 : Vec F S128 .f32) : Vec F S5000x128 .bf16 :=
  View.canon [⟨r0_out, k0_pay1 (View.ld x0 r0_out) (View.ld x1 r0_out) (View.ld x2 r0_w) (View.ld x3 r0_w) (View.ld x4 r0_b)⟩]

theorem cover0_5 (p0 : Vec F S5000x128 .bf16) (y : S5000x128.Idx) :
    ∃ pc ∈ ([⟨r0_out, p0⟩] : List (View.Piece (Elt F) S5000x128 .bf16)), y ∈ pc.1.set :=
  View.cover_of_tiled [⟨r0_out, p0⟩] S5000x128.size (by rfl) y

set_option maxHeartbeats 1000000 in
/-- The body on whole staging memrefs: the inputs read and left as they were, the output left at `out0_5`. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S5000x128 .bf16) (harg6 : arg6.IsWhole)
    (x0 x1 : Vec F S5000x128 .f32) (x2 x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of region 0 on core `c`: the arrays as the region finds them; after the body each input's
    buffer at its block and the output's at `out0_5` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the kernel program (the second SAGE combine, 20 row blocks of 5000 nodes), at any float
  instance: what the body finds in its six windows and what it leaves.  Windows 0..4 are inputs (the scaled
  neighbour sums in f32, the previous layer's node features in bf16, the two weight matrices, the bias); window 5
  is the output block.  The body loads every input whole, computes one payload and stores it over the whole output
  block, so after the body the output block is that payload of the five input blocks and every input block is as
  it was.
-/
import proofs.«404932_j73151882985825_3_alg».proof.Proof.Gen.Kernel.Launch
import proofs.«404932_j73151882985825_3_alg».proof.Proof.Gen.Kernel.Skeleton
import proofs.«404932_j73151882985825_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (a window whose block
    index does not move is not fetched again and still holds the same block); one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body stores through: the whole output block. -/
abbrev r1_out : Rect S5000x128 := Rect.unit (s := S5000x128) ![0, 0] S5000x128.size inb_S5000x128_S5000x128_0_0
abbrev r1_w : Rect S128x128 := Rect.unit (s := S128x128) ![0, 0] S128x128.size inb_S128x128_S128x128_0_0
abbrev r1_b : Rect S128 := Rect.unit (s := S128) ![0] S128.size inb_S128_S128_0

/-- The output block after the body, from the five input blocks. -/
def out1_5 (x0 : Vec F S5000x128 .f32) (x1 : Vec F S5000x128 .bf16) (x2 x3 : Vec F S128x128 .f32) (x4 : Vec F S128 .f32) : Vec F S5000x128 .bf16 :=
  View.canon [⟨r1_out, k1_pay1 (View.ld x0 r1_out) (View.ld x1 r1_out) (View.ld x2 r1_w) (View.ld x3 r1_w) (View.ld x4 r1_b)⟩]

theorem cover1_5 (p0 : Vec F S5000x128 .bf16) (y : S5000x128.Idx) :
    ∃ pc ∈ ([⟨r1_out, p0⟩] : List (View.Piece (Elt F) S5000x128 .bf16)), y ∈ pc.1.set :=
  View.cover_of_tiled [⟨r1_out, p0⟩] S5000x128.size (by rfl) y

set_option maxHeartbeats 1000000 in
/-- The body on whole staging memrefs: the inputs read and left as they were, the output left at `out1_5`. -/
theorem sound_kernel1 (c : Dev nD) (E : Set ℕ) (i : grid1.Coords)
    (arg1 : Memref sig .tc .vmem S5000x128 .f32) (harg1 : arg1.IsWhole) (arg2 : Memref sig .tc .vmem S5000x128 .bf16) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S5000x128 .bf16) (harg6 : arg6.IsWhole)
    (x0 : Vec F S5000x128 .f32) (x1 : Vec F S5000x128 .bf16) (x2 x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of region 1 on core `c`: the arrays as the region finds them; after the body each input's
    buffer at its block and the output's at `out1_5` of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the kernel program (the dense product ahead of the last aggregation, 20 row blocks of 5000
  nodes), at any float instance: what the body finds in its three windows and what it leaves.  Windows 0 and 1 are
  inputs (the node features in bf16, the weight matrix in f32); window 2 is the output block.  The body loads both
  inputs whole, computes one payload and stores it over the whole output block, so after the body the output block
  is that payload of the two input blocks and every input block is as it was.
-/
import proofs.«404932_j73151882985825_3_alg».proof.Proof.Gen.Kernel.Launch
import proofs.«404932_j73151882985825_3_alg».proof.Proof.Gen.Kernel.Skeleton
import proofs.«404932_j73151882985825_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (a window whose block
    index does not move is not fetched again and still holds the same block); one statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body moves data through: each is a whole block. -/
abbrev r2_in : Rect S5000x128 := Rect.unit (s := S5000x128) ![0, 0] S5000x128.size inb_S5000x128_S5000x128_0_0
abbrev r2_w : Rect S128x64 := Rect.unit (s := S128x64) ![0, 0] S128x64.size inb_S128x64_S128x64_0_0
abbrev r2_out : Rect S5000x64 := Rect.unit (s := S5000x64) ![0, 0] S5000x64.size inb_S5000x64_S5000x64_0_0

/-- The output block after the body, from the two input blocks. -/
def out2_2 (x0 : Vec F S5000x128 .bf16) (x1 : Vec F S128x64 .f32) : Vec F S5000x64 .bf16 :=
  View.canon [⟨r2_out, k2_pay1 (View.ld x0 r2_in) (View.ld x1 r2_w)⟩]

theorem cover2_2 (p0 : Vec F S5000x64 .bf16) (y : S5000x64.Idx) :
    ∃ pc ∈ ([⟨r2_out, p0⟩] : List (View.Piece (Elt F) S5000x64 .bf16)), y ∈ pc.1.set :=
  View.cover_of_tiled [⟨r2_out, p0⟩] S5000x64.size (by rfl) y

set_option maxHeartbeats 1000000 in
/-- The body on whole staging memrefs: the inputs read and left as they were, the output left at `out2_2`. -/
theorem sound_kernel2 (c : Dev nD) (E : Set ℕ) (i : grid2.Coords)
    (arg1 : Memref sig .tc .vmem S5000x128 .bf16) (harg1 : arg1.IsWhole) (arg2 : Memref sig .tc .vmem S128x64 .f32) (harg2 : arg2.IsWhole)
    (arg3 : Memref sig .tc .vmem S5000x64 .bf16) (harg3 : arg3.IsWhole)
    (x0 : Vec F S5000x128 .bf16) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__dense_matmul_kernel i arg1 harg1 arg2 harg2 arg3 harg3) K := by
  simp only [cc2__dense_matmul_kernel_eq_skeleton]; unfold cc2__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of region 2 on core `c`: the arrays as the region finds them; after the body each input's
    buffer at its block and the output's at `out2_2` of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t
    = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3 of the kernel program (the last SAGE combine, 20 row blocks of 5000 nodes), at any float
  instance: what the body finds in its five windows and what it leaves.  Windows 0..3 are inputs (the scaled
  neighbour sums already multiplied by their weight, the hidden node features, the weight matrix of the self
  term, the bias); window 4 is the output block.  The body loads every input whole, computes one payload (the
  self term's product, plus the neighbour term, plus the bias) and stores it over the whole output block, so
  after the body the output block is that payload of the four input blocks and every input block is as it was.
-/
import proofs.«404932_j73151882985825_3_alg».proof.Proof.Gen.Kernel.Launch
import proofs.«404932_j73151882985825_3_alg».proof.Proof.Gen.Kernel.Skeleton
import proofs.«404932_j73151882985825_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (a window whose block
    index does not move is not fetched again and still holds the same block); one statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads and stores through: each one a whole block. -/
abbrev r3_out : Rect S5000x64 := Rect.unit (s := S5000x64) ![0, 0] S5000x64.size inb_S5000x64_S5000x64_0_0
abbrev r3_h : Rect S5000x128 := Rect.unit (s := S5000x128) ![0, 0] S5000x128.size inb_S5000x128_S5000x128_0_0
abbrev r3_w : Rect S128x64 := Rect.unit (s := S128x64) ![0, 0] S128x64.size inb_S128x64_S128x64_0_0
abbrev r3_b : Rect S64 := Rect.unit (s := S64) ![0] S64.size inb_S64_S64_0

/-- The output block after the body, from the four input blocks (in window order: the neighbour term, the hidden
    features, the weight, the bias). -/
def out3_4 (x0 : Vec F S5000x64 .f32) (x1 : Vec F S5000x128 .bf16) (x2 : Vec F S128x64 .f32) (x3 : Vec F S64 .f32) : Vec F S5000x64 .f32 :=
  View.canon [⟨r3_out, k3_pay1 (View.ld x1 r3_h) (View.ld x2 r3_w) (View.ld x0 r3_out) (View.ld x3 r3_b)⟩]

theorem cover3_4 (p0 : Vec F S5000x64 .f32) (y : S5000x64.Idx) :
    ∃ pc ∈ ([⟨r3_out, p0⟩] : List (View.Piece (Elt F) S5000x64 .f32)), y ∈ pc.1.set :=
  View.cover_of_tiled [⟨r3_out, p0⟩] S5000x64.size (by rfl) y

set_option maxHeartbeats 1000000 in
/-- The body on whole staging memrefs: the inputs read and left as they were, the output left at `out3_4`. -/
theorem sound_kernel3 (c : Dev nD) (E : Set ℕ) (i : grid3.Coords)
    (arg1 : Memref sig .tc .vmem S5000x64 .f32) (harg1 : arg1.IsWhole) (arg2 : Memref sig .tc .vmem S5000x128 .bf16) (harg2 : arg2.IsWhole)
    (arg3 : Memref sig .tc .vmem S128x64 .f32) (harg3 : arg3.IsWhole) (arg4 : Memref sig .tc .vmem S64 .f32) (harg4 : arg4.IsWhole)
    (arg5 : Memref sig .tc .vmem S5000x64 .f32) (harg5 : arg5.IsWhole)
    (x0 : Vec F S5000x64 .f32) (x1 : Vec F S5000x128 .bf16) (x2 : Vec F S128x64 .f32) (x3 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__final_kernel i arg1 harg1 arg2 harg2 arg3 harg3 arg4 harg4 arg5 harg5) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of region 3 on core `c`: the arrays as the region finds them; after the body each input's
    buffer at its block and the output's at `out3_4` of the input blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t
    = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  Region 4 of the kernel program (the global mean pool: ten row blocks of 10000 nodes summed into 64
  graph rows through a one-hot matrix product), at any float instance.  Windows 0 and 1 are inputs (the node
  features and the graph ids of the block); window 2 is the output block, the same at every point and written
  back only after the last.  Two scratch buffers are carried from point to point: the running sums (64x64) and the
  running node counts (64x1).  The body at the first point zeroes both, at every point adds the block's
  contribution to each, and at the last point divides the sums by the counts (at least one) into the output block.
-/
import proofs.«404932_j73151882985825_3_alg».proof.Proof.Gen.Kernel.Launch
import proofs.«404932_j73151882985825_3_alg».proof.Proof.Gen.Kernel.Skeleton
import proofs.«404932_j73151882985825_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not; one statement per
    input window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body loads and stores through: each is its whole buffer. -/
abbrev r4_x : Rect S10000x64 := Rect.unit (s := S10000x64) ![0, 0] S10000x64.size inb_S10000x64_S10000x64_0_0
abbrev r4_b : Rect S1x1x10000 := Rect.unit (s := S1x1x10000) ![0, 0, 0] S1x1x10000.size inb_S1x1x10000_S1x1x10000_0_0_0
abbrev r4_s : Rect S64x64 := Rect.unit (s := S64x64) ![0, 0] S64x64.size inb_S64x64_S64x64_0_0
abbrev r4_n : Rect S64x1 := Rect.unit (s := S64x1) ![0, 0] S64x1.size inb_S64x1_S64x1_0_0

/-- The two scratch buffers after the first point's reset: all zeros. -/
def zero4_0 : Vec F S64x64 .f32 := View.canon [⟨r4_s, k4_pay1 (F := F)⟩]
def zero4_1 : Vec F S64x1 .f32 := View.canon [⟨r4_n, k4_pay2 (F := F)⟩]

/-- One point's accumulation: the running sums `p` plus the one-hot product of the block's graph ids `b` with its
    features `x`; the running counts `q` plus the block's nodes per graph. -/
def step4_0 (b : Vec F S1x1x10000 .i32) (x : Vec F S10000x64 .f32) (p : Vec F S64x64 .f32) : Vec F S64x64 .f32 :=
  View.canon [⟨r4_s, k4_pay4 (View.ld b r4_b) (View.ld x r4_x) (View.ld p r4_s)⟩]
def step4_1 (b : Vec F S1x1x10000 .i32) (q : Vec F S64x1 .f32) : Vec F S64x1 .f32 :=
  View.canon [⟨r4_n, k4_pay5 (View.ld b r4_b) (View.ld q r4_n)⟩]

/-- The output block after the last point: the sums over the counts. -/
def out4_2 (p : Vec F S64x64 .f32) (q : Vec F S64x1 .f32) : Vec F S64x64 .f32 :=
  View.canon [⟨r4_s, k4_pay6 (View.ld p r4_s) (View.ld q r4_n)⟩]

/-- What the two scratch buffers hold after point `n`: at the first point one accumulation over zeros, afterwards
    one accumulation over what the point before left. -/
def acc4 (c : Dev nD) : (n : ℕ) → n < cfg4.N → Vec F S64x64 .f32 × Vec F S64x1 .f32
  | 0, hn => (step4_0 (iblk4 V c 1 ⟨0, hn⟩) (iblk4 V c 0 ⟨0, hn⟩) zero4_0, step4_1 (iblk4 V c 1 ⟨0, hn⟩) zero4_1)
  | n + 1, hn => (step4_0 (iblk4 V c 1 ⟨n + 1, hn⟩) (iblk4 V c 0 ⟨n + 1, hn⟩) (acc4 c n (Nat.lt_of_succ_lt hn)).1,
      step4_1 (iblk4 V c 1 ⟨n + 1, hn⟩) (acc4 c n (Nat.lt_of_succ_lt hn)).2)

theorem acc4_zero (c : Dev nD) (hn : 0 < cfg4.N) :
    acc4 V c 0 hn = (step4_0 (iblk4 V c 1 ⟨0, hn⟩) (iblk4 V c 0 ⟨0, hn⟩) zero4_0, step4_1 (iblk4 V c 1 ⟨0, hn⟩) zero4_1) := rfl

theorem acc4_succ (c : Dev nD) (n : ℕ) (hn : n + 1 < cfg4.N) :
    acc4 V c (n + 1) hn = (step4_0 (iblk4 V c 1 ⟨n + 1, hn⟩) (iblk4 V c 0 ⟨n + 1, hn⟩) (acc4 V c n (Nat.lt_of_succ_lt hn)).1,
      step4_1 (iblk4 V c 1 ⟨n + 1, hn⟩) (acc4 V c n (Nat.lt_of_succ_lt hn)).2) := rfl

/-! ## The body's two conditions, in closed form, and where the output window is idle -/

/-- The body's first `if` (reset the scratch buffers): taken at the first point only. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- The body's second `if` (emit the output block): taken at the last point only. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-- The inputs are never idle; the output is idle, and not written back, wherever the second `if` is not taken. -/
theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The body on whole memrefs, case by case -/

theorem cover4_s (p0 : r4_s.shape.Idx → Elt F .f32) (y : S64x64.Idx) :
    ∃ pc ∈ ([⟨r4_s, p0⟩] : List (View.Piece (Elt F) S64x64 .f32)), y ∈ pc.1.set :=
  View.cover_of_tiled [⟨r4_s, p0⟩] S64x64.size (by rfl) y
theorem cover4_n (p0 : r4_n.shape.Idx → Elt F .f32) (y : S64x1.Idx) :
    ∃ pc ∈ ([⟨r4_n, p0⟩] : List (View.Piece (Elt F) S64x1 .f32)), y ∈ pc.1.set :=
  View.cover_of_tiled [⟨r4_n, p0⟩] S64x1.size (by rfl) y

/-- A piece whose rectangle is the whole shape hides every earlier write. -/
theorem canon_cons_cover {S : Shape} {e : EltTy} (p : View.Piece (Elt F) S e) (L : List (View.Piece (Elt F) S e))
    (h : ∀ y : S.Idx, y ∈ p.1.set) : View.canon (p :: L) = View.canon [p] := by
  funext y
  obtain ⟨r, w⟩ := p
  obtain ⟨x, rfl⟩ := r.exists_idx_of_mem (h y)
  exact (View.canon_cons_emb r w L x).trans (View.canon_cons_emb r w [] x).symm

theorem mem4_s (p0 : r4_s.shape.Idx → Elt F .f32) (y : S64x64.Idx) : y ∈ (⟨r4_s, p0⟩ : View.Piece (Elt F) S64x64 .f32).1.set := by
  obtain ⟨pc, hpc, hy⟩ := cover4_s p0 y
  rw [List.mem_singleton] at hpc; subst hpc; exact hy
theorem mem4_n (p0 : r4_n.shape.Idx → Elt F .f32) (y : S64x1.Idx) : y ∈ (⟨r4_n, p0⟩ : View.Piece (Elt F) S64x1 .f32).1.set := by
  obtain ⟨pc, hpc, hy⟩ := cover4_n p0 y
  rw [List.mem_singleton] at hpc; subst hpc; exact hy

set_option maxHeartbeats 1000000 in
/-- At the first point (the first `if` taken, the second not): the scratch buffers, whatever they held, are left at one
    accumulation over zeros; the inputs and the output block are left as they were. -/
theorem sound_kernel4_A (c : Dev nD) (E : Set ℕ) (i : grid4.Coords)
    (arg1 : Memref sig .tc .vmem S10000x64 .f32) (harg1 : arg1.IsWhole) (arg2 : Memref sig .tc .vmem S1x1x10000 .i32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole) (hc0 : cond4_0 i) (hc1 : ¬cond4_1 i)
    (x : Vec F S10000x64 .f32) (b : Vec F S1x1x10000 .i32) (o : Vec F S64x64 .f32) (K : PUnit → sProp 𝕄) :
    iprop(owns (c : Thread nD τ) arg1 fullShare x ∗ owns (c : Thread nD τ) arg2 fullShare b ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare b ∗ owns (c : Thread nD τ) arg3 fullShare o
            ∗ owns (c : Thread nD τ) arg4 fullShare (step4_0 b x zero4_0) ∗ owns (c : Thread nD τ) arg5 fullShare (step4_1 b zero4_1)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (fun y => ⟨_, List.mem_cons.mpr (Or.inl rfl), mem4_s _ y⟩), canon_cons_cover _ _ (mem4_s _),
      View.readCov_eq_canon_ld _ _ _ (cover4_s _)]
    rfl
  iexists _; isplitr
  swap; · iexact H5
  ipureintro
  sl_unfold_run_names
  rw [View.read_writes_eq_canon _ _ _ (fun y => ⟨_, List.mem_cons.mpr (Or.inl rfl), mem4_n _ y⟩), canon_cons_cover _ _ (mem4_n _),
    View.readCov_eq_canon_ld _ _ _ (cover4_n _)]
  rfl

set_option maxHeartbeats 1000000 in
/-- At a middle point (neither `if` taken): each scratch buffer is left at one accumulation over what it held; the
    inputs and the output block are left as they were. -/
theorem sound_kernel4_B (c : Dev nD) (E : Set ℕ) (i : grid4.Coords)
    (arg1 : Memref sig .tc .vmem S10000x64 .f32) (harg1 : arg1.IsWhole) (arg2 : Memref sig .tc .vmem S1x1x10000 .i32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole) (hc0 : ¬cond4_0 i) (hc1 : ¬cond4_1 i)
    (x : Vec F S10000x64 .f32) (b : Vec F S1x1x10000 .i32) (o : Vec F S64x64 .f32) (p : Vec F S64x64 .f32) (q : Vec F S64x1 .f32) (K : PUnit → sProp 𝕄) :
    iprop(owns (c : Thread nD τ) arg1 fullShare x ∗ owns (c : Thread nD τ) arg2 fullShare b ∗ owns (c : Thread nD τ) arg3 fullShare o
        ∗ owns (c : Thread nD τ) arg4 fullShare p ∗ owns (c : Thread nD τ) arg5 fullShare q
        ∗ (iprop(owns (c : Thread nD τ) arg1 fullShare x ∗ owns (c : Thread nD τ) arg2 fullShare b ∗ owns (c : Thread nD τ) arg3 fullShare o
            ∗ owns (c : Thread nD τ) arg4 fullShare (step4_0 b x p) ∗ owns (c : Thread nD τ) arg5 fullShare (step4_1 b q)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_s _)
  iexists _; isplitr
  swap; · iexact H5
  ipureintro
  exact View.read_writes_eq_canon _ _ _ (cover4_n _)

set_option maxHeartbeats 1000000 in
/-- At the last point (the first `if` not taken, the second taken): each scratch buffer is left at one accumulation
    over what it held, and the output block, whatever it held, at the quotient of the two. -/
theorem sound_kernel4_C (c : Dev nD) (E : Set ℕ) (i : grid4.Coords)
    (arg1 : Memref sig .tc .vmem S10000x64 .f32) (harg1 : arg1.IsWhole) (arg2 : Memref sig .tc .vmem S1x1x10000 .i32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole) (hc0 : ¬cond4_0 i) (hc1 : cond4_1 i)
    (x : Vec F S10000x64 .f32) (b : Vec F S1x1x10000 .i32) (p : Vec F S64x64 .f32) (q : Vec F S64x1 .f32) (K : PUnit → sProp 𝕄) :
    iprop(owns (c : Thread nD τ) arg1 fullShare x ∗ owns (c : Thread nD τ) arg2 fullShare b ∗ (∃ d, owns (c : Thread nD τ) arg3 fullShare d)
        ∗ owns (c : Thread nD τ) arg4 fullShare p ∗ owns (c : Thread nD τ) arg5 fullShare q
        ∗ (iprop(owns (c : Thread nD τ) arg1 fullShare x ∗ owns (c : Thread nD τ) arg2 fullShare b
            ∗ owns (c : Thread nD τ) arg3 fullShare (out4_2 (step4_0 b x p) (step4_1 b q))
            ∗ owns (c : Thread nD τ) arg4 fullShare (step4_0 b x p) ∗ owns (c : Thread nD τ) arg5 fullShare (step4_1 b q)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f1, %hf1, H1⟩, ⟨%f2, %hf2, H2⟩, ⟨%d3, %f3, -, H3⟩, ⟨%f4, %hf4, H4⟩, ⟨%f5, %hf5, H5⟩, Hk⟩
  subst hf1; subst hf2; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.readCov_eq_canon_ld _ _ _ (cover4_s _), View.readCov_eq_canon_ld _ _ _ (cover4_n _)]
    exact View.read_writes_eq_canon _ _ _ (cover4_s _)
  isplitl [H4]
  · iexists _; isplitr
    swap; · iexact H4
    ipureintro
    exact View.read_writes_eq_canon _ _ _ (cover4_s _)
  iexists _; isplitr
  swap; · iexact H5
  ipureintro
  exact View.read_writes_eq_canon _ _ _ (cover4_n _)

/-! ## The invariant: the two scratch buffers carried from point to point -/

/-- The scratch operands as memrefs: whole scoped buffers of the call's own. -/
abbrev scM4_0 : Memref sig .tc .vmem S64x64 .f32 := Memref.whole cc4_scratch0
abbrev scM4_1 : Memref sig .tc .vmem S64x1 .f32 := Memref.whole cc4_scratch1

/-- What the region is entered with, opened at the two scratch buffers (each at some contents); every other scoped
    buffer stays unopened beside them, and the generator register is at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

/-- The invariant before position `n`: before the first point what the region is entered with; afterwards the two
    scratch buffers at what the point before left in them, the other scoped buffers unopened, the generator register
    at some state. -/
def PhiS4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1])
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1])
      ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-- The accumulation at the first point, and at a later point over the point before. -/
theorem acc4_first (c : Dev nD) (t : Fin cfg4.N) (h0 : t.val = 0) :
    acc4 V c t.val t.isLt = (step4_0 (iblk4 V c 1 t) (iblk4 V c 0 t) zero4_0, step4_1 (iblk4 V c 1 t) zero4_1) := by
  obtain ⟨n, hn⟩ := t
  cases n with
  | zero => rfl
  | succ n => exact absurd h0 (Nat.succ_ne_zero n)

theorem acc4_later (c : Dev nD) (t : Fin cfg4.N) (h0 : t.val ≠ 0) :
    acc4 V c t.val t.isLt = (step4_0 (iblk4 V c 1 t) (iblk4 V c 0 t) (acc4 V c (t.val - 1) (Nat.lt_of_le_of_lt (Nat.sub_le _ _) t.isLt)).1,
      step4_1 (iblk4 V c 1 t) (acc4 V c (t.val - 1) (Nat.lt_of_le_of_lt (Nat.sub_le _ _) t.isLt)).2) := by
  obtain ⟨n, hn⟩ := t
  cases n with
  | zero => exact absurd rfl h0
  | succ n => rfl

/-! ## The proof data -/

/-- The proof data of region 4 on core `c`: the arrays as the region finds them; after the body each input's buffer
    at its block, the output's at the quotient of the two scratch buffers as the point leaves them (consulted at the
    last point only: elsewhere the window is idle); the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (acc4 V c t.val t.isLt).1 (acc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem owed4 (c : Dev nD) (t) : (dat4 V c).owed t = 0 := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (acc4 V c t.val t.isLt).1 (acc4 V c t.val t.isLt).2 := by
  dsimp only [dat4]

/-- What the output block holds after the last point. -/
theorem after4_2_last (c : Dev nD) : (dat4 V c).after 2 ⟨9, by rw [show cfg4.N = 10 from N_4]; decide⟩
    = out4_2 (acc4 V c 9 (by rw [show cfg4.N = 10 from N_4]; decide)).1 (acc4 V c 9 (by rw [show cfg4.N = 10 from N_4]; decide)).2 := by
  dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

theorem PhiS4_castSucc (c : Dev nD) (t : Fin cfg4.N) :
    (dat4 V c).Φ t.castSucc = PhiS4 V c t.val (Nat.le_of_lt t.isLt) := by
  dsimp only [dat4]; simp only [Fin.coe_castSucc]

/-! ## The body obligation -/

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 2000000 in
/-- The body at any point.  The inputs' buffers hold their blocks.  At the first point the invariant hands over the
    two scratch buffers at anything and takes them back at one accumulation over zeros; at a later point it hands
    them over at what the point before left and takes them back one accumulation further.  The output's buffer is
    handed back as found except at the last point, where it is left at the quotient of the two scratch buffers. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 10 := lt_of_lt_of_eq t.isLt (show cfg4.N = 10 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 2 t (idleAt4_2 t hc1) (noFlush4_2 t hc1)]
    rw [PhiS4_castSucc V c t, PhiS4_zero V c _ _ h0, PhiA4_eq, acc4_first V c t h0]
    iintro ⟨⟨⟨⟨HS0, HS1⟩, HR⟩, Hg⟩, Ho, ⟨%d0, H0⟩, ⟨%d1, H1⟩, ⟨%d2, H2⟩⟩
    iapply (sound_kernel4_A c Set.univ _ _ _ _ _ _ _ _ _ _ _ hc0 hc1 (iblk4 V c 0 t) (iblk4 V c 1 t) _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexists _; iexact H2
  · have hc0 : ¬cond4_0 (grid4.coords t) := fun h => h0 ((hcond4_0 t).mp h)
    rw [PhiS4_castSucc V c t, PhiS4_pos V c _ _ h0, acc4_later V c t h0]
    by_cases h9 : t.val = 9
    · have hc1 : cond4_1 (grid4.coords t) := (hcond4_1 t).mpr h9
      rw [show (dat4 V c).leavesExact 2 t = owns (c : Thread nD τ) (st4_2 t) fullShare ((dat4 V c).after 2 t) from by
        unfold Dat.leavesExact; rw [liveAt4_2 t hc1], after4_2, acc4_later V c t h0]
      iintro ⟨⟨⟨⟨HS0, HS1⟩, HR⟩, Hg⟩, Ho, ⟨%d0, H0⟩, ⟨%d1, H1⟩, ⟨%d2, H2⟩⟩
      iapply (sound_kernel4_C c Set.univ _ _ _ _ _ _ _ _ _ _ _ hc0 hc1 (iblk4 V c 0 t) (iblk4 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexact H2
    · have hc1 : ¬cond4_1 (grid4.coords t) := fun h => h9 ((hcond4_1 t).mp h)
      rw [Dat.leavesExact_idle (dat4 V c) 2 t (idleAt4_2 t hc1) (noFlush4_2 t hc1)]
      iintro ⟨⟨⟨⟨HS0, HS1⟩, HR⟩, Hg⟩, Ho, ⟨%d0, H0⟩, ⟨%d1, H1⟩, ⟨%d2, H2⟩⟩
      iapply (sound_kernel4_B c Set.univ _ _ _ _ _ _ _ _ _ _ _ hc0 hc1 (iblk4 V c 0 t) (iblk4 V c 1 t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexists _; iexact H2

/-- The body obligation of region 4, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives back what the region was entered with: what the two scratch buffers
    hold is forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end Cert.Kernel.Hand

end
-- ==== Proof.K.Run.lean ====
/-
  The kernel program's run, at any float instance: its five kernel regions between stretches of host
  operations.  `WJ c` is what core `c`'s unscoped buffers hold after item J of @main: a host stretch applies its
  operations; a region changes only its output array, to what its write-backs leave (`Dat.arrAt` at the last
  point).  Each region is entered with every unscoped buffer at the contents before it, the generator register
  at some state and nothing owed, and left the same way with its output array replaced.  The frame claim then
  follows from the conditional frame over these five region records.
-/
import proofs.«404932_j73151882985825_3_alg».proof.Proof.K.Reg0
import proofs.«404932_j73151882985825_3_alg».proof.Proof.K.Reg1
import proofs.«404932_j73151882985825_3_alg».proof.Proof.K.Reg2
import proofs.«404932_j73151882985825_3_alg».proof.Proof.K.Reg3
import proofs.«404932_j73151882985825_3_alg».proof.Proof.K.Reg4
import proofs.«404932_j73151882985825_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 (c : Dev nD) : Valuation τ sig (Elt F) := fun b => m (c, b)
/-- After the first host stretch: region 0's entry. -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- After region 0: its output array at what its write-backs leave. -/
def W2 (c : Dev nD) : Valuation τ sig (Elt F) :=
  Function.update (W1 m c) (Proc.devRef .tc main_v27) (((dat0 (U1 m) c).arrAt 5 cfg0.N : Buf (Elt F) ((c : Thread nD τ).loc main_v27)))
abbrev U2 : (c : Dev nD) → (b : Ref sig .tc) → Buf (Elt F) ((c : Thread nD τ).loc b) := fun c b => W2 m c b
/-- After the second host stretch: region 1's entry. -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- After region 1: region 2's entry. -/
def W4 (c : Dev nD) : Valuation τ sig (Elt F) :=
  Function.update (W3 m c) (Proc.devRef .tc main_v42) (((dat1 (U3 m) c).arrAt 5 cfg1.N : Buf (Elt F) ((c : Thread nD τ).loc main_v42)))
abbrev U4 : (c : Dev nD) → (b : Ref sig .tc) → Buf (Elt F) ((c : Thread nD τ).loc b) := fun c b => W4 m c b
/-- After region 2. -/
def W5 (c : Dev nD) : Valuation τ sig (Elt F) :=
  Function.update (W4 m c) (Proc.devRef .tc main_v43) (((dat2 (U4 m) c).arrAt 2 cfg2.N : Buf (Elt F) ((c : Thread nD τ).loc main_v43)))
abbrev U5 : (c : Dev nD) → (b : Ref sig .tc) → Buf (Elt F) ((c : Thread nD τ).loc b) := fun c b => W5 m c b
/-- After the third host stretch: region 3's entry. -/
abbrev W6 (c : Dev nD) : Valuation τ sig (Elt F) := StableHlo.after hostOps3 (W5 m c)
abbrev U6 : (c : Dev nD) → (b : Ref sig .tc) → Buf (Elt F) ((c : Thread nD τ).loc b) := fun c b => W6 m c b
/-- After region 3. -/
def W7 (c : Dev nD) : Valuation τ sig (Elt F) :=
  Function.update (W6 m c) (Proc.devRef .tc main_v58) (((dat3 (U6 m) c).arrAt 4 cfg3.N : Buf (Elt F) ((c : Thread nD τ).loc main_v58)))
abbrev U7 : (c : Dev nD) → (b : Ref sig .tc) → Buf (Elt F) ((c : Thread nD τ).loc b) := fun c b => W7 m c b
/-- After the last host stretch: region 4's entry. -/
abbrev W8 (c : Dev nD) : Valuation τ sig (Elt F) := StableHlo.after hostOps4 (W7 m c)
abbrev U8 : (c : Dev nD) → (b : Ref sig .tc) → Buf (Elt F) ((c : Thread nD τ).loc b) := fun c b => W8 m c b
/-- After region 4: the end. -/
def W9 (c : Dev nD) : Valuation τ sig (Elt F) :=
  Function.update (W8 m c) (Proc.devRef .tc main_v60) (((dat4 (U8 m) c).arrAt 2 cfg4.N : Buf (Elt F) ((c : Thread nD τ).loc main_v60)))
abbrev U9 : (c : Dev nD) → (b : Ref sig .tc) → Buf (Elt F) ((c : Thread nD τ).loc b) := fun c b => W9 m c b

/-- What the regions leave, as the conditional frame reads it. -/
def outs : Outs (F := F) := fun J r c =>
  if J = 2 then W2 m c r else if J = 4 then W4 m c r else if J = 5 then W5 m c r else if J = 7 then W7 m c r else W9 m c r

theorem outs_2 (r : Ref sig .tc) (c : Dev nD) : outs m 2 r c = W2 m c r := by unfold outs; exact if_pos rfl
theorem outs_4 (r : Ref sig .tc) (c : Dev nD) : outs m 4 r c = W4 m c r := by
  unfold outs; rw [if_neg (by decide), if_pos rfl]
theorem outs_5 (r : Ref sig .tc) (c : Dev nD) : outs m 5 r c = W5 m c r := by
  unfold outs; rw [if_neg (by decide), if_neg (by decide), if_pos rfl]
theorem outs_7 (r : Ref sig .tc) (c : Dev nD) : outs m 7 r c = W7 m c r := by
  unfold outs; rw [if_neg (by decide), if_neg (by decide), if_neg (by decide), if_pos rfl]
theorem outs_9 (r : Ref sig .tc) (c : Dev nD) : outs m 9 r c = W9 m c r := by
  unfold outs; rw [if_neg (by decide), if_neg (by decide), if_neg (by decide), if_neg (by decide)]

theorem upd_idem {α : Type} [DecidableEq α] {β : α → Type} (f : (a : α) → β a) (a : α) (v : β a) :
    Function.update f a (Function.update f a v a) = Function.update f a v := by rw [Function.update_self]

theorem V1_eq (c : Dev nD) : V1 m c = W1 m c := rfl
theorem V2_eq (c : Dev nD) : V2 m (outs m) c = W2 m c := by
  simp only [V2]; rw [outs_2, V1_eq]; unfold W2; exact upd_idem _ _ _
theorem V3_eq (c : Dev nD) : V3 m (outs m) c = W3 m c := by
  simp only [V3]; rw [V2_eq]
theorem V4_eq (c : Dev nD) : V4 m (outs m) c = W4 m c := by
  simp only [V4]; rw [outs_4, V3_eq]; unfold W4; exact upd_idem _ _ _
theorem V5_eq (c : Dev nD) : V5 m (outs m) c = W5 m c := by
  simp only [V5]; rw [outs_5, V4_eq]; unfold W5; exact upd_idem _ _ _
theorem V6_eq (c : Dev nD) : V6 m (outs m) c = W6 m c := by
  simp only [V6]; rw [V5_eq]
theorem V7_eq (c : Dev nD) : V7 m (outs m) c = W7 m c := by
  simp only [V7]; rw [outs_7, V6_eq]; unfold W7; exact upd_idem _ _ _
theorem V8_eq (c : Dev nD) : V8 m (outs m) c = W8 m c := by
  simp only [V8]; rw [V7_eq]
theorem V9_eq (c : Dev nD) : V9 m (outs m) c = W9 m c := by
  simp only [V9]; rw [outs_9, V8_eq]; unfold W9; exact upd_idem _ _ _

/-! ## The proof data family and what rides beside the buffers -/

/-- Every region's proof data, each at its region's entry contents. -/
def pdats : (p : Fin 5) → (c : Dev nD) → Dat τ (Elt F) Unit ℕ (UR sig nD τ) ℕ (cfgs p) c
  | ⟨0, _⟩ => fun c => dat0 (U1 m) c
  | ⟨1, _⟩ => fun c => dat1 (U3 m) c
  | ⟨2, _⟩ => fun c => dat2 (U4 m) c
  | ⟨3, _⟩ => fun c => dat3 (U6 m) c
  | ⟨4, _⟩ => fun c => dat4 (U8 m) c
  | ⟨n + 5, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)
abbrev E : Fin 6 → Dev nD → sProp 𝕄 := fun _ c => R (F := F) c

/-! ## Region 0 -/

theorem ne0_0 : Pipeline.arrRef spec0 0 ≠ main_v27 := by decide
theorem ne0_1 : Pipeline.arrRef spec0 1 ≠ main_v27 := by decide
theorem ne0_2 : Pipeline.arrRef spec0 2 ≠ main_v27 := by decide
theorem ne0_3 : Pipeline.arrRef spec0 3 ≠ main_v27 := by decide
theorem ne0_4 : Pipeline.arrRef spec0 4 ≠ main_v27 := by decide
/-- At region 0's exit each of its arrays holds what the pipeline leaves: an input as entered, the output its write-backs. -/
theorem hF0_0 (c : Dev nD) : (dat0 (U1 m) c).arrAt 0 cfg0.N = U2 m c (Pipeline.arrRef spec0 0) := by
  show _ = W2 m c (Proc.devRef .tc (Pipeline.arrRef spec0 0))
  unfold W2
  rw [Function.update_of_ne (StableHlo.devRef_ne_of_ne ne0_0)]
  exact ((dat0 (U1 m) c).arrAt_in 0 rfl _).trans (A_eq0 (U1 m) c 0)
theorem hF0_1 (c : Dev nD) : (dat0 (U1 m) c).arrAt 1 cfg0.N = U2 m c (Pipeline.arrRef spec0 1) := by
  show _ = W2 m c (Proc.devRef .tc (Pipeline.arrRef spec0 1))
  unfold W2
  rw [Function.update_of_ne (StableHlo.devRef_ne_of_ne ne0_1)]
  exact ((dat0 (U1 m) c).arrAt_in 1 rfl _).trans (A_eq0 (U1 m) c 1)
theorem hF0_2 (c : Dev nD) : (dat0 (U1 m) c).arrAt 2 cfg0.N = U2 m c (Pipeline.arrRef spec0 2) := by
  show _ = W2 m c (Proc.devRef .tc (Pipeline.arrRef spec0 2))
  unfold W2
  rw [Function.update_of_ne (StableHlo.devRef_ne_of_ne ne0_2)]
  exact ((dat0 (U1 m) c).arrAt_in 2 rfl _).trans (A_eq0 (U1 m) c 2)
theorem hF0_3 (c : Dev nD) : (dat0 (U1 m) c).arrAt 3 cfg0.N = U2 m c (Pipeline.arrRef spec0 3) := by
  show _ = W2 m c (Proc.devRef .tc (Pipeline.arrRef spec0 3))
  unfold W2
  rw [Function.update_of_ne (StableHlo.devRef_ne_of_ne ne0_3)]
  exact ((dat0 (U1 m) c).arrAt_in 3 rfl _).trans (A_eq0 (U1 m) c 3)
theorem hF0_4 (c : Dev nD) : (dat0 (U1 m) c).arrAt 4 cfg0.N = U2 m c (Pipeline.arrRef spec0 4) := by
  show _ = W2 m c (Proc.devRef .tc (Pipeline.arrRef spec0 4))
  unfold W2
  rw [Function.update_of_ne (StableHlo.devRef_ne_of_ne ne0_4)]
  exact ((dat0 (U1 m) c).arrAt_in 4 rfl _).trans (A_eq0 (U1 m) c 4)
theorem hF0_5 (c : Dev nD) : (dat0 (U1 m) c).arrAt 5 cfg0.N = U2 m c (Pipeline.arrRef spec0 5) := by
  show _ = W2 m c _
  unfold W2; rw [Function.update_self]
theorem hF0 (c : Dev nD) : ∀ w : Fin cfg0.W, (dat0 (U1 m) c).arrAt w cfg0.N = U2 m c (Pipeline.arrRef spec0 w)
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨n + 6, h⟩ => absurd h (Nat.not_lt.2 (Nat.le_add_left _ _))

/-- and every other buffer what it held at entry. -/
theorem hrest0 (c : Dev nD) : ∀ b, b ∉ Finset.univ.image (Pipeline.arrRef spec0) → U2 m c b = U1 m c b := fun b hb => by
  have hne : b ≠ Pipeline.arrRef spec0 5 := fun e => hb (Finset.mem_image.mpr ⟨5, Finset.mem_univ _, e.symm⟩)
  show W2 m c (Proc.devRef .tc b) = _
  unfold W2
  exact Function.update_of_ne (StableHlo.devRef_ne_of_ne hne) _ _

set_option backward.isDefEq.respectTransparency.types false in
/-- Region 0 over the thread state: entered from every unscoped buffer at `W1`, left at `W2`; its arrays split out
    of the unscoped buffers and put back at the exit contents; the generator register into the invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem ne1_0 : Pipeline.arrRef spec1 0 ≠ main_v42 := by decide
theorem ne1_1 : Pipeline.arrRef spec1 1 ≠ main_v42 := by decide
theorem ne1_2 : Pipeline.arrRef spec1 2 ≠ main_v42 := by decide
theorem ne1_3 : Pipeline.arrRef spec1 3 ≠ main_v42 := by decide
theorem ne1_4 : Pipeline.arrRef spec1 4 ≠ main_v42 := by decide
/-- At region 1's exit each of its arrays holds what the pipeline leaves: an input as entered, the output its write-backs. -/
theorem hF1_0 (c : Dev nD) : (dat1 (U3 m) c).arrAt 0 cfg1.N = U4 m c (Pipeline.arrRef spec1 0) := by
  show _ = W4 m c (Proc.devRef .tc (Pipeline.arrRef spec1 0))
  unfold W4
  rw [Function.update_of_ne (StableHlo.devRef_ne_of_ne ne1_0)]
  exact ((dat1 (U3 m) c).arrAt_in 0 rfl _).trans (A_eq1 (U3 m) c 0)
theorem hF1_1 (c : Dev nD) : (dat1 (U3 m) c).arrAt 1 cfg1.N = U4 m c (Pipeline.arrRef spec1 1) := by
  show _ = W4 m c (Proc.devRef .tc (Pipeline.arrRef spec1 1))
  unfold W4
  rw [Function.update_of_ne (StableHlo.devRef_ne_of_ne ne1_1)]
  exact ((dat1 (U3 m) c).arrAt_in 1 rfl _).trans (A_eq1 (U3 m) c 1)
theorem hF1_2 (c : Dev nD) : (dat1 (U3 m) c).arrAt 2 cfg1.N = U4 m c (Pipeline.arrRef spec1 2) := by
  show _ = W4 m c (Proc.devRef .tc (Pipeline.arrRef spec1 2))
  unfold W4
  rw [Function.update_of_ne (StableHlo.devRef_ne_of_ne ne1_2)]
  exact ((dat1 (U3 m) c).arrAt_in 2 rfl _).trans (A_eq1 (U3 m) c 2)
theorem hF1_3 (c : Dev nD) : (dat1 (U3 m) c).arrAt 3 cfg1.N = U4 m c (Pipeline.arrRef spec1 3) := by
  show _ = W4 m c (Proc.devRef .tc (Pipeline.arrRef spec1 3))
  unfold W4
  rw [Function.update_of_ne (StableHlo.devRef_ne_of_ne ne1_3)]
  exact ((dat1 (U3 m) c).arrAt_in 3 rfl _).trans (A_eq1 (U3 m) c 3)
theorem hF1_4 (c : Dev nD) : (dat1 (U3 m) c).arrAt 4 cfg1.N = U4 m c (Pipeline.arrRef spec1 4) := by
  show _ = W4 m c (Proc.devRef .tc (Pipeline.arrRef spec1 4))
  unfold W4
  rw [Function.update_of_ne (StableHlo.devRef_ne_of_ne ne1_4)]
  exact ((dat1 (U3 m) c).arrAt_in 4 rfl _).trans (A_eq1 (U3 m) c 4)
theorem hF1_5 (c : Dev nD) : (dat1 (U3 m) c).arrAt 5 cfg1.N = U4 m c (Pipeline.arrRef spec1 5) := by
  show _ = W4 m c _
  unfold W4; rw [Function.update_self]
theorem hF1 (c : Dev nD) : ∀ w : Fin cfg1.W, (dat1 (U3 m) c).arrAt w cfg1.N = U4 m c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨n + 6, h⟩ => absurd h (Nat.not_lt.2 (Nat.le_add_left _ _))

/-- and every other buffer what it held at entry. -/
theorem hrest1 (c : Dev nD) : ∀ b, b ∉ Finset.univ.image (Pipeline.arrRef spec1) → U4 m c b = U3 m c b := fun b hb => by
  have hne : b ≠ Pipeline.arrRef spec1 5 := fun e => hb (Finset.mem_image.mpr ⟨5, Finset.mem_univ _, e.symm⟩)
  show W4 m c (Proc.devRef .tc b) = _
  unfold W4
  exact Function.update_of_ne (StableHlo.devRef_ne_of_ne hne) _ _

set_option backward.isDefEq.respectTransparency.types false in
/-- Region 1 over the thread state: entered from every unscoped buffer at `W3`, left at `W4`; its arrays split out
    of the unscoped buffers and put back at the exit contents; the generator register into the invariant and out. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

theorem ne2_0 : Pipeline.arrRef spec2 0 ≠ main_v43 := by decide
theorem ne2_1 : Pipeline.arrRef spec2 1 ≠ main_v43 := by decide
/-- At region 2's exit each of its arrays holds what the pipeline leaves: an input as entered, the output its write-backs. -/
theorem hF2_0 (c : Dev nD) : (dat2 (U4 m) c).arrAt 0 cfg2.N = U5 m c (Pipeline.arrRef spec2 0) := by
  show _ = W5 m c (Proc.devRef .tc (Pipeline.arrRef spec2 0))
  unfold W5
  rw [Function.update_of_ne (StableHlo.devRef_ne_of_ne ne2_0)]
  exact ((dat2 (U4 m) c).arrAt_in 0 rfl _).trans (A_eq2 (U4 m) c 0)
theorem hF2_1 (c : Dev nD) : (dat2 (U4 m) c).arrAt 1 cfg2.N = U5 m c (Pipeline.arrRef spec2 1) := by
  show _ = W5 m c (Proc.devRef .tc (Pipeline.arrRef spec2 1))
  unfold W5
  rw [Function.update_of_ne (StableHlo.devRef_ne_of_ne ne2_1)]
  exact ((dat2 (U4 m) c).arrAt_in 1 rfl _).trans (A_eq2 (U4 m) c 1)
theorem hF2_2 (c : Dev nD) : (dat2 (U4 m) c).arrAt 2 cfg2.N = U5 m c (Pipeline.arrRef spec2 2) := by
  show _ = W5 m c _
  unfold W5; rw [Function.update_self]
theorem hF2 (c : Dev nD) : ∀ w : Fin cfg2.W, (dat2 (U4 m) c).arrAt w cfg2.N = U5 m c (Pipeline.arrRef spec2 w)
  | ⟨0, _⟩ => hF2_0 m c
  | ⟨1, _⟩ => hF2_1 m c
  | ⟨2, _⟩ => hF2_2 m c
  | ⟨n + 3, h⟩ => absurd h (Nat.not_lt.2 (Nat.le_add_left _ _))

/-- and every other buffer what it held at entry. -/
theorem hrest2 (c : Dev nD) : ∀ b, b ∉ Finset.univ.image (Pipeline.arrRef spec2) → U5 m c b = U4 m c b := fun b hb => by
  have hne : b ≠ Pipeline.arrRef spec2 2 := fun e => hb (Finset.mem_image.mpr ⟨2, Finset.mem_univ _, e.symm⟩)
  show W5 m c (Proc.devRef .tc b) = _
  unfold W5
  exact Function.update_of_ne (StableHlo.devRef_ne_of_ne hne) _ _

set_option backward.isDefEq.respectTransparency.types false in
/-- Region 2 over the thread state: entered from every unscoped buffer at `W4`, left at `W5`; its arrays split out
    of the unscoped buffers and put back at the exit contents; the generator register into the invariant and out. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U4 m c) (U5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

theorem ne3_0 : Pipeline.arrRef spec3 0 ≠ main_v58 := by decide
theorem ne3_1 : Pipeline.arrRef spec3 1 ≠ main_v58 := by decide
theorem ne3_2 : Pipeline.arrRef spec3 2 ≠ main_v58 := by decide
theorem ne3_3 : Pipeline.arrRef spec3 3 ≠ main_v58 := by decide
/-- At region 3's exit each of its arrays holds what the pipeline leaves: an input as entered, the output its write-backs. -/
theorem hF3_0 (c : Dev nD) : (dat3 (U6 m) c).arrAt 0 cfg3.N = U7 m c (Pipeline.arrRef spec3 0) := by
  show _ = W7 m c (Proc.devRef .tc (Pipeline.arrRef spec3 0))
  unfold W7
  rw [Function.update_of_ne (StableHlo.devRef_ne_of_ne ne3_0)]
  exact ((dat3 (U6 m) c).arrAt_in 0 rfl _).trans (A_eq3 (U6 m) c 0)
theorem hF3_1 (c : Dev nD) : (dat3 (U6 m) c).arrAt 1 cfg3.N = U7 m c (Pipeline.arrRef spec3 1) := by
  show _ = W7 m c (Proc.devRef .tc (Pipeline.arrRef spec3 1))
  unfold W7
  rw [Function.update_of_ne (StableHlo.devRef_ne_of_ne ne3_1)]
  exact ((dat3 (U6 m) c).arrAt_in 1 rfl _).trans (A_eq3 (U6 m) c 1)
theorem hF3_2 (c : Dev nD) : (dat3 (U6 m) c).arrAt 2 cfg3.N = U7 m c (Pipeline.arrRef spec3 2) := by
  show _ = W7 m c (Proc.devRef .tc (Pipeline.arrRef spec3 2))
  unfold W7
  rw [Function.update_of_ne (StableHlo.devRef_ne_of_ne ne3_2)]
  exact ((dat3 (U6 m) c).arrAt_in 2 rfl _).trans (A_eq3 (U6 m) c 2)
theorem hF3_3 (c : Dev nD) : (dat3 (U6 m) c).arrAt 3 cfg3.N = U7 m c (Pipeline.arrRef spec3 3) := by
  show _ = W7 m c (Proc.devRef .tc (Pipeline.arrRef spec3 3))
  unfold W7
  rw [Function.update_of_ne (StableHlo.devRef_ne_of_ne ne3_3)]
  exact ((dat3 (U6 m) c).arrAt_in 3 rfl _).trans (A_eq3 (U6 m) c 3)
theorem hF3_4 (c : Dev nD) : (dat3 (U6 m) c).arrAt 4 cfg3.N = U7 m c (Pipeline.arrRef spec3 4) := by
  show _ = W7 m c _
  unfold W7; rw [Function.update_self]
theorem hF3 (c : Dev nD) : ∀ w : Fin cfg3.W, (dat3 (U6 m) c).arrAt w cfg3.N = U7 m c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨n + 5, h⟩ => absurd h (Nat.not_lt.2 (Nat.le_add_left _ _))

/-- and every other buffer what it held at entry. -/
theorem hrest3 (c : Dev nD) : ∀ b, b ∉ Finset.univ.image (Pipeline.arrRef spec3) → U7 m c b = U6 m c b := fun b hb => by
  have hne : b ≠ Pipeline.arrRef spec3 4 := fun e => hb (Finset.mem_image.mpr ⟨4, Finset.mem_univ _, e.symm⟩)
  show W7 m c (Proc.devRef .tc b) = _
  unfold W7
  exact Function.update_of_ne (StableHlo.devRef_ne_of_ne hne) _ _

set_option backward.isDefEq.respectTransparency.types false in
/-- Region 3 over the thread state: entered from every unscoped buffer at `W6`, left at `W7`; its arrays split out
    of the unscoped buffers and put back at the exit contents; the generator register into the invariant and out. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (U6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U6 m c) (U7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

theorem ne4_0 : Pipeline.arrRef spec4 0 ≠ main_v60 := by decide
theorem ne4_1 : Pipeline.arrRef spec4 1 ≠ main_v60 := by decide
/-- At region 4's exit each of its arrays holds what the pipeline leaves: an input as entered, the output its write-backs. -/
theorem hF4_0 (c : Dev nD) : (dat4 (U8 m) c).arrAt 0 cfg4.N = U9 m c (Pipeline.arrRef spec4 0) := by
  show _ = W9 m c (Proc.devRef .tc (Pipeline.arrRef spec4 0))
  unfold W9
  rw [Function.update_of_ne (StableHlo.devRef_ne_of_ne ne4_0)]
  exact ((dat4 (U8 m) c).arrAt_in 0 rfl _).trans (A_eq4 (U8 m) c 0)
theorem hF4_1 (c : Dev nD) : (dat4 (U8 m) c).arrAt 1 cfg4.N = U9 m c (Pipeline.arrRef spec4 1) := by
  show _ = W9 m c (Proc.devRef .tc (Pipeline.arrRef spec4 1))
  unfold W9
  rw [Function.update_of_ne (StableHlo.devRef_ne_of_ne ne4_1)]
  exact ((dat4 (U8 m) c).arrAt_in 1 rfl _).trans (A_eq4 (U8 m) c 1)
theorem hF4_2 (c : Dev nD) : (dat4 (U8 m) c).arrAt 2 cfg4.N = U9 m c (Pipeline.arrRef spec4 2) := by
  show _ = W9 m c _
  unfold W9; rw [Function.update_self]
theorem hF4 (c : Dev nD) : ∀ w : Fin cfg4.W, (dat4 (U8 m) c).arrAt w cfg4.N = U9 m c (Pipeline.arrRef spec4 w)
  | ⟨0, _⟩ => hF4_0 m c
  | ⟨1, _⟩ => hF4_1 m c
  | ⟨2, _⟩ => hF4_2 m c
  | ⟨n + 3, h⟩ => absurd h (Nat.not_lt.2 (Nat.le_add_left _ _))

/-- and every other buffer what it held at entry. -/
theorem hrest4 (c : Dev nD) : ∀ b, b ∉ Finset.univ.image (Pipeline.arrRef spec4) → U9 m c b = U8 m c b := fun b hb => by
  have hne : b ≠ Pipeline.arrRef spec4 2 := fun e => hb (Finset.mem_image.mpr ⟨2, Finset.mem_univ _, e.symm⟩)
  show W9 m c (Proc.devRef .tc b) = _
  unfold W9
  exact Function.update_of_ne (StableHlo.devRef_ne_of_ne hne) _ _

set_option backward.isDefEq.respectTransparency.types false in
/-- Region 4 over the thread state: entered from every unscoped buffer at `W8`, left at `W9`; its arrays split out
    of the unscoped buffers and put back at the exit contents; the generator register into the invariant and out. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (U8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine BI.Entails.trans (hout4 (U8 m) c) ?_
    show Pipeline.ΦA spec4 c ⊢ _
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U8 m c) (U9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of @main terminates, nothing faulting, and every argument array ends as launched:
    the conditional frame at these five region records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V8_eq]; exact .rfl) (fun c => by rw [V9_eq]; exact .rfl)

end Cert.Kernel.Hand

end
-- ==== Proof.KI.Reg0.lean ====
/-
  Region 0 of the kernel program (the first SAGE combine, 20 row blocks of 5000 nodes), at any float
  instance: what the body finds in its six windows and what it leaves.  Windows 0..4 are inputs (the scaled
  neighbour sums, the node features, the two weight matrices, the bias); window 5 is the output block.  The body
  loads every input whole, computes one payload and stores it over the whole output block, so after the body the
  output block is that payload of the five input blocks and every input block is as it was.
-/
import proofs.«404932_j73151882985825_3_alg».proof.Proof.Gen.KernelIdeal.Launch
import proofs.«404932_j73151882985825_3_alg».proof.Proof.Gen.KernelIdeal.Skeleton
import proofs.«404932_j73151882985825_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a window whose block
    index does not move is not fetched again and still holds the same block); one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The one rectangle the body stores through: the whole output block. -/
abbrev r0_out : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_b : Rect S128 := Rect.unit (s := S128) ![0] S128.size inb_S128_S128_0

/-- The output block after the body, from the five input blocks. -/
def out0_5 (x0 x1 : Vec F S5000x128 .f32) (x2 x3 : Vec F S128x128 .f32) (x4 : Vec F S128 .f32) : Vec F S5000x128 .bf16 :=
  View.canon [⟨r0_out, k0_pay1 (View.ld x0 r0_out) (View.ld x1 r0_out) (View.ld x2 r0_w) (View.ld x3 r0_w) (View.ld x4 r0_b)⟩]

theorem cover0_5 (p0 : Vec F S5000x128 .bf16) (y : S5000x128.Idx) :
    ∃ pc ∈ ([⟨r0_out, p0⟩] : List (View.Piece (Elt F) S5000x128 .bf16)), y ∈ pc.1.set :=
  View.cover_of_tiled [⟨r0_out, p0⟩] S5000x128.size (by rfl) y

set_option maxHeartbeats 1000000 in
/-- The body on whole staging memrefs: the inputs read and left as they were, the output left at `out0_5`. -/
theorem sound_kernel0 (c : Dev nD) (E : Set ℕ) (i : grid0.Coords)
    (arg1 : Memref sig .tc .vmem S5000x128 .f32) (harg1 : arg1.IsWhole) (arg2 : Memref sig .tc .vmem S5000x128 .f32) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S5000x128 .bf16) (harg6 : arg6.IsWhole)
    (x0 x1 : Vec F S5000x128 .f32) (x2 x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0_kernel i arg1 harg1 arg2 harg2 arg3 harg3 arg4 harg4 arg5 harg5 arg6 harg6) K := by
  simp only [cc0_kernel_eq_skeleton]; unfold cc0_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-- The proof data of region 0 on core `c`: the arrays as the region finds them; after the body each input's
    buffer at its block and the output's at `out0_5` of the input blocks; the invariant is the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, window by window, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the kernel program (the second SAGE combine, 20 row blocks of 5000 nodes), at any float
  instance: what the body finds in its six windows and what it leaves.  Windows 0..4 are inputs (the scaled
  neighbour sums in f32, the previous layer's node features in bf16, the two weight matrices, the bias); window 5
  is the output block.  The body loads every input whole, computes one payload and stores it over the whole output
  block, so after the body the output block is that payload of the five input blocks and every input block is as
  it was.
-/
import proofs.«404932_j73151882985825_3_alg».proof.Proof.Gen.KernelIdeal.Launch
import proofs.«404932_j73151882985825_3_alg».proof.Proof.Gen.KernelIdeal.Skeleton
import proofs.«404932_j73151882985825_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (a window whose block
    index does not move is not fetched again and still holds the same block); one statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The one rectangle the body stores through: the whole output block. -/
abbrev r1_out : Rect S5000x128 := Rect.unit (s := S5000x128) ![0, 0] S5000x128.size inb_S5000x128_S5000x128_0_0
abbrev r1_w : Rect S128x128 := Rect.unit (s := S128x128) ![0, 0] S128x128.size inb_S128x128_S128x128_0_0
abbrev r1_b : Rect S128 := Rect.unit (s := S128) ![0] S128.size inb_S128_S128_0

/-- The output block after the body, from the five input blocks. -/
def out1_5 (x0 : Vec F S5000x128 .f32) (x1 : Vec F S5000x128 .bf16) (x2 x3 : Vec F S128x128 .f32) (x4 : Vec F S128 .f32) : Vec F S5000x128 .bf16 :=
  View.canon [⟨r1_out, k1_pay1 (View.ld x0 r1_out) (View.ld x1 r1_out) (View.ld x2 r1_w) (View.ld x3 r1_w) (View.ld x4 r1_b)⟩]

theorem cover1_5 (p0 : Vec F S5000x128 .bf16) (y : S5000x128.Idx) :
    ∃ pc ∈ ([⟨r1_out, p0⟩] : List (View.Piece (Elt F) S5000x128 .bf16)), y ∈ pc.1.set :=
  View.cover_of_tiled [⟨r1_out, p0⟩] S5000x128.size (by rfl) y

set_option maxHeartbeats 1000000 in
/-- The body on whole staging memrefs: the inputs read and left as they were, the output left at `out1_5`. -/
theorem sound_kernel1 (c : Dev nD) (E : Set ℕ) (i : grid1.Coords)
    (arg1 : Memref sig .tc .vmem S5000x128 .f32) (harg1 : arg1.IsWhole) (arg2 : Memref sig .tc .vmem S5000x128 .bf16) (harg2 : arg2.IsWhole)
    (arg3 : Memref sig .tc .vmem S128x128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S5000x128 .bf16) (harg6 : arg6.IsWhole)
    (x0 : Vec F S5000x128 .f32) (x1 : Vec F S5000x128 .bf16) (x2 x3 : Vec F S128x128 .f32) (x4 : Vec F S128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1_kernel i arg1 harg1 arg2 harg2 arg3 harg3 arg4 harg4 arg5 harg5 arg6 harg6) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of region 1 on core `c`: the arrays as the region finds them; after the body each input's
    buffer at its block and the output's at `out1_5` of the input blocks; the invariant is the scoped rest and the
    generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, window by window, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the kernel program (the dense product ahead of the last aggregation, 20 row blocks of 5000
  nodes), at any float instance: what the body finds in its three windows and what it leaves.  Windows 0 and 1 are
  inputs (the node features in bf16, the weight matrix in f32); window 2 is the output block.  The body loads both
  inputs whole, computes one payload and stores it over the whole output block, so after the body the output block
  is that payload of the two input blocks and every input block is as it was.
-/
import proofs.«404932_j73151882985825_3_alg».proof.Proof.Gen.KernelIdeal.Launch
import proofs.«404932_j73151882985825_3_alg».proof.Proof.Gen.KernelIdeal.Skeleton
import proofs.«404932_j73151882985825_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (a window whose block
    index does not move is not fetched again and still holds the same block); one statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body moves data through: each is a whole block. -/
abbrev r2_in : Rect S5000x128 := Rect.unit (s := S5000x128) ![0, 0] S5000x128.size inb_S5000x128_S5000x128_0_0
abbrev r2_w : Rect S128x64 := Rect.unit (s := S128x64) ![0, 0] S128x64.size inb_S128x64_S128x64_0_0
abbrev r2_out : Rect S5000x64 := Rect.unit (s := S5000x64) ![0, 0] S5000x64.size inb_S5000x64_S5000x64_0_0

/-- The output block after the body, from the two input blocks. -/
def out2_2 (x0 : Vec F S5000x128 .bf16) (x1 : Vec F S128x64 .f32) : Vec F S5000x64 .bf16 :=
  View.canon [⟨r2_out, k2_pay1 (View.ld x0 r2_in) (View.ld x1 r2_w)⟩]

theorem cover2_2 (p0 : Vec F S5000x64 .bf16) (y : S5000x64.Idx) :
    ∃ pc ∈ ([⟨r2_out, p0⟩] : List (View.Piece (Elt F) S5000x64 .bf16)), y ∈ pc.1.set :=
  View.cover_of_tiled [⟨r2_out, p0⟩] S5000x64.size (by rfl) y

set_option maxHeartbeats 1000000 in
/-- The body on whole staging memrefs: the inputs read and left as they were, the output left at `out2_2`. -/
theorem sound_kernel2 (c : Dev nD) (E : Set ℕ) (i : grid2.Coords)
    (arg1 : Memref sig .tc .vmem S5000x128 .bf16) (harg1 : arg1.IsWhole) (arg2 : Memref sig .tc .vmem S128x64 .f32) (harg2 : arg2.IsWhole)
    (arg3 : Memref sig .tc .vmem S5000x64 .bf16) (harg3 : arg3.IsWhole)
    (x0 : Vec F S5000x128 .bf16) (x1 : Vec F S128x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__dense_matmul_kernel i arg1 harg1 arg2 harg2 arg3 harg3) K := by
  simp only [cc2__dense_matmul_kernel_eq_skeleton]; unfold cc2__dense_matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of region 2 on core `c`: the arrays as the region finds them; after the body each input's
    buffer at its block and the output's at `out2_2` of the input blocks; the invariant is the scoped rest and the
    generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t
    = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, window by window, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of region 2, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of the kernel program (the last SAGE combine, 20 row blocks of 5000 nodes), at any float
  instance: what the body finds in its five windows and what it leaves.  Windows 0..3 are inputs (the scaled
  neighbour sums already multiplied by their weight, the hidden node features, the weight matrix of the self
  term, the bias); window 4 is the output block.  The body loads every input whole, computes one payload (the
  self term's product, plus the neighbour term, plus the bias) and stores it over the whole output block, so
  after the body the output block is that payload of the four input blocks and every input block is as it was.
-/
import proofs.«404932_j73151882985825_3_alg».proof.Proof.Gen.KernelIdeal.Launch
import proofs.«404932_j73151882985825_3_alg».proof.Proof.Gen.KernelIdeal.Skeleton
import proofs.«404932_j73151882985825_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (a window whose block
    index does not move is not fetched again and still holds the same block); one statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- The rectangles the body loads and stores through: each one a whole block. -/
abbrev r3_out : Rect S5000x64 := Rect.unit (s := S5000x64) ![0, 0] S5000x64.size inb_S5000x64_S5000x64_0_0
abbrev r3_h : Rect S5000x128 := Rect.unit (s := S5000x128) ![0, 0] S5000x128.size inb_S5000x128_S5000x128_0_0
abbrev r3_w : Rect S128x64 := Rect.unit (s := S128x64) ![0, 0] S128x64.size inb_S128x64_S128x64_0_0
abbrev r3_b : Rect S64 := Rect.unit (s := S64) ![0] S64.size inb_S64_S64_0

/-- The output block after the body, from the four input blocks (in window order: the neighbour term, the hidden
    features, the weight, the bias). -/
def out3_4 (x0 : Vec F S5000x64 .f32) (x1 : Vec F S5000x128 .bf16) (x2 : Vec F S128x64 .f32) (x3 : Vec F S64 .f32) : Vec F S5000x64 .f32 :=
  View.canon [⟨r3_out, k3_pay1 (View.ld x1 r3_h) (View.ld x2 r3_w) (View.ld x0 r3_out) (View.ld x3 r3_b)⟩]

theorem cover3_4 (p0 : Vec F S5000x64 .f32) (y : S5000x64.Idx) :
    ∃ pc ∈ ([⟨r3_out, p0⟩] : List (View.Piece (Elt F) S5000x64 .f32)), y ∈ pc.1.set :=
  View.cover_of_tiled [⟨r3_out, p0⟩] S5000x64.size (by rfl) y

set_option maxHeartbeats 1000000 in
/-- The body on whole staging memrefs: the inputs read and left as they were, the output left at `out3_4`. -/
theorem sound_kernel3 (c : Dev nD) (E : Set ℕ) (i : grid3.Coords)
    (arg1 : Memref sig .tc .vmem S5000x64 .f32) (harg1 : arg1.IsWhole) (arg2 : Memref sig .tc .vmem S5000x128 .bf16) (harg2 : arg2.IsWhole)
    (arg3 : Memref sig .tc .vmem S128x64 .f32) (harg3 : arg3.IsWhole) (arg4 : Memref sig .tc .vmem S64 .f32) (harg4 : arg4.IsWhole)
    (arg5 : Memref sig .tc .vmem S5000x64 .f32) (harg5 : arg5.IsWhole)
    (x0 : Vec F S5000x64 .f32) (x1 : Vec F S5000x128 .bf16) (x2 : Vec F S128x64 .f32) (x3 : Vec F S64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out3_4 x0 x1 x2 x3)) -∗ K ⟨⟩))
      ⊢ wp frame (wpE (defs₀ (F := F)) Variants.none c none) E (cc3__final_kernel i arg1 harg1 arg2 harg2 arg3 harg3 arg4 harg4 arg5 harg5) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The proof data of region 3 on core `c`: the arrays as the region finds them; after the body each input's
    buffer at its block and the output's at `out3_4` of the input blocks; the invariant is the scoped rest and the
    generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t
    = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-- What the body is called with at point `t`, window by window, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 3, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of the kernel program (the global mean pool: ten row blocks of 10000 nodes summed into 64
  graph rows through a one-hot matrix product), at any float instance.  Windows 0 and 1 are inputs (the node
  features and the graph ids of the block); window 2 is the output block, the same at every point and written
  back only after the last.  Two scratch buffers are carried from point to point: the running sums (64x64) and the
  running node counts (64x1).  The body at the first point zeroes both, at every point adds the block's
  contribution to each, and at the last point divides the sums by the counts (at least one) into the output block.
-/
import proofs.«404932_j73151882985825_3_alg».proof.Proof.Gen.KernelIdeal.Launch
import proofs.«404932_j73151882985825_3_alg».proof.Proof.Gen.KernelIdeal.Skeleton
import proofs.«404932_j73151882985825_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's staging buffer holds its block at every point, fetched there or not; one statement per
    input window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The rectangles the body loads and stores through: each is its whole buffer. -/
abbrev r4_x : Rect S10000x64 := Rect.unit (s := S10000x64) ![0, 0] S10000x64.size inb_S10000x64_S10000x64_0_0
abbrev r4_b : Rect S1x1x10000 := Rect.unit (s := S1x1x10000) ![0, 0, 0] S1x1x10000.size inb_S1x1x10000_S1x1x10000_0_0_0
abbrev r4_s : Rect S64x64 := Rect.unit (s := S64x64) ![0, 0] S64x64.size inb_S64x64_S64x64_0_0
abbrev r4_n : Rect S64x1 := Rect.unit (s := S64x1) ![0, 0] S64x1.size inb_S64x1_S64x1_0_0

/-- The two scratch buffers after the first point's reset: all zeros. -/
def zero4_0 : Vec F S64x64 .f32 := View.canon [⟨r4_s, k4_pay1 (F := F)⟩]
def zero4_1 : Vec F S64x1 .f32 := View.canon [⟨r4_n, k4_pay2 (F := F)⟩]

/-- One point's accumulation: the running sums `p` plus the one-hot product of the block's graph ids `b` with its
    features `x`; the running counts `q` plus the block's nodes per graph. -/
def step4_0 (b : Vec F S1x1x10000 .i32) (x : Vec F S10000x64 .f32) (p : Vec F S64x64 .f32) : Vec F S64x64 .f32 :=
  View.canon [⟨r4_s, k4_pay4 (View.ld b r4_b) (View.ld x r4_x) (View.ld p r4_s)⟩]
def step4_1 (b : Vec F S1x1x10000 .i32) (q : Vec F S64x1 .f32) : Vec F S64x1 .f32 :=
  View.canon [⟨r4_n, k4_pay5 (View.ld b r4_b) (View.ld q r4_n)⟩]

/-- The output block after the last point: the sums over the counts. -/
def out4_2 (p : Vec F S64x64 .f32) (q : Vec F S64x1 .f32) : Vec F S64x64 .f32 :=
  View.canon [⟨r4_s, k4_pay6 (View.ld p r4_s) (View.ld q r4_n)⟩]

/-- What the two scratch buffers hold after point `n`: at the first point one accumulation over zeros, afterwards
    one accumulation over what the point before left. -/
def acc4 (c : Dev nD) : (n : ℕ) → n < cfg4.N → Vec F S64x64 .f32 × Vec F S64x1 .f32
  | 0, hn => (step4_0 (iblk4 V c 1 ⟨0, hn⟩) (iblk4 V c 0 ⟨0, hn⟩) zero4_0, step4_1 (iblk4 V c 1 ⟨0, hn⟩) zero4_1)
  | n + 1, hn => (step4_0 (iblk4 V c 1 ⟨n + 1, hn⟩) (iblk4 V c 0 ⟨n + 1, hn⟩) (acc4 c n (Nat.lt_of_succ_lt hn)).1,
      step4_1 (iblk4 V c 1 ⟨n + 1, hn⟩) (acc4 c n (Nat.lt_of_succ_lt hn)).2)

theorem acc4_zero (c : Dev nD) (hn : 0 < cfg4.N) :
    acc4 V c 0 hn = (step4_0 (iblk4 V c 1 ⟨0, hn⟩) (iblk4 V c 0 ⟨0, hn⟩) zero4_0, step4_1 (iblk4 V c 1 ⟨0, hn⟩) zero4_1) := rfl

theorem acc4_succ (c : Dev nD) (n : ℕ) (hn : n + 1 < cfg4.N) :
    acc4 V c (n + 1) hn = (step4_0 (iblk4 V c 1 ⟨n + 1, hn⟩) (iblk4 V c 0 ⟨n + 1, hn⟩) (acc4 V c n (Nat.lt_of_succ_lt hn)).1,
      step4_1 (iblk4 V c 1 ⟨n + 1, hn⟩) (acc4 V c n (Nat.lt_of_succ_lt hn)).2) := rfl

/-! ## The body's two conditions, in closed form, and where the output window is idle -/

/-- The body's first `if` (reset the scratch buffers): taken at the first point only. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)

/-- The body's second `if` (emit the output block): taken at the last point only. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-- The inputs are never idle; the output is idle, and not written back, wherever the second `if` is not taken. -/
theorem liveAt4_0 : ∀ t : Fin cfg4.N, cfg4.idle 0 (grid4.coords t) = false := by decide +kernel
theorem liveAt4_1 : ∀ t : Fin cfg4.N, cfg4.idle 1 (grid4.coords t) = false := by decide +kernel
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The body on whole memrefs, case by case -/

theorem cover4_s (p0 : r4_s.shape.Idx → Elt F .f32) (y : S64x64.Idx) :
    ∃ pc ∈ ([⟨r4_s, p0⟩] : List (View.Piece (Elt F) S64x64 .f32)), y ∈ pc.1.set :=
  View.cover_of_tiled [⟨r4_s, p0⟩] S64x64.size (by rfl) y
theorem cover4_n (p0 : r4_n.shape.Idx → Elt F .f32) (y : S64x1.Idx) :
    ∃ pc ∈ ([⟨r4_n, p0⟩] : List (View.Piece (Elt F) S64x1 .f32)), y ∈ pc.1.set :=
  View.cover_of_tiled [⟨r4_n, p0⟩] S64x1.size (by rfl) y

/-- A piece whose rectangle is the whole shape hides every earlier write. -/
theorem canon_cons_cover {S : Shape} {e : EltTy} (p : View.Piece (Elt F) S e) (L : List (View.Piece (Elt F) S e))
    (h : ∀ y : S.Idx, y ∈ p.1.set) : View.canon (p :: L) = View.canon [p] := by
  funext y
  obtain ⟨r, w⟩ := p
  obtain ⟨x, rfl⟩ := r.exists_idx_of_mem (h y)
  exact (View.canon_cons_emb r w L x).trans (View.canon_cons_emb r w [] x).symm

theorem mem4_s (p0 : r4_s.shape.Idx → Elt F .f32) (y : S64x64.Idx) : y ∈ (⟨r4_s, p0⟩ : View.Piece (Elt F) S64x64 .f32).1.set := by
  obtain ⟨pc, hpc, hy⟩ := cover4_s p0 y
  rw [List.mem_singleton] at hpc; subst hpc; exact hy
theorem mem4_n (p0 : r4_n.shape.Idx → Elt F .f32) (y : S64x1.Idx) : y ∈ (⟨r4_n, p0⟩ : View.Piece (Elt F) S64x1 .f32).1.set := by
  obtain ⟨pc, hpc, hy⟩ := cover4_n p0 y
  rw [List.mem_singleton] at hpc; subst hpc; exact hy

set_option maxHeartbeats 1000000 in
/-- At the first point (the first `if` taken, the second not): the scratch buffers, whatever they held, are left at one
    accumulation over zeros; the inputs and the output block are left as they were. -/
theorem sound_kernel4_A (c : Dev nD) (E : Set ℕ) (i : grid4.Coords)
    (arg1 : Memref sig .tc .vmem S10000x64 .f32) (harg1 : arg1.IsWhole) (arg2 : Memref sig .tc .vmem S1x1x10000 .i32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole) (hc0 : cond4_0 i) (hc1 : ¬cond4_1 i)
    (x : Vec F S10000x64 .f32) (b : Vec F S1x1x10000 .i32) (o : Vec F S64x64 .f32) (K : PUnit → sProp 𝕄) :
    iprop(owns (c : Thread nD τ) arg1 fullShare x ∗ owns (c : Thread nD τ) arg2 fullShare b ∗ owns (c : Thread nD τ) arg3 fullShare o
        ∗ (∃ d, owns (c : Thread nD τ) arg4 fullShare d) ∗ (∃ d, owns (c : Thread nD τ) arg5 fullShare d)
        ∗ (iprop(owns (c : Thread nD τ) arg1 fullShare x ∗ owns (c : Thread nD τ) arg2 fullShare b ∗ owns (c : Thread nD τ) arg3 fullShare o
            ∗ owns (c : Thread nD τ) arg4 fullShare (step4_0 b x zero4_0) ∗ owns (c : Thread nD τ) arg5 fullShare (step4_1 b zero4_1)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1; subst hf2; subst hf3
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (fun y => ⟨_, List.mem_cons.mpr (Or.inl rfl), mem4_s _ y⟩), canon_cons_cover _ _ (mem4_s _),
      View.readCov_eq_canon_ld _ _ _ (cover4_s _)]
    rfl
  iexists _; isplitr
  swap; · iexact H5
  ipureintro
  sl_unfold_run_names
  rw [View.read_writes_eq_canon _ _ _ (fun y => ⟨_, List.mem_cons.mpr (Or.inl rfl), mem4_n _ y⟩), canon_cons_cover _ _ (mem4_n _),
    View.readCov_eq_canon_ld _ _ _ (cover4_n _)]
  rfl

set_option maxHeartbeats 1000000 in
/-- At a middle point (neither `if` taken): each scratch buffer is left at one accumulation over what it held; the
    inputs and the output block are left as they were. -/
theorem sound_kernel4_B (c : Dev nD) (E : Set ℕ) (i : grid4.Coords)
    (arg1 : Memref sig .tc .vmem S10000x64 .f32) (harg1 : arg1.IsWhole) (arg2 : Memref sig .tc .vmem S1x1x10000 .i32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole) (hc0 : ¬cond4_0 i) (hc1 : ¬cond4_1 i)
    (x : Vec F S10000x64 .f32) (b : Vec F S1x1x10000 .i32) (o : Vec F S64x64 .f32) (p : Vec F S64x64 .f32) (q : Vec F S64x1 .f32) (K : PUnit → sProp 𝕄) :
    iprop(owns (c : Thread nD τ) arg1 fullShare x ∗ owns (c : Thread nD τ) arg2 fullShare b ∗ owns (c : Thread nD τ) arg3 fullShare o
        ∗ owns (c : Thread nD τ) arg4 fullShare p ∗ owns (c : Thread nD τ) arg5 fullShare q
        ∗ (iprop(owns (c : Thread nD τ) arg1 fullShare x ∗ owns (c : Thread nD τ) arg2 fullShare b ∗ owns (c : Thread nD τ) arg3 fullShare o
            ∗ owns (c : Thread nD τ) arg4 fullShare (step4_0 b x p) ∗ owns (c : Thread nD τ) arg5 fullShare (step4_1 b q)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  subst hf1; subst hf2; subst hf3; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover4_s _)
  iexists _; isplitr
  swap; · iexact H5
  ipureintro
  exact View.read_writes_eq_canon _ _ _ (cover4_n _)

set_option maxHeartbeats 1000000 in
/-- At the last point (the first `if` not taken, the second taken): each scratch buffer is left at one accumulation
    over what it held, and the output block, whatever it held, at the quotient of the two. -/
theorem sound_kernel4_C (c : Dev nD) (E : Set ℕ) (i : grid4.Coords)
    (arg1 : Memref sig .tc .vmem S10000x64 .f32) (harg1 : arg1.IsWhole) (arg2 : Memref sig .tc .vmem S1x1x10000 .i32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S64x1 .f32) (harg5 : arg5.IsWhole) (hc0 : ¬cond4_0 i) (hc1 : cond4_1 i)
    (x : Vec F S10000x64 .f32) (b : Vec F S1x1x10000 .i32) (p : Vec F S64x64 .f32) (q : Vec F S64x1 .f32) (K : PUnit → sProp 𝕄) :
    iprop(owns (c : Thread nD τ) arg1 fullShare x ∗ owns (c : Thread nD τ) arg2 fullShare b ∗ (∃ d, owns (c : Thread nD τ) arg3 fullShare d)
        ∗ owns (c : Thread nD τ) arg4 fullShare p ∗ owns (c : Thread nD τ) arg5 fullShare q
        ∗ (iprop(owns (c : Thread nD τ) arg1 fullShare x ∗ owns (c : Thread nD τ) arg2 fullShare b
            ∗ owns (c : Thread nD τ) arg3 fullShare (out4_2 (step4_0 b x p) (step4_1 b q))
            ∗ owns (c : Thread nD τ) arg4 fullShare (step4_0 b x p) ∗ owns (c : Thread nD τ) arg5 fullShare (step4_1 b q)) -∗ K ⟨⟩))
      ⊢ wp frame (wpE (defs₀ (F := F)) Variants.none c none) E (cc4__pool_kernel i arg1 harg1 arg2 harg2 arg3 harg3 arg4 harg4 arg5 harg5) K := by
  simp only [cc4__pool_kernel_eq_skeleton]; unfold cc4__pool_kernel_skel
  unfold owns
  iintro ⟨⟨%f1, %hf1, H1⟩, ⟨%f2, %hf2, H2⟩, ⟨%d3, %f3, -, H3⟩, ⟨%f4, %hf4, H4⟩, ⟨%f5, %hf5, H5⟩, Hk⟩
  subst hf1; subst hf2; subst hf4; subst hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [View.readCov_eq_canon_ld _ _ _ (cover4_s _), View.readCov_eq_canon_ld _ _ _ (cover4_n _)]
    exact View.read_writes_eq_canon _ _ _ (cover4_s _)
  isplitl [H4]
  · iexists _; isplitr
    swap; · iexact H4
    ipureintro
    exact View.read_writes_eq_canon _ _ _ (cover4_s _)
  iexists _; isplitr
  swap; · iexact H5
  ipureintro
  exact View.read_writes_eq_canon _ _ _ (cover4_n _)

/-! ## The invariant: the two scratch buffers carried from point to point -/

/-- The scratch operands as memrefs: whole scoped buffers of the call's own. -/
abbrev scM4_0 : Memref sig .tc .vmem S64x64 .f32 := Memref.whole cc4_scratch0
abbrev scM4_1 : Memref sig .tc .vmem S64x1 .f32 := Memref.whole cc4_scratch1

/-- What the region is entered with, opened at the two scratch buffers (each at some contents); every other scoped
    buffer stays unopened beside them, and the generator register is at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [scM4_0, scM4_1, owns_whole]; try rfl

/-- The invariant before position `n`: before the first point what the region is entered with; afterwards the two
    scratch buffers at what the point before left in them, the other scoped buffers unopened, the generator register
    at some state. -/
def PhiS4 (c : Dev nD) : (n : ℕ) → n ≤ cfg4.N → sProp 𝕄
  | 0, _ => Pipeline.ΦA spec4 c
  | n + 1, hn => iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1])
      ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (acc4 V c n hn).1 ∗ owns (c : Thread nD τ) scM4_1 fullShare (acc4 V c n hn).2)
      ∗ Pipeline.scopedRestBut (Ix := Unit) (Name := ℕ) (U := UR sig nD τ) (Lvl := ℕ) (Val := Elt F) spec4 c [cc4_scratch0, cc4_scratch1])
      ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (acc4 V c (n - 1) (by omega)).1 ∗ owns (c : Thread nD τ) scM4_1 fullShare (acc4 V c (n - 1) (by omega)).2)
      ∗ Pipeline.scopedRestBut (Ix := Unit) (Name := ℕ) (U := UR sig nD τ) (Lvl := ℕ) (Val := Elt F) spec4 c [cc4_scratch0, cc4_scratch1])
      ∗ (∃ r, prngReg c r)) := by
  cases n with
  | zero => exact absurd rfl hz
  | succ n => rfl

/-- The accumulation at the first point, and at a later point over the point before. -/
theorem acc4_first (c : Dev nD) (t : Fin cfg4.N) (h0 : t.val = 0) :
    acc4 V c t.val t.isLt = (step4_0 (iblk4 V c 1 t) (iblk4 V c 0 t) zero4_0, step4_1 (iblk4 V c 1 t) zero4_1) := by
  obtain ⟨n, hn⟩ := t
  cases n with
  | zero => rfl
  | succ n => exact absurd h0 (Nat.succ_ne_zero n)

theorem acc4_later (c : Dev nD) (t : Fin cfg4.N) (h0 : t.val ≠ 0) :
    acc4 V c t.val t.isLt = (step4_0 (iblk4 V c 1 t) (iblk4 V c 0 t) (acc4 V c (t.val - 1) (Nat.lt_of_le_of_lt (Nat.sub_le _ _) t.isLt)).1,
      step4_1 (iblk4 V c 1 t) (acc4 V c (t.val - 1) (Nat.lt_of_le_of_lt (Nat.sub_le _ _) t.isLt)).2) := by
  obtain ⟨n, hn⟩ := t
  cases n with
  | zero => exact absurd rfl h0
  | succ n => rfl

/-! ## The proof data -/

/-- The proof data of region 4 on core `c`: the arrays as the region finds them; after the body each input's buffer
    at its block, the output's at the quotient of the two scratch buffers as the point leaves them (consulted at the
    last point only: elsewhere the window is idle); the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (acc4 V c t.val t.isLt).1 (acc4 V c t.val t.isLt).2
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem owed4 (c : Dev nD) (t) : (dat4 V c).owed t = 0 := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (acc4 V c t.val t.isLt).1 (acc4 V c t.val t.isLt).2 := by
  dsimp only [dat4]

/-- What the output block holds after the last point. -/
theorem after4_2_last (c : Dev nD) : (dat4 V c).after 2 ⟨9, by rw [show cfg4.N = 10 from N_4]; decide⟩
    = out4_2 (acc4 V c 9 (by rw [show cfg4.N = 10 from N_4]; decide)).1 (acc4 V c 9 (by rw [show cfg4.N = 10 from N_4]; decide)).2 := by
  dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

theorem PhiS4_castSucc (c : Dev nD) (t : Fin cfg4.N) :
    (dat4 V c).Φ t.castSucc = PhiS4 V c t.val (Nat.le_of_lt t.isLt) := by
  dsimp only [dat4]; simp only [Fin.coe_castSucc]

/-! ## The body obligation -/

/-- What the body is called with at point `t`, window by window, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 2000000 in
/-- The body at any point.  The inputs' buffers hold their blocks.  At the first point the invariant hands over the
    two scratch buffers at anything and takes them back at one accumulation over zeros; at a later point it hands
    them over at what the point before left and takes them back one accumulation further.  The output's buffer is
    handed back as found except at the last point, where it is left at the quotient of the two scratch buffers. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 10 := lt_of_lt_of_eq t.isLt (show cfg4.N = 10 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 2 t (idleAt4_2 t hc1) (noFlush4_2 t hc1)]
    rw [PhiS4_castSucc V c t, PhiS4_zero V c _ _ h0, PhiA4_eq, acc4_first V c t h0]
    iintro ⟨⟨⟨⟨HS0, HS1⟩, HR⟩, Hg⟩, Ho, ⟨%d0, H0⟩, ⟨%d1, H1⟩, ⟨%d2, H2⟩⟩
    iapply (sound_kernel4_A c Set.univ _ _ _ _ _ _ _ _ _ _ _ hc0 hc1 (iblk4 V c 0 t) (iblk4 V c 1 t) _ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    iexists _; iexact H2
  · have hc0 : ¬cond4_0 (grid4.coords t) := fun h => h0 ((hcond4_0 t).mp h)
    rw [PhiS4_castSucc V c t, PhiS4_pos V c _ _ h0, acc4_later V c t h0]
    by_cases h9 : t.val = 9
    · have hc1 : cond4_1 (grid4.coords t) := (hcond4_1 t).mpr h9
      rw [show (dat4 V c).leavesExact 2 t = owns (c : Thread nD τ) (st4_2 t) fullShare ((dat4 V c).after 2 t) from by
        unfold Dat.leavesExact; rw [liveAt4_2 t hc1], after4_2, acc4_later V c t h0]
      iintro ⟨⟨⟨⟨HS0, HS1⟩, HR⟩, Hg⟩, Ho, ⟨%d0, H0⟩, ⟨%d1, H1⟩, ⟨%d2, H2⟩⟩
      iapply (sound_kernel4_C c Set.univ _ _ _ _ _ _ _ _ _ _ _ hc0 hc1 (iblk4 V c 0 t) (iblk4 V c 1 t) _ _ _)
      isplitl [H0]; · iexact H0
      isplitl [H1]; · iexact H1
      isplitl [H2]; · iexists _; iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexact H2
    · have hc1 : ¬cond4_1 (grid4.coords t) := fun h => h9 ((hcond4_1 t).mp h)
      rw [Dat.leavesExact_idle (dat4 V c) 2 t (idleAt4_2 t hc1) (noFlush4_2 t hc1)]
      iintro ⟨⟨⟨⟨HS0, HS1⟩, HR⟩, Hg⟩, Ho, ⟨%d0, H0⟩, ⟨%d1, H1⟩, ⟨%d2, H2⟩⟩
      iapply (sound_kernel4_B c Set.univ _ _ _ _ _ _ _ _ _ _ _ hc0 hc1 (iblk4 V c 0 t) (iblk4 V c 1 t) _ _ _ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      iexists _; iexact H2

/-- The body obligation of region 4, at every point. -/
theorem body_obligation4 (c : Dev nD) : BodyObligation (dat4 (F := F) V c) (defs₀ (F := F)) Variants.none () Set.univ := fun t => by
  rw [bigSep_W4, bigSep_W4]
  exact sound_body4 V c t

/-- What the region is entered with is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives back what the region was entered with: what the two scratch buffers
    hold is forgotten. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

end Cert.KernelIdeal.Hand

end
-- ==== Proof.KI.Run.lean ====
/-
  The kernel program's run, at any float instance: its five kernel regions between stretches of host
  operations.  `WJ c` is what core `c`'s unscoped buffers hold after item J of @main: a host stretch applies its
  operations; a region changes only its output array, to what its write-backs leave (`Dat.arrAt` at the last
  point).  Each region is entered with every unscoped buffer at the contents before it, the generator register
  at some state and nothing owed, and left the same way with its output array replaced.  The frame claim then
  follows from the conditional frame over these five region records.
-/
import proofs.«404932_j73151882985825_3_alg».proof.Proof.KI.Reg0
import proofs.«404932_j73151882985825_3_alg».proof.Proof.KI.Reg1
import proofs.«404932_j73151882985825_3_alg».proof.Proof.KI.Reg2
import proofs.«404932_j73151882985825_3_alg».proof.Proof.KI.Reg3
import proofs.«404932_j73151882985825_3_alg».proof.Proof.KI.Reg4
import proofs.«404932_j73151882985825_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 (c : Dev nD) : Valuation τ sig (Elt F) := fun b => m (c, b)
/-- After the first host stretch: region 0's entry. -/
abbrev W1 (c : Dev nD) : Valuation τ sig (Elt F) := StableHlo.after hostOps0 (W0 m c)
abbrev U1 : (c : Dev nD) → (b : Ref sig .tc) → Buf (Elt F) ((c : Thread nD τ).loc b) := fun c b => W1 m c b
/-- After region 0: its output array at what its write-backs leave. -/
def W2 (c : Dev nD) : Valuation τ sig (Elt F) :=
  Function.update (W1 m c) (Proc.devRef .tc main_v27) (((dat0 (U1 m) c).arrAt 5 cfg0.N : Buf (Elt F) ((c : Thread nD τ).loc main_v27)))
abbrev U2 : (c : Dev nD) → (b : Ref sig .tc) → Buf (Elt F) ((c : Thread nD τ).loc b) := fun c b => W2 m c b
/-- After the second host stretch: region 1's entry. -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- After region 1: region 2's entry. -/
def W4 (c : Dev nD) : Valuation τ sig (Elt F) :=
  Function.update (W3 m c) (Proc.devRef .tc main_v42) (((dat1 (U3 m) c).arrAt 5 cfg1.N : Buf (Elt F) ((c : Thread nD τ).loc main_v42)))
abbrev U4 : (c : Dev nD) → (b : Ref sig .tc) → Buf (Elt F) ((c : Thread nD τ).loc b) := fun c b => W4 m c b
/-- After region 2. -/
def W5 (c : Dev nD) : Valuation τ sig (Elt F) :=
  Function.update (W4 m c) (Proc.devRef .tc main_v43) (((dat2 (U4 m) c).arrAt 2 cfg2.N : Buf (Elt F) ((c : Thread nD τ).loc main_v43)))
abbrev U5 : (c : Dev nD) → (b : Ref sig .tc) → Buf (Elt F) ((c : Thread nD τ).loc b) := fun c b => W5 m c b
/-- After the third host stretch: region 3's entry. -/
abbrev W6 (c : Dev nD) : Valuation τ sig (Elt F) := StableHlo.after hostOps3 (W5 m c)
abbrev U6 : (c : Dev nD) → (b : Ref sig .tc) → Buf (Elt F) ((c : Thread nD τ).loc b) := fun c b => W6 m c b
/-- After region 3. -/
def W7 (c : Dev nD) : Valuation τ sig (Elt F) :=
  Function.update (W6 m c) (Proc.devRef .tc main_v58) (((dat3 (U6 m) c).arrAt 4 cfg3.N : Buf (Elt F) ((c : Thread nD τ).loc main_v58)))
abbrev U7 : (c : Dev nD) → (b : Ref sig .tc) → Buf (Elt F) ((c : Thread nD τ).loc b) := fun c b => W7 m c b
/-- After the last host stretch: region 4's entry. -/
abbrev W8 (c : Dev nD) : Valuation τ sig (Elt F) := StableHlo.after hostOps4 (W7 m c)
abbrev U8 : (c : Dev nD) → (b : Ref sig .tc) → Buf (Elt F) ((c : Thread nD τ).loc b) := fun c b => W8 m c b
/-- After region 4: the end. -/
def W9 (c : Dev nD) : Valuation τ sig (Elt F) :=
  Function.update (W8 m c) (Proc.devRef .tc main_v60) (((dat4 (U8 m) c).arrAt 2 cfg4.N : Buf (Elt F) ((c : Thread nD τ).loc main_v60)))
abbrev U9 : (c : Dev nD) → (b : Ref sig .tc) → Buf (Elt F) ((c : Thread nD τ).loc b) := fun c b => W9 m c b

/-- What the regions leave, as the conditional frame reads it. -/
def outs : Outs (F := F) := fun J r c =>
  if J = 2 then W2 m c r else if J = 4 then W4 m c r else if J = 5 then W5 m c r else if J = 7 then W7 m c r else W9 m c r

theorem outs_2 (r : Ref sig .tc) (c : Dev nD) : outs m 2 r c = W2 m c r := by unfold outs; exact if_pos rfl
theorem outs_4 (r : Ref sig .tc) (c : Dev nD) : outs m 4 r c = W4 m c r := by
  unfold outs; rw [if_neg (by decide), if_pos rfl]
theorem outs_5 (r : Ref sig .tc) (c : Dev nD) : outs m 5 r c = W5 m c r := by
  unfold outs; rw [if_neg (by decide), if_neg (by decide), if_pos rfl]
theorem outs_7 (r : Ref sig .tc) (c : Dev nD) : outs m 7 r c = W7 m c r := by
  unfold outs; rw [if_neg (by decide), if_neg (by decide), if_neg (by decide), if_pos rfl]
theorem outs_9 (r : Ref sig .tc) (c : Dev nD) : outs m 9 r c = W9 m c r := by
  unfold outs; rw [if_neg (by decide), if_neg (by decide), if_neg (by decide), if_neg (by decide)]

theorem upd_idem {α : Type} [DecidableEq α] {β : α → Type} (f : (a : α) → β a) (a : α) (v : β a) :
    Function.update f a (Function.update f a v a) = Function.update f a v := by rw [Function.update_self]

theorem V1_eq (c : Dev nD) : V1 m c = W1 m c := rfl
theorem V2_eq (c : Dev nD) : V2 m (outs m) c = W2 m c := by
  simp only [V2]; rw [outs_2, V1_eq]; unfold W2; exact upd_idem _ _ _
theorem V3_eq (c : Dev nD) : V3 m (outs m) c = W3 m c := by
  simp only [V3]; rw [V2_eq]
theorem V4_eq (c : Dev nD) : V4 m (outs m) c = W4 m c := by
  simp only [V4]; rw [outs_4, V3_eq]; unfold W4; exact upd_idem _ _ _
theorem V5_eq (c : Dev nD) : V5 m (outs m) c = W5 m c := by
  simp only [V5]; rw [outs_5, V4_eq]; unfold W5; exact upd_idem _ _ _
theorem V6_eq (c : Dev nD) : V6 m (outs m) c = W6 m c := by
  simp only [V6]; rw [V5_eq]
theorem V7_eq (c : Dev nD) : V7 m (outs m) c = W7 m c := by
  simp only [V7]; rw [outs_7, V6_eq]; unfold W7; exact upd_idem _ _ _
theorem V8_eq (c : Dev nD) : V8 m (outs m) c = W8 m c := by
  simp only [V8]; rw [V7_eq]
theorem V9_eq (c : Dev nD) : V9 m (outs m) c = W9 m c := by
  simp only [V9]; rw [outs_9, V8_eq]; unfold W9; exact upd_idem _ _ _

/-! ## The proof data family and what rides beside the buffers -/

/-- Every region's proof data, each at its region's entry contents. -/
def pdats : (p : Fin 5) → (c : Dev nD) → Dat τ (Elt F) Unit ℕ (UR sig nD τ) ℕ (cfgs p) c
  | ⟨0, _⟩ => fun c => dat0 (U1 m) c
  | ⟨1, _⟩ => fun c => dat1 (U3 m) c
  | ⟨2, _⟩ => fun c => dat2 (U4 m) c
  | ⟨3, _⟩ => fun c => dat3 (U6 m) c
  | ⟨4, _⟩ => fun c => dat4 (U8 m) c
  | ⟨n + 5, h⟩ => absurd h (Nat.not_lt.2 (Nat.le_add_left _ _))

abbrev 𝒱₀ : Variants := Variants.none
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)
abbrev E : Fin 6 → Dev nD → sProp 𝕄 := fun _ c => R (F := F) c

/-! ## Region 0 -/

theorem ne0_0 : Pipeline.arrRef spec0 0 ≠ main_v27 := by decide
theorem ne0_1 : Pipeline.arrRef spec0 1 ≠ main_v27 := by decide
theorem ne0_2 : Pipeline.arrRef spec0 2 ≠ main_v27 := by decide
theorem ne0_3 : Pipeline.arrRef spec0 3 ≠ main_v27 := by decide
theorem ne0_4 : Pipeline.arrRef spec0 4 ≠ main_v27 := by decide
/-- At region 0's exit each of its arrays holds what the pipeline leaves: an input as entered, the output its write-backs. -/
theorem hF0_0 (c : Dev nD) : (dat0 (U1 m) c).arrAt 0 cfg0.N = U2 m c (Pipeline.arrRef spec0 0) := by
  show _ = W2 m c (Proc.devRef .tc (Pipeline.arrRef spec0 0))
  unfold W2
  rw [Function.update_of_ne (StableHlo.devRef_ne_of_ne ne0_0)]
  exact ((dat0 (U1 m) c).arrAt_in 0 rfl _).trans (A_eq0 (U1 m) c 0)
theorem hF0_1 (c : Dev nD) : (dat0 (U1 m) c).arrAt 1 cfg0.N = U2 m c (Pipeline.arrRef spec0 1) := by
  show _ = W2 m c (Proc.devRef .tc (Pipeline.arrRef spec0 1))
  unfold W2
  rw [Function.update_of_ne (StableHlo.devRef_ne_of_ne ne0_1)]
  exact ((dat0 (U1 m) c).arrAt_in 1 rfl _).trans (A_eq0 (U1 m) c 1)
theorem hF0_2 (c : Dev nD) : (dat0 (U1 m) c).arrAt 2 cfg0.N = U2 m c (Pipeline.arrRef spec0 2) := by
  show _ = W2 m c (Proc.devRef .tc (Pipeline.arrRef spec0 2))
  unfold W2
  rw [Function.update_of_ne (StableHlo.devRef_ne_of_ne ne0_2)]
  exact ((dat0 (U1 m) c).arrAt_in 2 rfl _).trans (A_eq0 (U1 m) c 2)
theorem hF0_3 (c : Dev nD) : (dat0 (U1 m) c).arrAt 3 cfg0.N = U2 m c (Pipeline.arrRef spec0 3) := by
  show _ = W2 m c (Proc.devRef .tc (Pipeline.arrRef spec0 3))
  unfold W2
  rw [Function.update_of_ne (StableHlo.devRef_ne_of_ne ne0_3)]
  exact ((dat0 (U1 m) c).arrAt_in 3 rfl _).trans (A_eq0 (U1 m) c 3)
theorem hF0_4 (c : Dev nD) : (dat0 (U1 m) c).arrAt 4 cfg0.N = U2 m c (Pipeline.arrRef spec0 4) := by
  show _ = W2 m c (Proc.devRef .tc (Pipeline.arrRef spec0 4))
  unfold W2
  rw [Function.update_of_ne (StableHlo.devRef_ne_of_ne ne0_4)]
  exact ((dat0 (U1 m) c).arrAt_in 4 rfl _).trans (A_eq0 (U1 m) c 4)
theorem hF0_5 (c : Dev nD) : (dat0 (U1 m) c).arrAt 5 cfg0.N = U2 m c (Pipeline.arrRef spec0 5) := by
  show _ = W2 m c _
  unfold W2; rw [Function.update_self]
theorem hF0 (c : Dev nD) : ∀ w : Fin cfg0.W, (dat0 (U1 m) c).arrAt w cfg0.N = U2 m c (Pipeline.arrRef spec0 w)
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨n + 6, h⟩ => absurd h (Nat.not_lt.2 (Nat.le_add_left _ _))

/-- and every other buffer what it held at entry. -/
theorem hrest0 (c : Dev nD) : ∀ b, b ∉ Finset.univ.image (Pipeline.arrRef spec0) → U2 m c b = U1 m c b := fun b hb => by
  have hne : b ≠ Pipeline.arrRef spec0 5 := fun e => hb (Finset.mem_image.mpr ⟨5, Finset.mem_univ _, e.symm⟩)
  show W2 m c (Proc.devRef .tc b) = _
  unfold W2
  exact Function.update_of_ne (StableHlo.devRef_ne_of_ne hne) _ _

set_option backward.isDefEq.respectTransparency.types false in
/-- Region 0 over the thread state: entered from every unscoped buffer at `W1`, left at `W2`; its arrays split out
    of the unscoped buffers and put back at the exit contents; the generator register into the invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 -/

theorem ne1_0 : Pipeline.arrRef spec1 0 ≠ main_v42 := by decide
theorem ne1_1 : Pipeline.arrRef spec1 1 ≠ main_v42 := by decide
theorem ne1_2 : Pipeline.arrRef spec1 2 ≠ main_v42 := by decide
theorem ne1_3 : Pipeline.arrRef spec1 3 ≠ main_v42 := by decide
theorem ne1_4 : Pipeline.arrRef spec1 4 ≠ main_v42 := by decide
/-- At region 1's exit each of its arrays holds what the pipeline leaves: an input as entered, the output its write-backs. -/
theorem hF1_0 (c : Dev nD) : (dat1 (U3 m) c).arrAt 0 cfg1.N = U4 m c (Pipeline.arrRef spec1 0) := by
  show _ = W4 m c (Proc.devRef .tc (Pipeline.arrRef spec1 0))
  unfold W4
  rw [Function.update_of_ne (StableHlo.devRef_ne_of_ne ne1_0)]
  exact ((dat1 (U3 m) c).arrAt_in 0 rfl _).trans (A_eq1 (U3 m) c 0)
theorem hF1_1 (c : Dev nD) : (dat1 (U3 m) c).arrAt 1 cfg1.N = U4 m c (Pipeline.arrRef spec1 1) := by
  show _ = W4 m c (Proc.devRef .tc (Pipeline.arrRef spec1 1))
  unfold W4
  rw [Function.update_of_ne (StableHlo.devRef_ne_of_ne ne1_1)]
  exact ((dat1 (U3 m) c).arrAt_in 1 rfl _).trans (A_eq1 (U3 m) c 1)
theorem hF1_2 (c : Dev nD) : (dat1 (U3 m) c).arrAt 2 cfg1.N = U4 m c (Pipeline.arrRef spec1 2) := by
  show _ = W4 m c (Proc.devRef .tc (Pipeline.arrRef spec1 2))
  unfold W4
  rw [Function.update_of_ne (StableHlo.devRef_ne_of_ne ne1_2)]
  exact ((dat1 (U3 m) c).arrAt_in 2 rfl _).trans (A_eq1 (U3 m) c 2)
theorem hF1_3 (c : Dev nD) : (dat1 (U3 m) c).arrAt 3 cfg1.N = U4 m c (Pipeline.arrRef spec1 3) := by
  show _ = W4 m c (Proc.devRef .tc (Pipeline.arrRef spec1 3))
  unfold W4
  rw [Function.update_of_ne (StableHlo.devRef_ne_of_ne ne1_3)]
  exact ((dat1 (U3 m) c).arrAt_in 3 rfl _).trans (A_eq1 (U3 m) c 3)
theorem hF1_4 (c : Dev nD) : (dat1 (U3 m) c).arrAt 4 cfg1.N = U4 m c (Pipeline.arrRef spec1 4) := by
  show _ = W4 m c (Proc.devRef .tc (Pipeline.arrRef spec1 4))
  unfold W4
  rw [Function.update_of_ne (StableHlo.devRef_ne_of_ne ne1_4)]
  exact ((dat1 (U3 m) c).arrAt_in 4 rfl _).trans (A_eq1 (U3 m) c 4)
theorem hF1_5 (c : Dev nD) : (dat1 (U3 m) c).arrAt 5 cfg1.N = U4 m c (Pipeline.arrRef spec1 5) := by
  show _ = W4 m c _
  unfold W4; rw [Function.update_self]
theorem hF1 (c : Dev nD) : ∀ w : Fin cfg1.W, (dat1 (U3 m) c).arrAt w cfg1.N = U4 m c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨n + 6, h⟩ => absurd h (Nat.not_lt.2 (Nat.le_add_left _ _))

/-- and every other buffer what it held at entry. -/
theorem hrest1 (c : Dev nD) : ∀ b, b ∉ Finset.univ.image (Pipeline.arrRef spec1) → U4 m c b = U3 m c b := fun b hb => by
  have hne : b ≠ Pipeline.arrRef spec1 5 := fun e => hb (Finset.mem_image.mpr ⟨5, Finset.mem_univ _, e.symm⟩)
  show W4 m c (Proc.devRef .tc b) = _
  unfold W4
  exact Function.update_of_ne (StableHlo.devRef_ne_of_ne hne) _ _

set_option backward.isDefEq.respectTransparency.types false in
/-- Region 1 over the thread state: entered from every unscoped buffer at `W3`, left at `W4`; its arrays split out
    of the unscoped buffers and put back at the exit contents; the generator register into the invariant and out. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 -/

theorem ne2_0 : Pipeline.arrRef spec2 0 ≠ main_v43 := by decide
theorem ne2_1 : Pipeline.arrRef spec2 1 ≠ main_v43 := by decide
/-- At region 2's exit each of its arrays holds what the pipeline leaves: an input as entered, the output its write-backs. -/
theorem hF2_0 (c : Dev nD) : (dat2 (U4 m) c).arrAt 0 cfg2.N = U5 m c (Pipeline.arrRef spec2 0) := by
  show _ = W5 m c (Proc.devRef .tc (Pipeline.arrRef spec2 0))
  unfold W5
  rw [Function.update_of_ne (StableHlo.devRef_ne_of_ne ne2_0)]
  exact ((dat2 (U4 m) c).arrAt_in 0 rfl _).trans (A_eq2 (U4 m) c 0)
theorem hF2_1 (c : Dev nD) : (dat2 (U4 m) c).arrAt 1 cfg2.N = U5 m c (Pipeline.arrRef spec2 1) := by
  show _ = W5 m c (Proc.devRef .tc (Pipeline.arrRef spec2 1))
  unfold W5
  rw [Function.update_of_ne (StableHlo.devRef_ne_of_ne ne2_1)]
  exact ((dat2 (U4 m) c).arrAt_in 1 rfl _).trans (A_eq2 (U4 m) c 1)
theorem hF2_2 (c : Dev nD) : (dat2 (U4 m) c).arrAt 2 cfg2.N = U5 m c (Pipeline.arrRef spec2 2) := by
  show _ = W5 m c _
  unfold W5; rw [Function.update_self]
theorem hF2 (c : Dev nD) : ∀ w : Fin cfg2.W, (dat2 (U4 m) c).arrAt w cfg2.N = U5 m c (Pipeline.arrRef spec2 w)
  | ⟨0, _⟩ => hF2_0 m c
  | ⟨1, _⟩ => hF2_1 m c
  | ⟨2, _⟩ => hF2_2 m c
  | ⟨n + 3, h⟩ => absurd h (Nat.not_lt.2 (Nat.le_add_left _ _))

/-- and every other buffer what it held at entry. -/
theorem hrest2 (c : Dev nD) : ∀ b, b ∉ Finset.univ.image (Pipeline.arrRef spec2) → U5 m c b = U4 m c b := fun b hb => by
  have hne : b ≠ Pipeline.arrRef spec2 2 := fun e => hb (Finset.mem_image.mpr ⟨2, Finset.mem_univ _, e.symm⟩)
  show W5 m c (Proc.devRef .tc b) = _
  unfold W5
  exact Function.update_of_ne (StableHlo.devRef_ne_of_ne hne) _ _

set_option backward.isDefEq.respectTransparency.types false in
/-- Region 2 over the thread state: entered from every unscoped buffer at `W4`, left at `W5`; its arrays split out
    of the unscoped buffers and put back at the exit contents; the generator register into the invariant and out. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (U4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U4 m c) (U5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 -/

theorem ne3_0 : Pipeline.arrRef spec3 0 ≠ main_v58 := by decide
theorem ne3_1 : Pipeline.arrRef spec3 1 ≠ main_v58 := by decide
theorem ne3_2 : Pipeline.arrRef spec3 2 ≠ main_v58 := by decide
theorem ne3_3 : Pipeline.arrRef spec3 3 ≠ main_v58 := by decide
/-- At region 3's exit each of its arrays holds what the pipeline leaves: an input as entered, the output its write-backs. -/
theorem hF3_0 (c : Dev nD) : (dat3 (U6 m) c).arrAt 0 cfg3.N = U7 m c (Pipeline.arrRef spec3 0) := by
  show _ = W7 m c (Proc.devRef .tc (Pipeline.arrRef spec3 0))
  unfold W7
  rw [Function.update_of_ne (StableHlo.devRef_ne_of_ne ne3_0)]
  exact ((dat3 (U6 m) c).arrAt_in 0 rfl _).trans (A_eq3 (U6 m) c 0)
theorem hF3_1 (c : Dev nD) : (dat3 (U6 m) c).arrAt 1 cfg3.N = U7 m c (Pipeline.arrRef spec3 1) := by
  show _ = W7 m c (Proc.devRef .tc (Pipeline.arrRef spec3 1))
  unfold W7
  rw [Function.update_of_ne (StableHlo.devRef_ne_of_ne ne3_1)]
  exact ((dat3 (U6 m) c).arrAt_in 1 rfl _).trans (A_eq3 (U6 m) c 1)
theorem hF3_2 (c : Dev nD) : (dat3 (U6 m) c).arrAt 2 cfg3.N = U7 m c (Pipeline.arrRef spec3 2) := by
  show _ = W7 m c (Proc.devRef .tc (Pipeline.arrRef spec3 2))
  unfold W7
  rw [Function.update_of_ne (StableHlo.devRef_ne_of_ne ne3_2)]
  exact ((dat3 (U6 m) c).arrAt_in 2 rfl _).trans (A_eq3 (U6 m) c 2)
theorem hF3_3 (c : Dev nD) : (dat3 (U6 m) c).arrAt 3 cfg3.N = U7 m c (Pipeline.arrRef spec3 3) := by
  show _ = W7 m c (Proc.devRef .tc (Pipeline.arrRef spec3 3))
  unfold W7
  rw [Function.update_of_ne (StableHlo.devRef_ne_of_ne ne3_3)]
  exact ((dat3 (U6 m) c).arrAt_in 3 rfl _).trans (A_eq3 (U6 m) c 3)
theorem hF3_4 (c : Dev nD) : (dat3 (U6 m) c).arrAt 4 cfg3.N = U7 m c (Pipeline.arrRef spec3 4) := by
  show _ = W7 m c _
  unfold W7; rw [Function.update_self]
theorem hF3 (c : Dev nD) : ∀ w : Fin cfg3.W, (dat3 (U6 m) c).arrAt w cfg3.N = U7 m c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨n + 5, h⟩ => absurd h (Nat.not_lt.2 (Nat.le_add_left _ _))

/-- and every other buffer what it held at entry. -/
theorem hrest3 (c : Dev nD) : ∀ b, b ∉ Finset.univ.image (Pipeline.arrRef spec3) → U7 m c b = U6 m c b := fun b hb => by
  have hne : b ≠ Pipeline.arrRef spec3 4 := fun e => hb (Finset.mem_image.mpr ⟨4, Finset.mem_univ _, e.symm⟩)
  show W7 m c (Proc.devRef .tc b) = _
  unfold W7
  exact Function.update_of_ne (StableHlo.devRef_ne_of_ne hne) _ _

set_option backward.isDefEq.respectTransparency.types false in
/-- Region 3 over the thread state: entered from every unscoped buffer at `W6`, left at `W7`; its arrays split out
    of the unscoped buffers and put back at the exit contents; the generator register into the invariant and out. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (U6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (U6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (U6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (U6 m c) (U7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 4 -/

theorem ne4_0 : Pipeline.arrRef spec4 0 ≠ main_v60 := by decide
theorem ne4_1 : Pipeline.arrRef spec4 1 ≠ main_v60 := by decide
/-- At region 4's exit each of its arrays holds what the pipeline leaves: an input as entered, the output its write-backs. -/
theorem hF4_0 (c : Dev nD) : (dat4 (U8 m) c).arrAt 0 cfg4.N = U9 m c (Pipeline.arrRef spec4 0) := by
  show _ = W9 m c (Proc.devRef .tc (Pipeline.arrRef spec4 0))
  unfold W9
  rw [Function.update_of_ne (StableHlo.devRef_ne_of_ne ne4_0)]
  exact ((dat4 (U8 m) c).arrAt_in 0 rfl _).trans (A_eq4 (U8 m) c 0)
theorem hF4_1 (c : Dev nD) : (dat4 (U8 m) c).arrAt 1 cfg4.N = U9 m c (Pipeline.arrRef spec4 1) := by
  show _ = W9 m c (Proc.devRef .tc (Pipeline.arrRef spec4 1))
  unfold W9
  rw [Function.update_of_ne (StableHlo.devRef_ne_of_ne ne4_1)]
  exact ((dat4 (U8 m) c).arrAt_in 1 rfl _).trans (A_eq4 (U8 m) c 1)
theorem hF4_2 (c : Dev nD) : (dat4 (U8 m) c).arrAt 2 cfg4.N = U9 m c (Pipeline.arrRef spec4 2) := by
  show _ = W9 m c _
  unfold W9; rw [Function.update_self]
theorem hF4 (c : Dev nD) : ∀ w : Fin cfg4.W, (dat4 (U8 m) c).arrAt w cfg4.N = U9 m c (Pipeline.arrRef spec4 w)
  | ⟨0, _⟩ => hF4_0 m c
  | ⟨1, _⟩ => hF4_1 m c
  | ⟨2, _⟩ => hF4_2 m c
  | ⟨n + 3, h⟩ => absurd h (Nat.not_lt.2 (Nat.le_add_left _ _))

/-- and every other buffer what it held at entry. -/
theorem hrest4 (c : Dev nD) : ∀ b, b ∉ Finset.univ.image (Pipeline.arrRef spec4) → U9 m c b = U8 m c b := fun b hb => by
  have hne : b ≠ Pipeline.arrRef spec4 2 := fun e => hb (Finset.mem_image.mpr ⟨2, Finset.mem_univ _, e.symm⟩)
  show W9 m c (Proc.devRef .tc b) = _
  unfold W9
  exact Function.update_of_ne (StableHlo.devRef_ne_of_ne hne) _ _

set_option backward.isDefEq.respectTransparency.types false in
/-- Region 4 over the thread state: entered from every unscoped buffer at `W8`, left at `W9`; its arrays split out
    of the unscoped buffers and put back at the exit contents; the generator register into the invariant and out. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (U8 m) c).loose
  hwaits := Pipeline.hwaits_of_owed_zero _ _ _ _ L lv 4 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec4 c (U8 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (U8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none]
    refine BI.Entails.trans (hout4 (U8 m) c) ?_
    show Pipeline.ΦA spec4 c ⊢ _
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (U8 m c) (U9 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- Every weakly fair execution of @main terminates, nothing faulting, and every argument array ends as launched:
    the conditional frame at these five region records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    E
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (reg0 m) (fun c => by rw [V1_eq]; exact .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V8_eq]; exact .rfl) (fun c => by rw [V9_eq]; exact .rfl)

end Cert.KernelIdeal.Hand

end
-- ==== Proof.KI.RunAll.lean ====
/-
  The kernel program's run, at any float instance, with every unscoped buffer read back at the end: the same launch over the
  same five region records as the frame, its post keeping the whole last valuation `W9` instead of the argument
  arrays only, so that the result array can be read off it.
-/
import proofs.«404932_j73151882985825_3_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Two families held core by core are the family of their pairs. -/
theorem bigSep_join (A B : Dev nD → sProp 𝕄) :
    iprop(bigSep Finset.univ A ∗ bigSep Finset.univ B) ⊢ bigSep Finset.univ (fun c => iprop(A c ∗ B c)) := by
  rw [bigSep_sep']

theorem hu0 : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE5 (c : Dev nD) : E (F := F) 5 c ⊢ (iprop(∃ W, owes (c : Thread nD τ) (0 : CellTallies nD τ sig Unit) W) : sProp 𝕄) := by
  iintro ⟨-, H⟩; iexact H

theorem hpre0 (c : Dev nD) : iprop(StableHlo.held (c : Thread nD τ) (Pipeline.ucRefs τ sig) (V1 m c) ∗ E (F := F) 0 c) ⊢ (reg0 m).pre c := by rw [V1_eq]; exact .rfl
theorem hpost0 (c : Dev nD) : (reg0 m).post c ⊢ iprop(StableHlo.held (c : Thread nD τ) (Pipeline.ucRefs τ sig) (V2 m (outs m) c) ∗ E (F := F) 1 c) := by rw [V2_eq]; exact .rfl
theorem hpre1 (c : Dev nD) : iprop(StableHlo.held (c : Thread nD τ) (Pipeline.ucRefs τ sig) (V3 m (outs m) c) ∗ E (F := F) 1 c) ⊢ (reg1 m).pre c := by rw [V3_eq]; exact .rfl
theorem hpost1 (c : Dev nD) : (reg1 m).post c ⊢ iprop(StableHlo.held (c : Thread nD τ) (Pipeline.ucRefs τ sig) (V4 m (outs m) c) ∗ E (F := F) 2 c) := by rw [V4_eq]; exact .rfl
theorem hpre2 (c : Dev nD) : iprop(StableHlo.held (c : Thread nD τ) (Pipeline.ucRefs τ sig) (V4 m (outs m) c) ∗ E (F := F) 2 c) ⊢ (reg2 m).pre c := by rw [V4_eq]; exact .rfl
theorem hpost2 (c : Dev nD) : (reg2 m).post c ⊢ iprop(StableHlo.held (c : Thread nD τ) (Pipeline.ucRefs τ sig) (V5 m (outs m) c) ∗ E (F := F) 3 c) := by rw [V5_eq]; exact .rfl
theorem hpre3 (c : Dev nD) : iprop(StableHlo.held (c : Thread nD τ) (Pipeline.ucRefs τ sig) (V6 m (outs m) c) ∗ E (F := F) 3 c) ⊢ (reg3 m).pre c := by rw [V6_eq]; exact .rfl
theorem hpost3 (c : Dev nD) : (reg3 m).post c ⊢ iprop(StableHlo.held (c : Thread nD τ) (Pipeline.ucRefs τ sig) (V7 m (outs m) c) ∗ E (F := F) 4 c) := by rw [V7_eq]; exact .rfl
theorem hpre4 (c : Dev nD) : iprop(StableHlo.held (c : Thread nD τ) (Pipeline.ucRefs τ sig) (V8 m (outs m) c) ∗ E (F := F) 4 c) ⊢ (reg4 m).pre c := by rw [V8_eq]; exact .rfl
theorem hpost4 (c : Dev nD) : (reg4 m).post c ⊢ iprop(StableHlo.held (c : Thread nD τ) (Pipeline.ucRefs τ sig) (V9 m (outs m) c) ∗ E (F := F) 5 c) := by rw [V9_eq]; exact .rfl

set_option backward.isDefEq.respectTransparency.types false in
/-- Every weakly fair execution of @main terminates, nothing faulting, and every unscoped buffer ends at `W9`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W9 m c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m))
    (fun c Q => by
      rewrite [main_chain c, Seg.run_eq_chain,
        show (segs m (outs m) 𝒱₀ L lv E () (pdats m) (reg0 m) (reg1 m) (reg2 m) (reg3 m) (reg4 m) c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) hu0
    (T₀ := fun c => iprop(StableHlo.held (c : Thread nD τ) (Pipeline.ucRefs τ sig) (V0 m c) ∗ E 0 c))
    (Tₙ := fun c => StableHlo.held (c : Thread nD τ) (Pipeline.ucRefs τ sig) (V9 m (outs m) c))
    (hch := fun c => ⟨.rfl, hpre0 m c, hpost0 m c, hpre1 m c, (hpost1 m c).trans (hpre2 m c), hpost2 m c, hpre3 m c, hpost3 m c, hpre4 m c, (hpost4 m c).trans (sep_mono .rfl (hE5 (F := F) c))⟩)
    (hinit := ?_) (QY := fun c s => ∀ b ∈ Pipeline.ucRefs τ sig, s.mem ((c : Thread nD τ).1, b) = W9 m c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    iapply (bigSep_join (fun c : Dev nD => StableHlo.held (c : Thread nD τ) (Pipeline.ucRefs τ sig) (V0 m c)) (E (F := F) 0))
    isplitl [Hh]; · iexact Hh
    iexact HE
  · -- the end: every unscoped buffer read off the last valuation
    unfold StableHlo.held
    iintro ⟨Hh, HSI⟩
    ihave Hr := (pointsTo_read_all (Pipeline.ucRefs τ sig) (fun b => ((c : Thread nD τ).1, b)) (V9 m (outs m) c) s') $$ [Hh HSI]
    · isplitl [Hh] <;> iassumption
    icases Hr with ⟨%h, HSI⟩
    imodintro
    isplitr
    · ipureintro
      intro b hb
      rw [← V9_eq]
      exact h b hb
    · iexact HSI

end Cert.KernelIdeal.Hand

end
-- ==== Proof.KI.KFun.lean ====
/-
  The idealized kernel program, function by function, at the exact extended reals: what each stretch of host
  operations and each of the five kernel regions computes, as a function of whole arrays.
  * `src`, `dst`: the two rows of the edge list; a negative source counts from the end (`srcN`).
  * `degOf`: the number of edges landing at each node; `dinvOf = 1 / max(deg, 1)`.
  * `aggOf128` / `aggOf64`: rows gathered at the sources, summed at the destinations, scaled row by row;
    `agg128` / `agg64` the same from the edge list, scaled by `dinvOf`.
  * `combine`: relu(agg · Wl + x · Wr + b) (regions 0 and 1); `dense`: h · W (region 2);
    `final`: h · Wr + aggy + b (region 3); `pool`: per graph, the mean of its nodes' rows (region 4).
-/
import proofs.«404932_j73151882985825_3_alg».proof.KernelIdeal
import proofs.«404932_j73151882985825_3_alg».proof.Proof.Gen.KernelIdeal
import Idealize.ShloMosaic.PureOps.Ideal
import Idealize.ShloMosaic.Lib.ValueIdx

noncomputable section

namespace Cert.KernelIdeal.KFun

open Cert.KernelIdeal Cert.KernelIdeal.Facts₀ Idealize.ShloMosaic Idealize.ShloMosaic.ValueIdx

/-! ## The host stretches -/

/-- Row 0 of the edge list: the sources. -/
def src (x1 : IVec S2x1600000 32) : IVec S1600000 32 :=
  shapeCast _ (extractStridedSlice S1x1600000 ![0, 0] x1 slices_S2x1600000_S1x1600000_0_0) shapeCasts_S1x1600000_S1600000
/-- Row 1 of the edge list: the destinations. -/
def dst (x1 : IVec S2x1600000 32) : IVec S1600000 32 :=
  shapeCast _ (extractStridedSlice S1x1600000 ![1, 0] x1 slices_S2x1600000_S1x1600000_1_0) shapeCasts_S1x1600000_S1600000
/-- The sources with a negative index counted from the end, as a column of start indices. -/
def srcCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)
/-- The destinations as a column of scatter indices. -/
def dstCol (d : IVec S1600000 32) : IVec S1600000x1 32 :=
  broadcastInDim S1600000x1 ![0] bcast_S1600000_S1600000x1_0 d
/-- How many edges land at each node. -/
def degOf (d : IVec S1600000 32) : FVec Ideal S100000 .f32 :=
  Host.scatterAdd scatter_S100000_S1600000x1_S1600000_n_0_0_1
    (broadcastInDim S100000 ![] bcast_S_S100000 (constant S_ .f32 0x00000000#32)) (dstCol d)
    (broadcastInDim S1600000 ![] bcast_S_S1600000 (constant S_ .f32 0x3F800000#32))
/-- `1 / max(deg, 1)`. -/
def dinvOf (d : IVec S1600000 32) : FVec Ideal S100000 .f32 :=
  Host.divf (broadcastInDim S100000 ![] bcast_S_S100000 (constant S_ .f32 0x3F800000#32))
    (maximumf (degOf d) (broadcastInDim S100000 ![] bcast_S_S100000 (constant S_ .f32 0x3F800000#32)))
/-- Rows of `h` gathered at the sources `s`, summed at the destinations `d`, scaled row by row by `r`; 128 columns. -/
def aggOf128 (h : S100000x128.Idx → EReal) (s d : IVec S1600000 32) (r : S100000.Idx → EReal) : FVec Ideal S100000x128 .f32 :=
  mulf (F := Ideal) (φ := .f32)
    (Host.scatterAdd (F := Ideal) (φ := .f32) scatter_S100000x128_S1600000x1_S1600000x128_1_0_0_1
      (broadcastInDim S100000x128 ![] bcast_S_S100000x128 (constant S_ .f32 0x00000000#32)) (dstCol d)
      (Host.gather gather_S100000x128_S1600000x1_S1600000x128_1_0_n_n_0_1_1128 h (srcCol s)))
    (broadcastInDim S100000x128 ![0, 1] bcast_S100000x1_S100000x128_0_1
      (broadcastInDim S100000x1 ![0] bcast_S100000_S100000x1_0 r))
/-- The same, 64 columns. -/
def aggOf64 (y : S100000x64.Idx → EReal) (s d : IVec S1600000 32) (r : S100000.Idx → EReal) : FVec Ideal S100000x64 .f32 :=
  mulf (F := Ideal) (φ := .f32)
    (Host.scatterAdd (F := Ideal) (φ := .f32) scatter_S100000x64_S1600000x1_S1600000x64_1_0_0_1
      (broadcastInDim S100000x64 ![] bcast_S_S100000x64 (constant S_ .f32 0x00000000#32)) (dstCol d)
      (Host.gather gather_S100000x64_S1600000x1_S1600000x64_1_0_n_n_0_1_164 y (srcCol s)))
    (broadcastInDim S100000x64 ![0, 1] bcast_S100000x1_S100000x64_0_1
      (broadcastInDim S100000x1 ![0] bcast_S100000_S100000x1_0 r))
/-- The mean of the source rows over the edges landing at each node, from the edge list. -/
def agg128 (h : S100000x128.Idx → EReal) (x1 : IVec S2x1600000 32) : FVec Ideal S100000x128 .f32 :=
  aggOf128 h (src x1) (dst x1) (dinvOf (dst x1))
def agg64 (y : S100000x64.Idx → EReal) (x1 : IVec S2x1600000 32) : FVec Ideal S100000x64 .f32 :=
  aggOf64 y (src x1) (dst x1) (dinvOf (dst x1))
/-- The graph ids re-laid as 10 rows of 10000. -/
def batR (x2 : IVec S100000 32) : IVec S10x1x10000 32 :=
  shapeCast _ x2 shapeCasts_S100000_S10x1x10000

/-! ## The five regions -/

/-- Regions 0 and 1: relu(agg · Wl + x · Wr + b). -/
def combine (agg x : S100000x128.Idx → EReal) (wl wr : S128x128.Idx → EReal) (b : S128.Idx → EReal) :
    S100000x128.Idx → EReal :=
  fun i => max (((∑ k : Fin 128, agg (ix2 (i 0 : Fin 100000) k) * wl (ix2 k (i 1 : Fin 128)))
      + (∑ k : Fin 128, x (ix2 (i 0 : Fin 100000) k) * wr (ix2 k (i 1 : Fin 128)))) + b (ix1 (i 1 : Fin 128))) 0

/-- Region 2: h · W. -/
def dense (h : S100000x128.Idx → EReal) (w : S128x64.Idx → EReal) : S100000x64.Idx → EReal :=
  fun i => ∑ k : Fin 128, h (ix2 (i 0 : Fin 100000) k) * w (ix2 k (i 1 : Fin 64))

/-- Region 3: h · Wr + aggy + b. -/
def final (aggy : S100000x64.Idx → EReal) (h : S100000x128.Idx → EReal) (wr : S128x64.Idx → EReal) (b : S64.Idx → EReal) :
    S100000x64.Idx → EReal :=
  fun i => ((∑ k : Fin 128, h (ix2 (i 0 : Fin 100000) k) * wr (ix2 k (i 1 : Fin 64))) + aggy i) + b (ix1 (i 1 : Fin 64))

/-- Node `n` of row block `t` (10 blocks of 10000). -/
def node (t : Fin 10) (n : Fin 10000) : Fin 100000 := ⟨t.val * 10000 + n.val, by omega⟩

/-- Whether node `n` of block `t` belongs to graph `g`, as 1 or 0. -/
def member (bat : IVec S10x1x10000 32) (t : Fin 10) (g : Fin 64) (n : Fin 10000) : EReal :=
  if BitVec.ofNat 32 g.val = bat (ix3 t (0 : Fin 1) n) then 1 else 0

/-- Region 4: per graph the sum of its nodes' rows over the larger of their number and 1. -/
def pool (h : S100000x64.Idx → EReal) (bat : IVec S10x1x10000 32) : S64x64.Idx → EReal :=
  fun i => Ideal.div (∑ t : Fin 10, ∑ n : Fin 10000, member bat t (i 0 : Fin 64) n * h (ix2 (node t n) (i 1 : Fin 64)))
    (max (∑ t : Fin 10, ∑ n : Fin 10000, member bat t (i 0 : Fin 64) n) 1)

/-! ## The program, region after region -/

/-- Layer 0's output. -/
def h0 (x0 : S100000x128.Idx → EReal) (x1 : IVec S2x1600000 32) (x4 x5 : S128x128.Idx → EReal) (x6 : S128.Idx → EReal) :=
  combine (agg128 x0 x1) x0 x4 x5 x6
/-- Layer 1's output. -/
def h1 (x0 : S100000x128.Idx → EReal) (x1 : IVec S2x1600000 32) (x4 x5 : S128x128.Idx → EReal) (x6 : S128.Idx → EReal)
    (x7 x8 : S128x128.Idx → EReal) (x9 : S128.Idx → EReal) :=
  combine (agg128 (h0 x0 x1 x4 x5 x6) x1) (h0 x0 x1 x4 x5 x6) x7 x8 x9
/-- Layer 2's output. -/
def h2 (x0 : S100000x128.Idx → EReal) (x1 : IVec S2x1600000 32) (x4 x5 : S128x128.Idx → EReal) (x6 : S128.Idx → EReal)
    (x7 x8 : S128x128.Idx → EReal) (x9 : S128.Idx → EReal) (x10 x11 : S128x64.Idx → EReal) (x12 : S64.Idx → EReal) :=
  final (agg64 (dense (h1 x0 x1 x4 x5 x6 x7 x8 x9) x10) x1) (h1 x0 x1 x4 x5 x6 x7 x8 x9) x11 x12
/-- The program's result. -/
def out (x0 : S100000x128.Idx → EReal) (x1 : IVec S2x1600000 32) (x2 : IVec S100000 32) (x4 x5 : S128x128.Idx → EReal) (x6 : S128.Idx → EReal)
    (x7 x8 : S128x128.Idx → EReal) (x9 : S128.Idx → EReal) (x10 x11 : S128x64.Idx → EReal) (x12 : S64.Idx → EReal) : S64x64.Idx → EReal :=
  pool (h2 x0 x1 x4 x5 x6 x7 x8 x9 x10 x11 x12) (batR x2)

end Cert.KernelIdeal.KFun

end
-- ==== Proof.KI.HostVal.lean ====
/-
  What the kernel program's four stretches of host operations compute, at the exact extended reals, as the
  whole-array functions of KFun: the two rows of the edge list, the reciprocal of the clamped in-degree, the
  gathered, summed and scaled neighbour rows (128 and 64 columns), and the graph ids re-laid as 10 rows.
  Each statement reads one result buffer of the fold of the stretch's operations as the operations' composed
  term of the contents before the stretch; the conversions between the 32-bit and the 16-bit float formats
  around the gathers are the identity at the extended reals.
-/
import proofs.«404932_j73151882985825_3_alg».proof.Proof.Gen.KernelIdeal.Launch
import proofs.«404932_j73151882985825_3_alg».proof.Proof.KI.KFun
import Idealize.ShloMosaic.Lib.StableHlo.Run

set_option maxRecDepth 16384

noncomputable section

namespace Cert.KernelIdeal.Hand

open Cert.KernelIdeal Cert.KernelIdeal.Gen Cert.KernelIdeal.Facts₀
open Idealize.ShloMosaic Idealize.ShloMosaic.TcCoe Idealize.ShloMosaic.StableHlo

/-- Row 0 of the edge list. -/
theorem host0_v1 (W : Valuation τ sig (Elt Ideal)) :
    StableHlo.after (hostOps0 (F := Ideal)) W (Proc.devRef .tc main_v1) = KFun.src (W (Proc.devRef .tc main_arg1)) := by
  show StableHlo.after (hostOps0 (F := Ideal)) W (Proc.devRef .tc main_v1) = _
  after_results_simp
  rfl

/-- Row 1 of the edge list. -/
theorem host0_v3 (W : Valuation τ sig (Elt Ideal)) :
    StableHlo.after (hostOps0 (F := Ideal)) W (Proc.devRef .tc main_v3) = KFun.dst (W (Proc.devRef .tc main_arg1)) := by
  show StableHlo.after (hostOps0 (F := Ideal)) W (Proc.devRef .tc main_v3) = _
  after_results_simp
  rfl

/-- The reciprocal of the larger of the in-degree and 1. -/
theorem host0_v11 (W : Valuation τ sig (Elt Ideal)) :
    StableHlo.after (hostOps0 (F := Ideal)) W (Proc.devRef .tc main_v11)
      = KFun.dinvOf (KFun.dst (W (Proc.devRef .tc main_arg1))) := by
  show StableHlo.after (hostOps0 (F := Ideal)) W (Proc.devRef .tc main_v11) = _
  after_results_simp
  rfl

/-- Layer 0's neighbour means: the input rows gathered at the sources, summed at the destinations, scaled by the
    reciprocal of the clamped in-degree. -/
theorem host0_v26 (W : Valuation τ sig (Elt Ideal)) :
    StableHlo.after (hostOps0 (F := Ideal)) W (Proc.devRef .tc main_v26)
      = KFun.agg128 (W (Proc.devRef .tc main_arg0)) (W (Proc.devRef .tc main_arg1)) := by
  show StableHlo.after (hostOps0 (F := Ideal)) W (Proc.devRef .tc main_v26) = _
  after_results_simp
  rfl

/-- Layer 1's neighbour sums: rows gathered at the sources, summed at the destinations, scaled row by row. -/
theorem host1_v41 (W : Valuation τ sig (Elt Ideal)) :
    StableHlo.after (hostOps1 (F := Ideal)) W (Proc.devRef .tc main_v41)
      = KFun.aggOf128 (W (Proc.devRef .tc main_v27)) (W (Proc.devRef .tc main_v1)) (W (Proc.devRef .tc main_v3))
          (W (Proc.devRef .tc main_v11)) := by
  show StableHlo.after (hostOps1 (F := Ideal)) W (Proc.devRef .tc main_v41) = _
  after_results_simp
  rfl

/-- Layer 2's neighbour sums, 64 columns. -/
theorem host3_v57 (W : Valuation τ sig (Elt Ideal)) :
    StableHlo.after (hostOps3 (F := Ideal)) W (Proc.devRef .tc main_v57)
      = KFun.aggOf64 (W (Proc.devRef .tc main_v43)) (W (Proc.devRef .tc main_v1)) (W (Proc.devRef .tc main_v3))
          (W (Proc.devRef .tc main_v11)) := by
  show StableHlo.after (hostOps3 (F := Ideal)) W (Proc.devRef .tc main_v57) = _
  after_results_simp
  rfl

/-- The graph ids re-laid as 10 rows of 10000. -/
theorem host4_v59 (W : Valuation τ sig (Elt Ideal)) :
    StableHlo.after (hostOps4 (F := Ideal)) W (Proc.devRef .tc main_v59) = KFun.batR (W (Proc.devRef .tc main_arg2)) := by
  show StableHlo.after (hostOps4 (F := Ideal)) W (Proc.devRef .tc main_v59) = _
  after_results_simp
  rfl

end Cert.KernelIdeal.Hand

end
-- ==== Proof.KI.Val0.lean ====
/-
  Region 0 at the exact extended reals: the array its write-backs leave is relu(agg · Wl + x · Wr + b) of the arrays
  it finds, entry by entry.
-/
import proofs.«404932_j73151882985825_3_alg».proof.Proof.KI.Reg0
import proofs.«404932_j73151882985825_3_alg».proof.Proof.KI.KFun
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The product of a row block with a square matrix, entry by entry -/

theorem lhs_mm0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 matrix into the zero accumulator: entry (p, q) is the sum over k of the
    block's (p, k) times the matrix's (k, q). -/
theorem mm0_apply {φ₁ φ₂ : FTy} (a : FVec Ideal S5000x128 φ₁) (b : FVec Ideal S128x128 φ₂) (p : Fin 5000) (q : Fin 128) :
    FloatOps.matmul (F := Ideal) dot_S5000x128_S128x128_S5000x128_1_0_0_1_n_n none a b (constant (F := Ideal) S5000x128 .f32 0x00000000#32) (ix2 p q)
      = ∑ k : Fin 128, a (ix2 p k) * b (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm0_0 _ _
    | ⟨1, _⟩ => exact (lhs_mm0_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm0_0 _ _).trans hk
    | ⟨1, _⟩ => exact rhs_mm0_1 _ _)
  rw [el, er]

/-! ## The payload, entry by entry -/

/-- relu(a · Wl + x · Wr + b) on one row block: entry (p, q) of the body's payload. -/
theorem pay0_apply (x0 x1 : Vec Ideal S5000x128 .f32) (x2 x3 : Vec Ideal S128x128 .f32) (x4 : Vec Ideal S128 .f32) (p : Fin 5000) (q : Fin 128) :
    k0_pay1 x0 x1 x2 x3 x4 (ix2 p q)
      = max (((∑ k : Fin 128, x0 (ix2 p k) * x2 (ix2 k q)) + (∑ k : Fin 128, x1 (ix2 p k) * x3 (ix2 k q))) + x4 (ix1 q)) 0 := by
  unfold k0_pay1
  simp only [shapeCast_self]
  show max ((FloatOps.matmul (F := Ideal) dot_S5000x128_S128x128_S5000x128_1_0_0_1_n_n none (truncf .bf16 x0 bitsLt_bf16_f32) (truncf .bf16 x2 bitsLt_bf16_f32) (constant (F := Ideal) S5000x128 .f32 0x00000000#32) (ix2 p q)
      + FloatOps.matmul (F := Ideal) dot_S5000x128_S128x128_S5000x128_1_0_0_1_n_n none (truncf .bf16 x1 bitsLt_bf16_f32) (truncf .bf16 x3 bitsLt_bf16_f32) (constant (F := Ideal) S5000x128 .f32 0x00000000#32) (ix2 p q))
      + broadcastTo S5000x128 (shapeCast S1x128 x4 shapeCasts_S128_S1x128) broadcasts_S1x128_S5000x128 (ix2 p q)) (Ideal.ofBits .f32 0x00000000#32) = _
  rw [mm0_apply, mm0_apply, Ideal.ofBits_zero_f32, broadcastTo_1b_ab_apply, shapeCast_a_1a_apply]
  rfl

/-! ## What a point writes back -/

variable (V : (c : Dev nD) → (b : Ref sig .tc) → Buf (Elt Ideal) ((c : Thread nD τ).loc b))

theorem hz0_2 : (![0, 0] : Fin 2 → Nat) = fun _ => 0 := funext fun a => by fin_cases a <;> rfl
theorem hz0_1 : (![0] : Fin 1 → Nat) = fun _ => 0 := funext fun a => by fin_cases a <;> rfl

/-- The payload of blocks that are rows b·5000 .. b·5000 + 4999 of two arrays, and the whole of two matrices and a
    vector, is the same rows of relu(A · Wl + X · Wr + B). -/
theorem combine_block0 (A X : S100000x128.Idx → EReal) (Wl Wr : S128x128.Idx → EReal) (B : S128.Idx → EReal)
    (x0 x1 : Vec Ideal S5000x128 .f32) (x2 x3 : Vec Ideal S128x128 .f32) (x4 : Vec Ideal S128 .f32)
    (b : Nat) (hb : b < 20)
    (h0 : ∀ (p : Fin 5000) (k : Fin 128), x0 (ix2 p k) = A (ix2 (⟨b * 5000 + p.val, by have := p.isLt; omega⟩ : Fin 100000) k))
    (h1 : ∀ (p : Fin 5000) (k : Fin 128), x1 (ix2 p k) = X (ix2 (⟨b * 5000 + p.val, by have := p.isLt; omega⟩ : Fin 100000) k))
    (h2 : ∀ (k q : Fin 128), x2 (ix2 k q) = Wl (ix2 k q)) (h3 : ∀ (k q : Fin 128), x3 (ix2 k q) = Wr (ix2 k q))
    (h4 : ∀ q : Fin 128, x4 (ix1 q) = B (ix1 q)) (p : Fin 5000) (q : Fin 128) :
    k0_pay1 x0 x1 x2 x3 x4 (ix2 p q)
      = KFun.combine A X Wl Wr B (ix2 (⟨b * 5000 + p.val, by have := p.isLt; omega⟩ : Fin 100000) q) := by
  rw [pay0_apply]
  unfold KFun.combine
  simp only [h0, h1, h2, h3, h4]

/-- The block index maps, decided over the grid: the two row-block inputs move with the output, the matrices and the
    bias stay, and the output's row block is the point's number. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) < 20 ∧ win0_5.index t (1 : Fin 2) = 0 :=
  (by decide +kernel : ∀ t : Fin grid0.N, _)

/-- Every row block is some point's. -/
theorem idx_onto0 : ∀ q0 : Fin 20, ∃ t : Fin cfg0.N, win0_5.index t = ![q0.val, 0] :=
  (by decide +kernel : ∀ q0 : Fin 20, ∃ t : Fin grid0.N, win0_5.index t = ![q0.val, 0])

/-- What point `t` writes back is its row block of relu(agg · Wl + x · Wr + b) of the arrays the region finds. -/
theorem flushed0_eq (c : Dev nD) (t : Fin cfg0.N) :
    (dat0 (F := Ideal) V c).flushed 5 t = ((cfg0.win 5).blk t).view.read (Elt Ideal)
      (KFun.combine (V c main_v26) (V c main_arg0) (V c main_arg4) (V c main_arg5) (V c main_arg6)) := by
  show (cfg0.win 5).cut (grid0.coords t) ((dat0 V c).after 5 t) = _
  rw [after0_5]
  unfold out0_5
  rw [View.canon_unit_zero hz0_2]
  simp only [View.ld_unit_zero (S := S5000x128) hz0_2, View.ld_unit_zero (S := S128x128) hz0_2, View.ld_unit_zero (S := S128) hz0_1]
  obtain ⟨e00, e01, e10, e11, e20, e21, e30, e31, e40, e50, e51⟩ := idx_facts0 t
  funext j
  show k0_pay1 (iblk0 V c 0 t) (iblk0 V c 1 t) (iblk0 V c 2 t) (iblk0 V c 3 t) (iblk0 V c 4 t) j
    = KFun.combine (V c main_v26) (V c main_arg0) (V c main_arg4) (V c main_arg5) (V c main_arg6) (((cfg0.win 5).blk t).view.emb j)
  refine (congrArg (k0_pay1 (iblk0 V c 0 t) (iblk0 V c 1 t) (iblk0 V c 2 t) (iblk0 V c 3 t) (iblk0 V c 4 t)) (eq_ix2 (n0 := 5000) (n1 := 128) j)).trans ?_
  refine (combine_block0 (V c main_v26) (V c main_arg0) (V c main_arg4) (V c main_arg5) (V c main_arg6) _ _ _ _ _ (win0_5.index t (0 : Fin 2)) e50 ?_ ?_ ?_ ?_ ?_ (j 0) (j 1)).trans ?_
  · intro p k
    show V c main_v26 (((cfg0.win 0).blk t).view.emb (ix2 p k)) = _
    refine congrArg (V c main_v26) (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 128 + 1 * k.val = k.val; omega
  · intro p k
    show V c main_arg0 (((cfg0.win 1).blk t).view.emb (ix2 p k)) = _
    refine congrArg (V c main_arg0) (funext fun a => Fin.ext ?_)
    match a with
    | ⟨0, _⟩ => show win0_1.index t (0 : Fin 2) * 5000 + 1 * p.val = win0_5.index t (0 : Fin 2) * 5000 + p.val; omega
    | ⟨1, _⟩ => show win0_1.index t (1 : Fin 2) * 128 + 1 * k.val = k.val; omega
  · intro k q
    show V c main_arg4 (((cfg0.win 2).blk t).view.emb (ix2 k q)) = _
    refine congrArg (V c main_arg4) (funext fun a => Fin.ext ?_)
    match a with
    | ⟨0, _⟩ => show win0_2.index t (0 : Fin 2) * 128 + 1 * k.val = k.val; omega
    | ⟨1, _⟩ => show win0_2.index t (1 : Fin 2) * 128 + 1 * q.val = q.val; omega
  · intro k q
    show V c main_arg5 (((cfg0.win 3).blk t).view.emb (ix2 k q)) = _
    refine congrArg (V c main_arg5) (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  · intro q
    show V c main_arg6 (((cfg0.win 4).blk t).view.emb (ix1 q)) = _
    refine congrArg (V c main_arg6) (funext fun a => Fin.ext ?_)
    match a with
    | ⟨0, _⟩ => show win0_4.index t (0 : Fin 1) * 128 + 1 * q.val = q.val; omega
  · refine congrArg (KFun.combine (V c main_v26) (V c main_arg0) (V c main_arg4) (V c main_arg5) (V c main_arg6)) (funext fun a => Fin.ext ?_)
    match a with
    | ⟨0, _⟩ => show win0_5.index t (0 : Fin 2) * 5000 + (j 0).val = win0_5.index t (0 : Fin 2) * 5000 + 1 * (j 0).val; omega
    | ⟨1, _⟩ => show (j 1).val = win0_5.index t (1 : Fin 2) * 128 + 1 * (j 1).val; omega

/-! ## The row blocks fill the array -/

/-- An index of the array is in point `t`'s block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v27).slice (win0_5.rect t)).set ↔ _
  rw [View.set_slice_whole, Rect.mem_set_unit]
  exact Iff.rfl

/-- Row r of the array is in the block of point r / 5000, which is written back. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-! ## The array after the region -/

/-- The output array after region 0 is relu(agg · Wl + x · Wr + b) of the arrays the region finds. -/
theorem arr0 (c : Dev nD) :
    (dat0 (F := Ideal) V c).arrAt 5 cfg0.N = KFun.combine (V c main_v26) (V c main_arg0) (V c main_arg4) (V c main_arg5) (V c main_arg6) :=
  (dat0 (F := Ideal) V c).arrAt_eq_of_cover 5 _ (fun t _ => flushed0_eq V c t) (cover0)

end Cert.KernelIdeal.Hand

end
-- ==== Proof.KI.Val1.lean ====
/-
  Region 1 at the exact extended reals: the array its write-backs leave is relu(agg · Wl + x · Wr + b) of the arrays
  it finds, entry by entry (the node features arrive in bf16, which at the exact reals changes nothing).
-/
import proofs.«404932_j73151882985825_3_alg».proof.Proof.KI.Reg1
import proofs.«404932_j73151882985825_3_alg».proof.Proof.KI.KFun
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The product of a row block with a square matrix, entry by entry -/

theorem lhs_mm1_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_mm1_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_mm1_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_mm1_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A 5000 × 128 block times a 128 × 128 matrix into the zero accumulator: entry (p, q) is the sum over k of the
    block's (p, k) times the matrix's (k, q). -/
theorem mm1_apply {φ₁ φ₂ : FTy} (a : FVec Ideal S5000x128 φ₁) (b : FVec Ideal S128x128 φ₂) (p : Fin 5000) (q : Fin 128) :
    FloatOps.matmul (F := Ideal) dot_S5000x128_S128x128_S5000x128_1_0_0_1_n_n none a b (constant (F := Ideal) S5000x128 .f32 0x00000000#32) (ix2 p q)
      = ∑ k : Fin 128, a (ix2 p k) * b (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_mm1_0 _ _
    | ⟨1, _⟩ => exact (lhs_mm1_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_mm1_0 _ _).trans hk
    | ⟨1, _⟩ => exact rhs_mm1_1 _ _)
  rw [el, er]

/-! ## The payload, entry by entry -/

/-- relu(a · Wl + x · Wr + b) on one row block: entry (p, q) of the body's payload. -/
theorem pay1_apply (x0 : Vec Ideal S5000x128 .f32) (x1 : Vec Ideal S5000x128 .bf16) (x2 x3 : Vec Ideal S128x128 .f32) (x4 : Vec Ideal S128 .f32) (p : Fin 5000) (q : Fin 128) :
    k1_pay1 x0 x1 x2 x3 x4 (ix2 p q)
      = max (((∑ k : Fin 128, x0 (ix2 p k) * x2 (ix2 k q)) + (∑ k : Fin 128, x1 (ix2 p k) * x3 (ix2 k q))) + x4 (ix1 q)) 0 := by
  unfold k1_pay1
  simp only [shapeCast_self]
  show max ((FloatOps.matmul (F := Ideal) dot_S5000x128_S128x128_S5000x128_1_0_0_1_n_n none (truncf .bf16 x0 bitsLt_bf16_f32) (truncf .bf16 x2 bitsLt_bf16_f32) (constant (F := Ideal) S5000x128 .f32 0x00000000#32) (ix2 p q)
      + FloatOps.matmul (F := Ideal) dot_S5000x128_S128x128_S5000x128_1_0_0_1_n_n none x1 (truncf .bf16 x3 bitsLt_bf16_f32) (constant (F := Ideal) S5000x128 .f32 0x00000000#32) (ix2 p q))
      + broadcastTo S5000x128 (shapeCast S1x128 x4 shapeCasts_S128_S1x128) broadcasts_S1x128_S5000x128 (ix2 p q)) (Ideal.ofBits .f32 0x00000000#32) = _
  rw [mm1_apply, mm1_apply, Ideal.ofBits_zero_f32, broadcastTo_1b_ab_apply, shapeCast_a_1a_apply]
  rfl

/-! ## What a point writes back -/

variable (V : (c : Dev nD) → (b : Ref sig .tc) → Buf (Elt Ideal) ((c : Thread nD τ).loc b))

theorem hz1_2 : (![0, 0] : Fin 2 → Nat) = fun _ => 0 := funext fun a => by fin_cases a <;> rfl
theorem hz1_1 : (![0] : Fin 1 → Nat) = fun _ => 0 := funext fun a => by fin_cases a <;> rfl

/-- The payload of blocks that are rows b·5000 .. b·5000 + 4999 of two arrays, and the whole of two matrices and a
    vector, is the same rows of relu(A · Wl + X · Wr + B). -/
theorem combine_block1 (A X : S100000x128.Idx → EReal) (Wl Wr : S128x128.Idx → EReal) (B : S128.Idx → EReal)
    (x0 : Vec Ideal S5000x128 .f32) (x1 : Vec Ideal S5000x128 .bf16) (x2 x3 : Vec Ideal S128x128 .f32) (x4 : Vec Ideal S128 .f32)
    (b : Nat) (hb : b < 20)
    (h0 : ∀ (p : Fin 5000) (k : Fin 128), x0 (ix2 p k) = A (ix2 (⟨b * 5000 + p.val, by have := p.isLt; omega⟩ : Fin 100000) k))
    (h1 : ∀ (p : Fin 5000) (k : Fin 128), x1 (ix2 p k) = X (ix2 (⟨b * 5000 + p.val, by have := p.isLt; omega⟩ : Fin 100000) k))
    (h2 : ∀ (k q : Fin 128), x2 (ix2 k q) = Wl (ix2 k q)) (h3 : ∀ (k q : Fin 128), x3 (ix2 k q) = Wr (ix2 k q))
    (h4 : ∀ q : Fin 128, x4 (ix1 q) = B (ix1 q)) (p : Fin 5000) (q : Fin 128) :
    k1_pay1 x0 x1 x2 x3 x4 (ix2 p q)
      = KFun.combine A X Wl Wr B (ix2 (⟨b * 5000 + p.val, by have := p.isLt; omega⟩ : Fin 100000) q) := by
  rw [pay1_apply]
  unfold KFun.combine
  simp only [h0, h1, h2, h3, h4]

/-- The block index maps, decided over the grid: the two row-block inputs move with the output, the matrices and the
    bias stay, and the output's row block is the point's number. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) < 20 ∧ win1_5.index t (1 : Fin 2) = 0 :=
  (by decide +kernel : ∀ t : Fin grid1.N, _)

/-- Every row block is some point's. -/
theorem idx_onto1 : ∀ q0 : Fin 20, ∃ t : Fin cfg1.N, win1_5.index t = ![q0.val, 0] :=
  (by decide +kernel : ∀ q0 : Fin 20, ∃ t : Fin grid1.N, win1_5.index t = ![q0.val, 0])

/-- What point `t` writes back is its row block of relu(agg · Wl + x · Wr + b) of the arrays the region finds. -/
theorem flushed1_eq (c : Dev nD) (t : Fin cfg1.N) :
    (dat1 (F := Ideal) V c).flushed 5 t = ((cfg1.win 5).blk t).view.read (Elt Ideal)
      (KFun.combine (V c main_v41) (V c main_v27) (V c main_arg7) (V c main_arg8) (V c main_arg9)) := by
  show (cfg1.win 5).cut (grid1.coords t) ((dat1 V c).after 5 t) = _
  rw [after1_5]
  unfold out1_5
  rw [View.canon_unit_zero hz1_2]
  simp only [View.ld_unit_zero (S := S5000x128) hz1_2, View.ld_unit_zero (S := S128x128) hz1_2, View.ld_unit_zero (S := S128) hz1_1]
  obtain ⟨e00, e01, e10, e11, e20, e21, e30, e31, e40, e50, e51⟩ := idx_facts1 t
  funext j
  show k1_pay1 (iblk1 V c 0 t) (iblk1 V c 1 t) (iblk1 V c 2 t) (iblk1 V c 3 t) (iblk1 V c 4 t) j
    = KFun.combine (V c main_v41) (V c main_v27) (V c main_arg7) (V c main_arg8) (V c main_arg9) (((cfg1.win 5).blk t).view.emb j)
  refine (congrArg (k1_pay1 (iblk1 V c 0 t) (iblk1 V c 1 t) (iblk1 V c 2 t) (iblk1 V c 3 t) (iblk1 V c 4 t)) (eq_ix2 (n0 := 5000) (n1 := 128) j)).trans ?_
  refine (combine_block1 (V c main_v41) (V c main_v27) (V c main_arg7) (V c main_arg8) (V c main_arg9) _ _ _ _ _ (win1_5.index t (0 : Fin 2)) e50 ?_ ?_ ?_ ?_ ?_ (j 0) (j 1)).trans ?_
  · intro p k
    show V c main_v41 (((cfg1.win 0).blk t).view.emb (ix2 p k)) = _
    refine congrArg (V c main_v41) (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 128 + 1 * k.val = k.val; omega
  · intro p k
    show V c main_v27 (((cfg1.win 1).blk t).view.emb (ix2 p k)) = _
    refine congrArg (V c main_v27) (funext fun a => Fin.ext ?_)
    match a with
    | ⟨0, _⟩ => show win1_1.index t (0 : Fin 2) * 5000 + 1 * p.val = win1_5.index t (0 : Fin 2) * 5000 + p.val; omega
    | ⟨1, _⟩ => show win1_1.index t (1 : Fin 2) * 128 + 1 * k.val = k.val; omega
  · intro k q
    show V c main_arg7 (((cfg1.win 2).blk t).view.emb (ix2 k q)) = _
    refine congrArg (V c main_arg7) (funext fun a => Fin.ext ?_)
    match a with
    | ⟨0, _⟩ => show win1_2.index t (0 : Fin 2) * 128 + 1 * k.val = k.val; omega
    | ⟨1, _⟩ => show win1_2.index t (1 : Fin 2) * 128 + 1 * q.val = q.val; omega
  · intro k q
    show V c main_arg8 (((cfg1.win 3).blk t).view.emb (ix2 k q)) = _
    refine congrArg (V c main_arg8) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  · intro q
    show V c main_arg9 (((cfg1.win 4).blk t).view.emb (ix1 q)) = _
    refine congrArg (V c main_arg9) (funext fun a => Fin.ext ?_)
    match a with
    | ⟨0, _⟩ => show win1_4.index t (0 : Fin 1) * 128 + 1 * q.val = q.val; omega
  · refine congrArg (KFun.combine (V c main_v41) (V c main_v27) (V c main_arg7) (V c main_arg8) (V c main_arg9)) (funext fun a => Fin.ext ?_)
    match a with
    | ⟨0, _⟩ => show win1_5.index t (0 : Fin 2) * 5000 + (j 0).val = win1_5.index t (0 : Fin 2) * 5000 + 1 * (j 0).val; omega
    | ⟨1, _⟩ => show (j 1).val = win1_5.index t (1 : Fin 2) * 128 + 1 * (j 1).val; omega

/-! ## The row blocks fill the array -/

/-- An index of the array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v42).slice (win1_5.rect t)).set ↔ _
  rw [View.set_slice_whole, Rect.mem_set_unit]
  exact Iff.rfl

/-- Row r of the array is in the block of point r / 5000, which is written back. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1 ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-! ## The array after the region -/

/-- The output array after region 1 is relu(agg · Wl + x · Wr + b) of the arrays the region finds. -/
theorem arr1 (c : Dev nD) :
    (dat1 (F := Ideal) V c).arrAt 5 cfg1.N = KFun.combine (V c main_v41) (V c main_v27) (V c main_arg7) (V c main_arg8) (V c main_arg9) :=
  (dat1 (F := Ideal) V c).arrAt_eq_of_cover 5 _ (fun t _ => flushed1_eq V c t) (cover1)

end Cert.KernelIdeal.Hand

end
-- ==== Proof.KI.Val2.lean ====
/-
  Region 2 of the idealized kernel program at the exact extended reals: the array its write-backs leave is the
  dense product of the hidden features and the weight matrix, entry by entry.  Each of the 20 grid points writes
  back a block of 5000 rows; the block's entry (p, q) is the sum over the 128 columns of the point's rows of the
  features times the weight column q; the 20 blocks tile the 100000 rows.
-/
import proofs.«404932_j73151882985825_3_alg».proof.Proof.KI.Reg2
import proofs.«404932_j73151882985825_3_alg».proof.Proof.KI.KFun
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem hz2 : (![0, 0] : Fin 2 → Nat) = fun _ => 0 := funext fun a => by fin_cases a <;> rfl

/-- The product's dimension numbers, coordinate by coordinate: output entry (r, c) at contraction index k reads the
    left operand at (r, k) and the right operand at (k, c). -/
theorem dot2_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dot2_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem dot2_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem dot2_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block of 5000 rows times the weight matrix, into the zero accumulator, read at an entry: the sum over the 128
    columns of the row's entries times the weight column's. -/
theorem prod2_apply (x : FVec Ideal S5000x128 .bf16) (w : FVec Ideal S128x64 .bf16) (i : S5000x64.Idx) :
    FloatOps.matmul (F := Ideal) dot_S5000x128_S128x64_S5000x64_1_0_0_1_n_n none x w (constant S5000x64 .f32 0x00000000#32) i
      = ∑ k : Fin 128, x (ix2 (i 0 : Fin 5000) k) * w (ix2 k (i 1 : Fin 64)) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = ix2 (i 0 : Fin 5000) k := funext fun a => Fin.ext (by
    match a with
    | ⟨0, _⟩ => exact dot2_lhs_0 _ _
    | ⟨1, _⟩ => exact (dot2_lhs_1 _ _).trans hk)
  have er : dot_S5000x128_S128x64_S5000x64_1_0_0_1_n_n.rhsIdx i ((ValueIdx.contrEquiv1 dot_S5000x128_S128x64_S5000x64_1_0_0_1_n_n 128 rfl rfl).symm k) = ix2 k (i 1 : Fin 64) := funext fun a => Fin.ext (by
    match a with
    | ⟨0, _⟩ => exact (dot2_rhs_0 _ _).trans hk
    | ⟨1, _⟩ => exact dot2_rhs_1 _ _)
  exact congrArg₂ (· * ·) (congrArg x el) (congrArg w er)

/-- The body's payload at an entry: the format changes are the identity on extended reals and the shape cast is to
    the same shape, so it is the product. -/
theorem k2_pay1_apply (x0 : Vec Ideal S5000x128 .bf16) (x1 : Vec Ideal S128x64 .f32) (i : S5000x64.Idx) :
    k2_pay1 (F := Ideal) x0 x1 i = ∑ k : Fin 128, (x0 (ix2 (i 0 : Fin 5000) k) : EReal) * (x1 (ix2 k (i 1 : Fin 64)) : EReal) := by
  unfold k2_pay1
  show FloatOps.matmul (F := Ideal) dot_S5000x128_S128x64_S5000x64_1_0_0_1_n_n none (shapeCast S5000x128 x0 shapeCasts_S5000x128_S5000x128) (truncf .bf16 x1 bitsLt_bf16_f32) (constant S5000x64 .f32 0x00000000#32) i = _
  rw [shapeCast_self]
  exact prod2_apply x0 x1 i

/-- The printed index maps over the 20 points: the feature block and the output block are the point's, the weight's is
    always the whole matrix. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The feature block at point `t` is rows `5000 t … 5000 t + 4999` of the feature array. -/
theorem iblk2_0_apply (c : Dev nD) (t : Fin cfg2.N) (x : S5000x128.Idx) (k : S100000x128.Idx)
    (hk0 : (k 0).val = t.val * 5000 + (x 0).val) (hk1 : (k 1).val = (x 1).val) :
    (iblk2 (F := Ideal) V c 0 t : Vec Ideal S5000x128 .bf16) x = (V c main_v42 : S100000x128.Idx → EReal) k := by
  obtain ⟨e0, e1, -, -, -, -⟩ := idx_facts2 t
  unfold iblk2
  rw [View.read_apply]
  show V c main_v42 _ = V c main_v42 _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- The weight block at every point is the whole weight matrix. -/
theorem iblk2_1_apply (c : Dev nD) (t : Fin cfg2.N) (x : S128x64.Idx) (k : S128x64.Idx)
    (hk0 : (k 0).val = (x 0).val) (hk1 : (k 1).val = (x 1).val) :
    (iblk2 (F := Ideal) V c 1 t : Vec Ideal S128x64 .f32) x = (V c main_arg10 : S128x64.Idx → EReal) k := by
  obtain ⟨-, -, e2, e3, -, -⟩ := idx_facts2 t
  unfold iblk2
  rw [View.read_apply]
  show V c main_arg10 _ = V c main_arg10 _
  congr 1
  funext a
  apply Fin.ext
  match a with
  | ⟨0, _⟩ => show win2_1.index t (0 : Fin 2) * 128 + 1 * (x 0).val = (k 0).val; rw [e2, hk0]; omega
  | ⟨1, _⟩ => show win2_1.index t (1 : Fin 2) * 64 + 1 * (x 1).val = (k 1).val; rw [e3, hk1]; omega

/-- What point `t` writes back is block `t` of the dense product of the arrays as the region finds them. -/
theorem flushed2_eq (c : Dev nD) (t : Fin cfg2.N) :
    (dat2 (F := Ideal) V c).flushed 2 t = ((cfg2.win 2).blk t).view.read (Elt Ideal) (KFun.dense (V c main_v42) (V c main_arg10)) := by
  show (cfg2.win 2).cut (grid2.coords t) ((dat2 (F := Ideal) V c).after 2 t) = _
  rw [after2_2]
  unfold out2_2
  rw [View.canon_unit_zero hz2]
  simp only [View.ld_unit_zero (S := S5000x128) hz2, View.ld_unit_zero (S := S128x64) hz2]
  obtain ⟨-, -, -, -, e4, e5⟩ := idx_facts2 t
  funext j
  show k2_pay1 (F := Ideal) (iblk2 V c 0 t) (iblk2 V c 1 t) j = KFun.dense (V c main_v42) (V c main_arg10) (((cfg2.win 2).blk t).view.emb j)
  refine (k2_pay1_apply _ _ j).trans ?_
  unfold KFun.dense
  refine Finset.sum_congr rfl fun k _ => ?_
  refine congrArg₂ (· * ·) (iblk2_0_apply V c t _ _ ?_ ?_) (iblk2_1_apply V c t _ _ ?_ ?_)
  · show win2_2.index t (0 : Fin 2) * 5000 + 1 * (j 0).val = t.val * 5000 + (j 0).val; rw [e4]; omega
  · rfl
  · rfl
  · show win2_2.index t (1 : Fin 2) * 64 + 1 * (j 1).val = (j 1).val; rw [e5]; omega

/-- An index of the array is in point `t`'s block iff each coordinate is in the block's range on its axis. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v43).slice (win2_2.rect t)).set ↔ _
  rw [View.set_slice_whole, Rect.mem_set_unit]
  exact Iff.rfl

/-- Every row `r` of the array is in the block of point `r / 5000`, and every point writes back. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; rw [e4, ht]; omega
  | ⟨1, _⟩ => show win2_2.index t (1 : Fin 2) * 64 ≤ (i 1).val ∧ (i 1).val < win2_2.index t (1 : Fin 2) * 64 + 64; rw [e5]; omega

/-- The array region 2 leaves is the dense product of the feature array and the weight matrix it finds. -/
theorem arr2 (V : (c : Dev nD) → (b : Ref sig .tc) → Buf (Elt Ideal) ((c : Thread nD τ).loc b)) (c : Dev nD) :
    (dat2 (F := Ideal) V c).arrAt 2 cfg2.N = KFun.dense (V c main_v42) (V c main_arg10) :=
  (dat2 (F := Ideal) V c).arrAt_eq_of_cover 2 (KFun.dense (V c main_v42) (V c main_arg10)) (fun t _ => flushed2_eq V c t) cover2

end Cert.KernelIdeal.Hand

end
-- ==== Proof.KI.Val3.lean ====
/-
  Region 3 of the idealized kernel program at the exact extended reals: the array its write-backs leave is, entry
  by entry, the hidden features times the weight matrix of the self term, plus the neighbour term, plus the bias.
  Each of the 20 grid points writes back a block of 5000 rows; the block's entry (p, q) is the sum over the 128
  columns of the point's rows of the features times the weight column q, plus the neighbour term's entry, plus the
  bias's entry q; the 20 blocks tile the 100000 rows.
-/
import proofs.«404932_j73151882985825_3_alg».proof.Proof.KI.Reg3
import proofs.«404932_j73151882985825_3_alg».proof.Proof.KI.KFun
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

theorem hz3 : (![0, 0] : Fin 2 → Nat) = fun _ => 0 := funext fun a => by fin_cases a <;> rfl
theorem hz3_1 : (![0] : Fin 1 → Nat) = fun _ => 0 := funext fun a => by fin_cases a; rfl

/-- The product's dimension numbers, coordinate by coordinate: output entry (r, c) at contraction index k reads the
    left operand at (r, k) and the right operand at (k, c). -/
theorem dot3_lhs_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem dot3_lhs_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem dot3_rhs_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem dot3_rhs_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A block of 5000 rows times the weight matrix, into the zero accumulator, read at an entry: the sum over the 128
    columns of the row's entries times the weight column's. -/
theorem prod3_apply (x : FVec Ideal S5000x128 .bf16) (w : FVec Ideal S128x64 .bf16) (i : S5000x64.Idx) :
    FloatOps.matmul (F := Ideal) dot_S5000x128_S128x64_S5000x64_1_0_0_1_n_n none x w (constant S5000x64 .f32 0x00000000#32) i
      = ∑ k : Fin 128, x (ix2 (i 0 : Fin 5000) k) * w (ix2 k (i 1 : Fin 64)) := by
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx i ((ValueIdx.contrEquiv1 dot_S5000x128_S128x64_S5000x64_1_0_0_1_n_n 128 rfl rfl).symm k) = ix2 (i 0 : Fin 5000) k := funext fun a => Fin.ext (by
    match a with
    | ⟨0, _⟩ => exact dot3_lhs_0 _ _
    | ⟨1, _⟩ => exact (dot3_lhs_1 _ _).trans hk)
  have er : dot_S5000x128_S128x64_S5000x64_1_0_0_1_n_n.rhsIdx i ((ValueIdx.contrEquiv1 dot_S5000x128_S128x64_S5000x64_1_0_0_1_n_n 128 rfl rfl).symm k) = ix2 k (i 1 : Fin 64) := funext fun a => Fin.ext (by
    match a with
    | ⟨0, _⟩ => exact (dot3_rhs_0 _ _).trans hk
    | ⟨1, _⟩ => exact dot3_rhs_1 _ _)
  exact congrArg₂ (· * ·) (congrArg x el) (congrArg w er)

/-- The body's payload at entry (p, q): the format change is the identity on extended reals, the shape casts of the
    blocks are to the same shape, and the bias row is laid along every row of the block. -/
theorem k3_pay1_apply_ix (v0 : Vec Ideal S5000x128 .bf16) (v2 : Vec Ideal S128x64 .f32) (v5 : Vec Ideal S5000x64 .f32) (v8 : Vec Ideal S64 .f32)
    (p : Fin 5000) (q : Fin 64) :
    k3_pay1 (F := Ideal) v0 v2 v5 v8 (ix2 p q)
      = ((∑ k : Fin 128, (v0 (ix2 p k) : EReal) * (v2 (ix2 k q) : EReal)) + (v5 (ix2 p q) : EReal)) + (v8 (ix1 q) : EReal) := by
  unfold k3_pay1
  show (FloatOps.matmul (F := Ideal) dot_S5000x128_S128x64_S5000x64_1_0_0_1_n_n none (shapeCast S5000x128 v0 shapeCasts_S5000x128_S5000x128) (truncf .bf16 v2 bitsLt_bf16_f32) (constant S5000x64 .f32 0x00000000#32) (ix2 p q)
      + shapeCast S5000x64 v5 shapeCasts_S5000x64_S5000x64 (ix2 p q))
      + broadcastTo S5000x64 (shapeCast S1x64 v8 shapeCasts_S64_S1x64) broadcasts_S1x64_S5000x64 (ix2 p q) = _
  rw [shapeCast_self, shapeCast_self, broadcastTo_1b_ab_apply, shapeCast_a_1a_apply]
  exact congrArg₂ (· + ·) (congrArg₂ (· + ·) (prod3_apply v0 v2 (ix2 p q)) rfl) rfl

/-- The same at any entry of the block. -/
theorem k3_pay1_apply (v0 : Vec Ideal S5000x128 .bf16) (v2 : Vec Ideal S128x64 .f32) (v5 : Vec Ideal S5000x64 .f32) (v8 : Vec Ideal S64 .f32)
    (i : S5000x64.Idx) :
    k3_pay1 (F := Ideal) v0 v2 v5 v8 i
      = ((∑ k : Fin 128, (v0 (ix2 (i 0 : Fin 5000) k) : EReal) * (v2 (ix2 k (i 1 : Fin 64)) : EReal)) + (v5 i : EReal)) + (v8 (ix1 (i 1 : Fin 64)) : EReal) := by
  obtain ⟨p, q, rfl⟩ : ∃ (p : Fin 5000) (q : Fin 64), i = ix2 p q := ⟨i 0, i 1, eq_ix2 i⟩
  exact k3_pay1_apply_ix v0 v2 v5 v8 p q

/-- The printed index maps over the 20 points: the neighbour term's block, the feature block and the output block are
    the point's; the weight's and the bias's are always the whole array. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- The neighbour term's block at point `t` is rows `5000 t … 5000 t + 4999` of its array. -/
theorem iblk3_0_apply (c : Dev nD) (t : Fin cfg3.N) (x : S5000x64.Idx) (k : S100000x64.Idx)
    (hk0 : (k 0).val = t.val * 5000 + (x 0).val) (hk1 : (k 1).val = (x 1).val) :
    (iblk3 (F := Ideal) V c 0 t : Vec Ideal S5000x64 .f32) x = (V c main_v57 : S100000x64.Idx → EReal) k := by
  obtain ⟨e0, e1, -, -, -, -, -, -, -⟩ := idx_facts3 t
  unfold iblk3
  rw [View.read_apply]
  show V c main_v57 _ = V c main_v57 _
  congr 1
  funext a
  apply Fin.ext
  match a with
  | ⟨0, _⟩ => show win3_0.index t (0 : Fin 2) * 5000 + 1 * (x 0).val = (k 0).val; rw [e0, hk0]; omega
  | ⟨1, _⟩ => show win3_0.index t (1 : Fin 2) * 64 + 1 * (x 1).val = (k 1).val; rw [e1, hk1]; omega

/-- The feature block at point `t` is rows `5000 t … 5000 t + 4999` of the feature array. -/
theorem iblk3_1_apply (c : Dev nD) (t : Fin cfg3.N) (x : S5000x128.Idx) (k : S100000x128.Idx)
    (hk0 : (k 0).val = t.val * 5000 + (x 0).val) (hk1 : (k 1).val = (x 1).val) :
    (iblk3 (F := Ideal) V c 1 t : Vec Ideal S5000x128 .bf16) x = (V c main_v42 : S100000x128.Idx → EReal) k := by
  obtain ⟨-, -, e0, e1, -, -, -, -, -⟩ := idx_facts3 t
  unfold iblk3
  rw [View.read_apply]
  show V c main_v42 _ = V c main_v42 _
  congr 1
  funext a
  apply Fin.ext
  match a with
  | ⟨0, _⟩ => show win3_1.index t (0 : Fin 2) * 5000 + 1 * (x 0).val = (k 0).val; rw [e0, hk0]; omega
  | ⟨1, _⟩ => show win3_1.index t (1 : Fin 2) * 128 + 1 * (x 1).val = (k 1).val; rw [e1, hk1]; omega

/-- The weight block at every point is the whole weight matrix. -/
theorem iblk3_2_apply (c : Dev nD) (t : Fin cfg3.N) (x : S128x64.Idx) (k : S128x64.Idx)
    (hk0 : (k 0).val = (x 0).val) (hk1 : (k 1).val = (x 1).val) :
    (iblk3 (F := Ideal) V c 2 t : Vec Ideal S128x64 .f32) x = (V c main_arg11 : S128x64.Idx → EReal) k := by
  obtain ⟨-, -, -, -, e0, e1, -, -, -⟩ := idx_facts3 t
  unfold iblk3
  rw [View.read_apply]
  show V c main_arg11 _ = V c main_arg11 _
  congr 1
  funext a
  apply Fin.ext
  match a with
  | ⟨0, _⟩ => show win3_2.index t (0 : Fin 2) * 128 + 1 * (x 0).val = (k 0).val; rw [e0, hk0]; omega
  | ⟨1, _⟩ => show win3_2.index t (1 : Fin 2) * 64 + 1 * (x 1).val = (k 1).val; rw [e1, hk1]; omega

/-- The bias block at every point is the whole bias. -/
theorem iblk3_3_apply (c : Dev nD) (t : Fin cfg3.N) (x : S64.Idx) (k : S64.Idx)
    (hk0 : (k 0).val = (x 0).val) :
    (iblk3 (F := Ideal) V c 3 t : Vec Ideal S64 .f32) x = (V c main_arg12 : S64.Idx → EReal) k := by
  obtain ⟨-, -, -, -, -, -, e0, -, -⟩ := idx_facts3 t
  unfold iblk3
  rw [View.read_apply]
  show V c main_arg12 _ = V c main_arg12 _
  congr 1
  funext a
  apply Fin.ext
  match a with
  | ⟨0, _⟩ => show win3_3.index t (0 : Fin 1) * 64 + 1 * (x 0).val = (k 0).val; rw [e0, hk0]; omega

/-- What point `t` writes back is block `t` of the last combine of the arrays as the region finds them. -/
theorem flushed3_eq (c : Dev nD) (t : Fin cfg3.N) :
    (dat3 (F := Ideal) V c).flushed 4 t
      = ((cfg3.win 4).blk t).view.read (Elt Ideal) (KFun.final (V c main_v57) (V c main_v42) (V c main_arg11) (V c main_arg12)) := by
  show (cfg3.win 4).cut (grid3.coords t) ((dat3 (F := Ideal) V c).after 4 t) = _
  rw [after3_4]
  unfold out3_4
  rw [View.canon_unit_zero hz3]
  simp only [View.ld_unit_zero (S := S5000x128) hz3, View.ld_unit_zero (S := S128x64) hz3, View.ld_unit_zero (S := S5000x64) hz3,
    View.ld_unit_zero (S := S64) hz3_1]
  obtain ⟨-, -, -, -, -, -, -, e7, e8⟩ := idx_facts3 t
  funext j
  show k3_pay1 (F := Ideal) (iblk3 V c 1 t) (iblk3 V c 2 t) (iblk3 V c 0 t) (iblk3 V c 3 t) j
    = KFun.final (V c main_v57) (V c main_v42) (V c main_arg11) (V c main_arg12) (((cfg3.win 4).blk t).view.emb j)
  refine (k3_pay1_apply _ _ _ _ j).trans ?_
  unfold KFun.final
  refine congrArg₂ (· + ·) (congrArg₂ (· + ·) (Finset.sum_congr rfl fun k _ =>
      congrArg₂ (· * ·) (iblk3_1_apply V c t _ _ ?_ ?_) (iblk3_2_apply V c t _ _ ?_ ?_)) (iblk3_0_apply V c t _ _ ?_ ?_))
    (iblk3_3_apply V c t _ _ ?_)
  · show win3_4.index t (0 : Fin 2) * 5000 + 1 * (j 0).val = t.val * 5000 + (j 0).val; rw [e7]; omega
  · rfl
  · rfl
  · show win3_4.index t (1 : Fin 2) * 64 + 1 * (j 1).val = (j 1).val; rw [e8]; omega
  · show win3_4.index t (0 : Fin 2) * 5000 + 1 * (j 0).val = t.val * 5000 + (j 0).val; rw [e7]; omega
  · show win3_4.index t (1 : Fin 2) * 64 + 1 * (j 1).val = (j 1).val; rw [e8]; omega
  · show win3_4.index t (1 : Fin 2) * 64 + 1 * (j 1).val = (j 1).val; rw [e8]; omega

/-- An index of the array is in point `t`'s block iff each coordinate is in the block's range on its axis. -/
theorem mem_blk3 (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v58).slice (win3_4.rect t)).set ↔ _
  rw [View.set_slice_whole, Rect.mem_set_unit]
  exact Iff.rfl

/-- Every row `r` of the array is in the block of point `r / 5000`, and every point writes back. -/
theorem cover3 (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, -, -, -, e7, e8⟩ := idx_facts3 t
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; rw [e7, ht]; omega
  | ⟨1, _⟩ => show win3_4.index t (1 : Fin 2) * 64 ≤ (i 1).val ∧ (i 1).val < win3_4.index t (1 : Fin 2) * 64 + 64; rw [e8]; omega

/-- The array region 3 leaves is the last combine of the arrays it finds: features times weight, plus the neighbour
    term, plus the bias. -/
theorem arr3 (V : (c : Dev nD) → (b : Ref sig .tc) → Buf (Elt Ideal) ((c : Thread nD τ).loc b)) (c : Dev nD) :
    (dat3 (F := Ideal) V c).arrAt 4 cfg3.N = KFun.final (V c main_v57) (V c main_v42) (V c main_arg11) (V c main_arg12) :=
  (dat3 (F := Ideal) V c).arrAt_eq_of_cover 4 (KFun.final (V c main_v57) (V c main_v42) (V c main_arg11) (V c main_arg12))
    (fun t _ => flushed3_eq V c t) cover3

end Cert.KernelIdeal.Hand

end
-- ==== Proof.KI.Val4.lean ====
/-
  Region 4 of the idealized kernel program at the exact extended reals: the array its write-back leaves is, per
  graph, the sum of its nodes' rows over the larger of their number and 1.  The one-hot matrix of a block's graph ids
  has entry 1 where the row's graph is the node's and 0 elsewhere; the running sums after point n are the sums over
  the blocks up to n of one-hot times features, the running counts the sums of the one-hot entries; the last point
  divides the first by the larger of the second and 1, and its block is the whole output array.
-/
import proofs.«404932_j73151882985825_3_alg».proof.Proof.KI.Reg4
import proofs.«404932_j73151882985825_3_alg».proof.Proof.KI.KFun
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! ## The payloads at an index -/

theorem hz4_2 : (![0, 0] : Fin 2 → Nat) = fun _ => 0 := funext fun a => by fin_cases a <;> rfl
theorem hz4_3 : (![0, 0, 0] : Fin 3 → Nat) = fun _ => 0 := funext fun a => by fin_cases a <;> rfl

/-- The one-hot entry of a block of graph ids: 1 where graph `g` is node `k`'s, else 0. -/
def onehot4 (b : Vec Ideal S1x1x10000 .i32) (g : Fin 64) (k : Fin 10000) : EReal :=
  if BitVec.ofNat 32 g.val = b (ix3 (0 : Fin 1) (0 : Fin 1) k) then 1 else 0

/-- The one-hot matrix the body builds (row coordinate against the broadcast ids, compared, widened, converted)
    has that entry at `(g, k)`. -/
theorem k4_pay3_apply (v3 : Vec Ideal S1x1x10000 .i32) (g : Fin 64) (k : Fin 10000) :
    k4_pay3 (F := Ideal) v3 (ix2 g k) = onehot4 v3 g k := by
  unfold k4_pay3
  show FloatOps.sitofp .f32 ((IntOp.cmpi .eq (iota .tc S64x10000 32 [0] iota_S64x10000_d0_w32 (ix2 g k))
    (broadcastTo S64x10000 (shapeCast S1x10000 v3 shapeCasts_S1x1x10000_S1x10000) broadcasts_S1x10000_S64x10000 (ix2 g k))).setWidth 32) = _
  rw [iota_single_apply, broadcastTo_apply _ _ (ix2 g k) (ix2 (0 : Fin 1) k) (fun a => by match a with | ⟨0, _⟩ => rfl | ⟨1, _⟩ => rfl),
    shapeCast_dropUnit_apply ![1, 10000] v3 shapeCasts_S1x1x10000_S1x10000 (ix2 (0 : Fin 1) k)]
  have e : (Fin.cons ⟨0, Nat.one_pos⟩ (ix2 (0 : Fin 1) k) : S1x1x10000.Idx) = ix3 (0 : Fin 1) (0 : Fin 1) k := by
    funext a; match a with | ⟨0, _⟩ => rfl | ⟨1, _⟩ => rfl | ⟨2, _⟩ => rfl
  rw [e]
  show FloatOps.sitofp .f32 (BitVec.setWidth 32 (IntOp.cmpi .eq (BitVec.ofNat 32 g.val) (v3 (ix3 (0 : Fin 1) (0 : Fin 1) k)))) = _
  unfold onehot4
  by_cases h : BitVec.ofNat 32 g.val = v3 (ix3 (0 : Fin 1) (0 : Fin 1) k)
  · rw [if_pos h, ← h]
    have c1 : IntOp.cmpi .eq (BitVec.ofNat 32 g.val) (BitVec.ofNat 32 g.val) = 1#1 := by simp [IntOp.cmpi]
    rw [c1]
    show (((BitVec.setWidth 32 (1#1)).toInt : ℝ) : EReal) = 1
    rw [show (BitVec.setWidth 32 (1#1)).toInt = 1 by decide]; norm_num
  · rw [if_neg h]
    have c0 : IntOp.cmpi .eq (BitVec.ofNat 32 g.val) (v3 (ix3 (0 : Fin 1) (0 : Fin 1) k)) = 0#1 := by
      show BitVec.ofBool (BitVec.ofNat 32 g.val == v3 (ix3 (0 : Fin 1) (0 : Fin 1) k)) = 0#1
      rw [beq_eq_false_iff_ne.mpr h]; rfl
    rw [c0]
    show (((BitVec.setWidth 32 (0#1)).toInt : ℝ) : EReal) = 0
    rw [show (BitVec.setWidth 32 (0#1)).toInt = 0 by decide]; norm_num

/-- The one-hot product's dimension numbers, axis by axis: the left operand is read at (row, contraction), the right
    at (contraction, column). -/
theorem lhs4_0 (i : S64x64.Idx) (q : dot_S64x10000_S10000x64_S64x64_1_0_0_1_n_n.contr.Idx) :
    (dot_S64x10000_S10000x64_S64x64_1_0_0_1_n_n.lhsIdx i q 0).val = (i 0).val := by
  unfold DotDims.lhsIdx
  rw [dif_neg (show ¬(0 : Fin S64x10000.rank) ∈ dot_S64x10000_S10000x64_S64x64_1_0_0_1_n_n.lhsBatch by decide), dif_pos (show (0 : Fin S64x10000.rank) ∈ dot_S64x10000_S10000x64_S64x64_1_0_0_1_n_n.lhsNonContracting by decide)]
  rfl
theorem lhs4_1 (i : S64x64.Idx) (q : dot_S64x10000_S10000x64_S64x64_1_0_0_1_n_n.contr.Idx) :
    (dot_S64x10000_S10000x64_S64x64_1_0_0_1_n_n.lhsIdx i q 1).val = (q ⟨0, by decide⟩).val :=
  dot_S64x10000_S10000x64_S64x64_1_0_0_1_n_n.lhsIdx_val_of_single rfl i q
theorem rhs4_0 (i : S64x64.Idx) (q : dot_S64x10000_S10000x64_S64x64_1_0_0_1_n_n.contr.Idx) :
    (dot_S64x10000_S10000x64_S64x64_1_0_0_1_n_n.rhsIdx i q 0).val = (q ⟨0, by decide⟩).val :=
  dot_S64x10000_S10000x64_S64x64_1_0_0_1_n_n.rhsIdx_val_of_single rfl i q
theorem rhs4_1 (i : S64x64.Idx) (q : dot_S64x10000_S10000x64_S64x64_1_0_0_1_n_n.contr.Idx) :
    (dot_S64x10000_S10000x64_S64x64_1_0_0_1_n_n.rhsIdx i q 1).val = (i 1).val := by
  unfold DotDims.rhsIdx
  rw [dif_neg (show ¬(1 : Fin S10000x64.rank) ∈ dot_S64x10000_S10000x64_S64x64_1_0_0_1_n_n.rhsBatch by decide), dif_pos (show (1 : Fin S10000x64.rank) ∈ dot_S64x10000_S10000x64_S64x64_1_0_0_1_n_n.rhsNonContracting by decide)]
  rfl

/-- The running sums' new contents at `(g, j)`: the old entry plus the one-hot row `g` times the features' column `j`. -/
theorem k4_pay4_apply (v3 : Vec Ideal S1x1x10000 .i32) (v11 : Vec Ideal S10000x64 .f32) (v14 : Vec Ideal S64x64 .f32) (g j : Fin 64) :
    k4_pay4 (F := Ideal) v3 v11 v14 (ix2 g j) = v14 (ix2 g j) + ∑ k : Fin 10000, onehot4 v3 g k * v11 (ix2 k j) := by
  unfold k4_pay4
  rw [shapeCast_self, shapeCast_self]
  show v14 (ix2 g j) + FloatOps.matmul dot_S64x10000_S10000x64_S64x64_1_0_0_1_n_n none (truncf .bf16 (k4_pay3 (F := Ideal) v3) bitsLt_bf16_f32) (truncf .bf16 v11 bitsLt_bf16_f32) (constant S64x64 .f32 0x00000000#32) (ix2 g j) = _
  refine congrArg (v14 (ix2 g j) + ·) ?_
  rw [Ideal.matmul_constant_zero_apply, ← Equiv.sum_comp (ValueIdx.contrEquiv1 dot_S64x10000_S10000x64_S64x64_1_0_0_1_n_n 10000 rfl rfl).symm]
  refine Finset.sum_congr rfl fun k _ => ?_
  have hk := ValueIdx.contrEquiv1_symm_val dot_S64x10000_S10000x64_S64x64_1_0_0_1_n_n 10000 rfl rfl k
  have el : dot_S64x10000_S10000x64_S64x64_1_0_0_1_n_n.lhsIdx (ix2 g j) ((ValueIdx.contrEquiv1 dot_S64x10000_S10000x64_S64x64_1_0_0_1_n_n 10000 rfl rfl).symm k) = ix2 g k := funext fun a => Fin.ext (by
    match a with
    | ⟨0, _⟩ => exact lhs4_0 _ _
    | ⟨1, _⟩ => exact (lhs4_1 _ _).trans hk)
  have er : dot_S64x10000_S10000x64_S64x64_1_0_0_1_n_n.rhsIdx (ix2 g j) ((ValueIdx.contrEquiv1 dot_S64x10000_S10000x64_S64x64_1_0_0_1_n_n 10000 rfl rfl).symm k) = ix2 k j := funext fun a => Fin.ext (by
    match a with
    | ⟨0, _⟩ => exact (rhs4_0 _ _).trans hk
    | ⟨1, _⟩ => exact rhs4_1 _ _)
  rw [el, er]
  exact congrArg (· * v11 (ix2 k j)) (k4_pay3_apply v3 g k)

/-- The zero splats read 0. -/
theorem k4_pay1_apply (g j : Fin 64) : k4_pay1 (F := Ideal) (ix2 g j) = 0 := by
  unfold k4_pay1
  rw [shapeCast_self]
  show Ideal.ofBits .f32 0x00000000#32 = 0
  exact Ideal.ofBits_zero_f32
theorem k4_pay2_apply (g : Fin 64) : k4_pay2 (F := Ideal) (ix2 g (0 : Fin 1)) = 0 := by
  unfold k4_pay2
  rw [shapeCast_self]
  show Ideal.ofBits .f32 0x00000000#32 = 0
  exact Ideal.ofBits_zero_f32

/-- The literal 1. -/
theorem one4 : Ideal.ofBits .f32 0x3F800000#32 = 1 := by simp [Ideal.ofBits, Ideal.ieee, -EReal.coe_mul]; norm_num

/-- Row `g` of the one-hot matrix with coordinate `k` put back on the summed axis is the entry `(g, k)`. -/
theorem lift4 (g : Fin 64) (k : Fin 10000) : reduces_S64x10000_S64.lift (ix1 g) k = ix2 g k := by
  funext c; apply Fin.ext
  match c with
  | ⟨0, _⟩ => rfl
  | ⟨1, _⟩ => rfl

/-- The running counts' new contents at row `g`: the old entry plus the number of the block's nodes in graph `g`. -/
theorem k4_pay5_apply (v3 : Vec Ideal S1x1x10000 .i32) (v20 : Vec Ideal S64x1 .f32) (g : Fin 64) :
    k4_pay5 (F := Ideal) v3 v20 (ix2 g (0 : Fin 1)) = v20 (ix2 g (0 : Fin 1)) + ∑ k : Fin 10000, onehot4 v3 g k := by
  unfold k4_pay5
  rw [shapeCast_self]
  show v20 (ix2 g (0 : Fin 1)) + shapeCast S64x1 (multiReduction (F := Ideal) .add [1] S64 (k4_pay3 (F := Ideal) v3) 0x00000000#32 reduces_S64x10000_S64 (.inl rfl) rfl) shapeCasts_S64_S64x1 (ix2 g (0 : Fin 1)) = _
  refine congrArg (v20 (ix2 g (0 : Fin 1)) + ·) ?_
  rw [shapeCast_apply _ _ (ix2 g (0 : Fin 1)) (ix1 g) (by rw [Shape.rowMajor_val_one, Shape.rowMajor_val_two]; show g.val = g.val * 1 + 0; omega)]
  refine (Ideal.multiReduction_add_single (k4_pay3 (F := Ideal) v3) _ reduces_S64x10000_S64 _ _ (ix1 g)).trans ?_
  show ∑ k : Fin 10000, k4_pay3 (F := Ideal) v3 (reduces_S64x10000_S64.lift (ix1 g) k) = _
  exact Finset.sum_congr rfl fun k _ => by rw [lift4, k4_pay3_apply]

/-- The output's contents at `(g, j)`: the sum over the larger of the count and 1. -/
theorem k4_pay6_apply (v31 : Vec Ideal S64x64 .f32) (v32 : Vec Ideal S64x1 .f32) (g j : Fin 64) :
    k4_pay6 (F := Ideal) v31 v32 (ix2 g j) = Ideal.div (v31 (ix2 g j)) (max (v32 (ix2 g (0 : Fin 1))) 1) := by
  unfold k4_pay6
  show Ideal.div (v31 (ix2 g j)) (broadcastTo S64x64 (maximumf v32 (broadcast S64x1 (Scalar.ofBits (F := Ideal) .f32 0x3F800000#32))) broadcasts_S64x1_S64x64 (ix2 g j)) = _
  rw [broadcastTo_apply _ _ (ix2 g j) (ix2 g (0 : Fin 1)) (fun a => by match a with | ⟨0, _⟩ => rfl | ⟨1, _⟩ => rfl)]
  show Ideal.div (v31 (ix2 g j)) (max (v32 (ix2 g (0 : Fin 1))) (Ideal.ofBits .f32 0x3F800000#32)) = _
  rw [one4]

/-! ## One point's accumulation at an index -/

theorem zero4_0_apply (g j : Fin 64) : zero4_0 (F := Ideal) (ix2 g j) = 0 := by
  unfold zero4_0; rw [View.canon_unit_zero hz4_2]; exact k4_pay1_apply g j
theorem zero4_1_apply (g : Fin 64) : zero4_1 (F := Ideal) (ix2 g (0 : Fin 1)) = 0 := by
  unfold zero4_1; rw [View.canon_unit_zero hz4_2]; exact k4_pay2_apply g

theorem step4_0_apply (b : Vec Ideal S1x1x10000 .i32) (x : Vec Ideal S10000x64 .f32) (p : Vec Ideal S64x64 .f32) (g j : Fin 64) :
    step4_0 (F := Ideal) b x p (ix2 g j) = p (ix2 g j) + ∑ k : Fin 10000, onehot4 b g k * x (ix2 k j) := by
  unfold step4_0
  rw [View.canon_unit_zero hz4_2]
  simp only [View.ld_unit_zero (S := S64x64) hz4_2, View.ld_unit_zero (S := S10000x64) hz4_2, View.ld_unit_zero (S := S1x1x10000) hz4_3]
  exact k4_pay4_apply b x p g j

theorem step4_1_apply (b : Vec Ideal S1x1x10000 .i32) (q : Vec Ideal S64x1 .f32) (g : Fin 64) :
    step4_1 (F := Ideal) b q (ix2 g (0 : Fin 1)) = q (ix2 g (0 : Fin 1)) + ∑ k : Fin 10000, onehot4 b g k := by
  unfold step4_1
  rw [View.canon_unit_zero hz4_2]
  simp only [View.ld_unit_zero (S := S64x1) hz4_2, View.ld_unit_zero (S := S1x1x10000) hz4_3]
  exact k4_pay5_apply b q g

/-! ## The blocks, read off the arrays -/

variable (V : (c : Dev nD) → (b : Ref sig .tc) → Buf (Elt Ideal) ((c : Thread nD τ).loc b))

/-- The printed index maps, decided over the grid: the features' and the ids' block index is the point, the output's
    block index is constant. -/
theorem idx_facts4 : ∀ t : Fin cfg4.N, win4_0.index t (0 : Fin 2) = t.val ∧ win4_0.index t (1 : Fin 2) = 0
    ∧ win4_1.index t (0 : Fin 3) = t.val ∧ win4_1.index t (1 : Fin 3) = 0 ∧ win4_1.index t (2 : Fin 3) = 0
    ∧ win4_2.index t (0 : Fin 2) = 0 ∧ win4_2.index t (1 : Fin 2) = 0 :=
  (by decide +kernel : ∀ t : Fin grid4.N, _)

theorem lt4 (t : Fin cfg4.N) : t.val < 10 := lt_of_lt_of_eq t.isLt (show cfg4.N = 10 from N_4)

/-- Entry `k` of the ids' block at point `t` is entry `k` of row `t` of the ids. -/
theorem blk4_1_apply (c : Dev nD) (t : Fin cfg4.N) (k : Fin 10000) :
    iblk4 V c 1 t (ix3 (0 : Fin 1) (0 : Fin 1) k) = V c main_v59 (ix3 (⟨t.val, lt4 t⟩ : Fin 10) (0 : Fin 1) k) := by
  obtain ⟨e0, e1, e2, e3, e4, e5, e6⟩ := idx_facts4 t
  show V c main_v59 (((cfg4.win 1).blk t).view.emb (ix3 (0 : Fin 1) (0 : Fin 1) k)) = _
  refine congrArg (V c main_v59) (funext fun a => Fin.ext ?_)
  match a with
  | ⟨0, _⟩ => show win4_1.index t (0 : Fin 3) * 1 + 1 * 0 = t.val; omega
  | ⟨1, _⟩ => show win4_1.index t (1 : Fin 3) * 1 + 1 * 0 = 0; omega
  | ⟨2, _⟩ => show win4_1.index t (2 : Fin 3) * 10000 + 1 * k.val = k.val; omega

/-- Entry `(k, j)` of the features' block at point `t` is row `node t k` of the features. -/
theorem blk4_0_apply (c : Dev nD) (t : Fin cfg4.N) (k : Fin 10000) (j : Fin 64) :
    iblk4 V c 0 t (ix2 k j) = V c main_v58 (ix2 (KFun.node (⟨t.val, lt4 t⟩ : Fin 10) k) j) := by
  obtain ⟨e0, e1, e2, e3, e4, e5, e6⟩ := idx_facts4 t
  show V c main_v58 (((cfg4.win 0).blk t).view.emb (ix2 k j)) = _
  refine congrArg (V c main_v58) (funext fun a => Fin.ext ?_)
  match a with
  | ⟨0, _⟩ => show win4_0.index t (0 : Fin 2) * 10000 + 1 * k.val = t.val * 10000 + k.val; rw [e0]; omega
  | ⟨1, _⟩ => show win4_0.index t (1 : Fin 2) * 64 + 1 * j.val = j.val; omega

/-! ## The scratch buffers after each point -/

/-- Block `t`'s contribution to the sums at `(g, j)` and to the counts at `g` (nothing past the grid). -/
def psum4 (h : S100000x64.Idx → EReal) (bat : IVec S10x1x10000 32) (g j : Fin 64) (t : ℕ) : EReal :=
  if ht : t < 10 then ∑ k : Fin 10000, KFun.member bat ⟨t, ht⟩ g k * h (ix2 (KFun.node ⟨t, ht⟩ k) j) else 0
def csum4 (bat : IVec S10x1x10000 32) (g : Fin 64) (t : ℕ) : EReal :=
  if ht : t < 10 then ∑ k : Fin 10000, KFun.member bat ⟨t, ht⟩ g k else 0

theorem onehot4_blk (c : Dev nD) (t : Fin cfg4.N) (g : Fin 64) (k : Fin 10000) :
    onehot4 (iblk4 V c 1 t) g k = KFun.member (V c main_v59) (⟨t.val, lt4 t⟩ : Fin 10) g k := by
  unfold onehot4 KFun.member
  rw [blk4_1_apply]

theorem point4_0 (c : Dev nD) (t : Fin cfg4.N) (p : Vec Ideal S64x64 .f32) (g j : Fin 64) :
    step4_0 (F := Ideal) (iblk4 V c 1 t) (iblk4 V c 0 t) p (ix2 g j) = p (ix2 g j) + psum4 (V c main_v58) (V c main_v59) g j t.val := by
  rw [step4_0_apply]
  unfold psum4
  rw [dif_pos (lt4 t)]
  refine congrArg (p (ix2 g j) + ·) (Finset.sum_congr rfl fun k _ => ?_)
  rw [onehot4_blk, blk4_0_apply]

theorem point4_1 (c : Dev nD) (t : Fin cfg4.N) (q : Vec Ideal S64x1 .f32) (g : Fin 64) :
    step4_1 (F := Ideal) (iblk4 V c 1 t) q (ix2 g (0 : Fin 1)) = q (ix2 g (0 : Fin 1)) + csum4 (V c main_v59) g t.val := by
  rw [step4_1_apply]
  unfold csum4
  rw [dif_pos (lt4 t)]
  refine congrArg (q (ix2 g (0 : Fin 1)) + ·) (Finset.sum_congr rfl fun k _ => ?_)
  rw [onehot4_blk]

/-- After point `n` the sums hold the contributions of the blocks up to `n`, -/
theorem acc4_fst_apply (c : Dev nD) (g j : Fin 64) : ∀ (n : ℕ) (hn : n < cfg4.N),
    (acc4 V c n hn).1 (ix2 g j) = ∑ t ∈ Finset.range (n + 1), psum4 (V c main_v58) (V c main_v59) g j t
  | 0, hn => by
    rw [acc4_zero]
    show step4_0 (F := Ideal) (iblk4 V c 1 ⟨0, hn⟩) (iblk4 V c 0 ⟨0, hn⟩) zero4_0 (ix2 g j) = _
    rw [point4_0 V c ⟨0, hn⟩, zero4_0_apply, zero_add, Finset.sum_range_one]
  | n + 1, hn => by
    rw [acc4_succ]
    show step4_0 (F := Ideal) (iblk4 V c 1 ⟨n + 1, hn⟩) (iblk4 V c 0 ⟨n + 1, hn⟩) (acc4 V c n (Nat.lt_of_succ_lt hn)).1 (ix2 g j) = _
    rw [point4_0 V c ⟨n + 1, hn⟩, acc4_fst_apply c g j n (Nat.lt_of_succ_lt hn), Finset.sum_range_succ _ (n + 1)]

/-- and the counts likewise. -/
theorem acc4_snd_apply (c : Dev nD) (g : Fin 64) : ∀ (n : ℕ) (hn : n < cfg4.N),
    (acc4 V c n hn).2 (ix2 g (0 : Fin 1)) = ∑ t ∈ Finset.range (n + 1), csum4 (V c main_v59) g t
  | 0, hn => by
    rw [acc4_zero]
    show step4_1 (F := Ideal) (iblk4 V c 1 ⟨0, hn⟩) zero4_1 (ix2 g (0 : Fin 1)) = _
    rw [point4_1 V c ⟨0, hn⟩, zero4_1_apply, zero_add, Finset.sum_range_one]
  | n + 1, hn => by
    rw [acc4_succ]
    show step4_1 (F := Ideal) (iblk4 V c 1 ⟨n + 1, hn⟩) (acc4 V c n (Nat.lt_of_succ_lt hn)).2 (ix2 g (0 : Fin 1)) = _
    rw [point4_1 V c ⟨n + 1, hn⟩, acc4_snd_apply c g n (Nat.lt_of_succ_lt hn), Finset.sum_range_succ _ (n + 1)]

/-! ## The array the write-back leaves -/

/-- What the last point writes back is the whole of the pooled array. -/
theorem flushed4_eq (c : Dev nD) (t : Fin cfg4.N) (hf : (cfg4.win 2).flush t = true) :
    (dat4 (F := Ideal) V c).flushed 2 t = ((cfg4.win 2).blk t).view.read (Elt Ideal) (KFun.pool (V c main_v58) (V c main_v59)) := by
  have h9 : t.val = 9 := by have := (flush4_2 t).mp hf; have := lt4 t; omega
  obtain ⟨e0, e1, e2, e3, e4, e5, e6⟩ := idx_facts4 t
  show (cfg4.win 2).cut (grid4.coords t) ((dat4 (F := Ideal) V c).after 2 t) = _
  rw [after4_2]
  unfold out4_2
  rw [View.canon_unit_zero hz4_2]
  simp only [View.ld_unit_zero (S := S64x64) hz4_2, View.ld_unit_zero (S := S64x1) hz4_2]
  funext y
  show k4_pay6 (F := Ideal) (acc4 V c t.val t.isLt).1 (acc4 V c t.val t.isLt).2 y = KFun.pool (V c main_v58) (V c main_v59) (((cfg4.win 2).blk t).view.emb y)
  have hy : ((cfg4.win 2).blk t).view.emb y = y := by
    funext a; apply Fin.ext
    match a with
    | ⟨0, _⟩ => show win4_2.index t (0 : Fin 2) * 64 + 1 * (y 0).val = (y 0).val; omega
    | ⟨1, _⟩ => show win4_2.index t (1 : Fin 2) * 64 + 1 * (y 1).val = (y 1).val; omega
  rw [hy]
  obtain ⟨g, j, rfl⟩ : ∃ g j, y = ix2 g j := ⟨y 0, y 1, eq_ix2 y⟩
  rw [k4_pay6_apply, acc4_fst_apply V c g j, acc4_snd_apply V c g]
  unfold KFun.pool
  show Ideal.div (∑ s ∈ Finset.range (t.val + 1), psum4 (V c main_v58) (V c main_v59) g j s) (max (∑ s ∈ Finset.range (t.val + 1), csum4 (V c main_v59) g s) 1)
    = Ideal.div (∑ s : Fin 10, ∑ n : Fin 10000, KFun.member (V c main_v59) s g n * V c main_v58 (ix2 (KFun.node s n) j))
      (max (∑ s : Fin 10, ∑ n : Fin 10000, KFun.member (V c main_v59) s g n) 1)
  rw [h9, Finset.sum_range, Finset.sum_range]
  have e1 : ∀ s : Fin 10, psum4 (V c main_v58) (V c main_v59) g j s.val = ∑ n : Fin 10000, KFun.member (V c main_v59) s g n * V c main_v58 (ix2 (KFun.node s n) j) :=
    fun s => by unfold psum4; rw [dif_pos s.isLt]
  have e2 : ∀ s : Fin 10, csum4 (V c main_v59) g s.val = ∑ n : Fin 10000, KFun.member (V c main_v59) s g n :=
    fun s => by unfold csum4; rw [dif_pos s.isLt]
  rw [Finset.sum_congr rfl fun s _ => e1 s, Finset.sum_congr rfl fun s _ => e2 s]

/-- An index of the output array is in point `t`'s block iff each coordinate is in the block's range on its axis. -/
theorem mem_blk4 (t : Fin cfg4.N) (i : S64x64.Idx) :
    i ∈ ((cfg4.win 2).blk t).view.set ↔ ∀ a : Fin 2, win4_2.index t a * S64x64.size a ≤ (i a).val ∧ (i a).val < win4_2.index t a * S64x64.size a + S64x64.size a := by
  show i ∈ ((View.whole main_v60).slice (win4_2.rect t)).set ↔ _
  rw [View.set_slice_whole, Rect.mem_set_unit]
  exact Iff.rfl

/-- THE ARRAY after region 4: per graph, the sum of its nodes' rows over the larger of their number and 1. -/
theorem arr4 (V : (c : Dev nD) → (b : Ref sig .tc) → Buf (Elt Ideal) ((c : Thread nD τ).loc b)) (c : Dev nD) :
    (dat4 (F := Ideal) V c).arrAt 2 cfg4.N = KFun.pool (V c main_v58) (V c main_v59) := by
  refine Dat.arrAt_eq_of_cover (dat4 (F := Ideal) V c) 2 (KFun.pool (V c main_v58) (V c main_v59)) (fun t hf => flushed4_eq V c t hf) (fun i => ?_)
  have h9 : 9 < cfg4.N := by rw [show cfg4.N = 10 from N_4]; decide
  obtain ⟨e0, e1, e2, e3, e4, e5, e6⟩ := idx_facts4 ⟨9, h9⟩
  refine ⟨⟨9, h9⟩, (flush4_2 ⟨9, h9⟩).mpr rfl, ?_⟩
  rw [mem_blk4]
  intro a
  match a with
  | ⟨0, _⟩ => show win4_2.index ⟨9, h9⟩ (0 : Fin 2) * 64 ≤ (i 0).val ∧ (i 0).val < win4_2.index ⟨9, h9⟩ (0 : Fin 2) * 64 + 64; have hi : (i 0).val < 64 := (i 0).isLt; rw [e5]; omega
  | ⟨1, _⟩ => show win4_2.index ⟨9, h9⟩ (1 : Fin 2) * 64 ≤ (i 1).val ∧ (i 1).val < win4_2.index ⟨9, h9⟩ (1 : Fin 2) * 64 + 64; have hi : (i 1).val < 64 := (i 1).isLt; rw [e6]; omega

end Cert.KernelIdeal.Hand

end
-- ==== Proof.KI.Value.lean ====
/-
  The kernel program's result at the exact extended reals: following the unscoped buffers item by item, each
  region's output array is the whole-array function of KFun of the program's arguments, and the result is
  `KFun.out` of them; the arguments themselves are never written.
-/
import proofs.«404932_j73151882985825_3_alg».proof.Proof.KI.Run
import proofs.«404932_j73151882985825_3_alg».proof.Proof.KI.HostVal
import proofs.«404932_j73151882985825_3_alg».proof.Proof.KI.Val0
import proofs.«404932_j73151882985825_3_alg».proof.Proof.KI.Val1
import proofs.«404932_j73151882985825_3_alg».proof.Proof.KI.Val2
import proofs.«404932_j73151882985825_3_alg».proof.Proof.KI.Val3
import proofs.«404932_j73151882985825_3_alg».proof.Proof.KI.Val4

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What each item leaves unchanged, and what each region leaves in its output array -/

section Keep

variable {F : FTy → Type} [FloatOps F]
variable (m : (ℓ : Loc nD τ sig) → Buf (Elt F) ℓ)

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ ([main_v27] : List (Ref sig .tc))) : W2 m c r = W1 m c r := by
  unfold W2
  exact Function.update_of_ne (StableHlo.devRef_ne_of_ne (List.ne_of_not_mem_cons h)) _ _
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ∉ ([main_v42] : List (Ref sig .tc))) : W4 m c r = W3 m c r := by
  unfold W4
  exact Function.update_of_ne (StableHlo.devRef_ne_of_ne (List.ne_of_not_mem_cons h)) _ _
theorem W5_of (c : Dev nD) (r : Ref sig .tc) (h : r ∉ ([main_v43] : List (Ref sig .tc))) : W5 m c r = W4 m c r := by
  unfold W5
  exact Function.update_of_ne (StableHlo.devRef_ne_of_ne (List.ne_of_not_mem_cons h)) _ _
theorem W6_of (c : Dev nD) (r : Ref sig .tc) (h : r ∉ hostOps3_W) : W6 m c r = W5 m c r :=
  StableHlo.after_of_writes_sub hostOps3 _ hostOps3_writes h
theorem W7_of (c : Dev nD) (r : Ref sig .tc) (h : r ∉ ([main_v58] : List (Ref sig .tc))) : W7 m c r = W6 m c r := by
  unfold W7
  exact Function.update_of_ne (StableHlo.devRef_ne_of_ne (List.ne_of_not_mem_cons h)) _ _
theorem W8_of (c : Dev nD) (r : Ref sig .tc) (h : r ∉ hostOps4_W) : W8 m c r = W7 m c r :=
  StableHlo.after_of_writes_sub hostOps4 _ hostOps4_writes h
theorem W9_of (c : Dev nD) (r : Ref sig .tc) (h : r ∉ ([main_v60] : List (Ref sig .tc))) : W9 m c r = W8 m c r := by
  unfold W9
  exact Function.update_of_ne (StableHlo.devRef_ne_of_ne (List.ne_of_not_mem_cons h)) _ _

theorem W2_self (c : Dev nD) : W2 m c (Proc.devRef .tc main_v27) = (dat0 (U1 m) c).arrAt 5 cfg0.N := by
  unfold W2; rw [Function.update_self]
theorem W4_self (c : Dev nD) : W4 m c (Proc.devRef .tc main_v42) = (dat1 (U3 m) c).arrAt 5 cfg1.N := by
  unfold W4; rw [Function.update_self]
theorem W5_self (c : Dev nD) : W5 m c (Proc.devRef .tc main_v43) = (dat2 (U4 m) c).arrAt 2 cfg2.N := by
  unfold W5; rw [Function.update_self]
theorem W7_self (c : Dev nD) : W7 m c (Proc.devRef .tc main_v58) = (dat3 (U6 m) c).arrAt 4 cfg3.N := by
  unfold W7; rw [Function.update_self]
theorem W9_self (c : Dev nD) : W9 m c (Proc.devRef .tc main_v60) = (dat4 (U8 m) c).arrAt 2 cfg4.N := by
  unfold W9; rw [Function.update_self]

/-! ## No item writes an argument -/

theorem W1_arg0 (c : Dev nD) : W1 m c (Proc.devRef .tc main_arg0) = m ((c.tc : Thread nD τ).loc main_arg0) :=
  (W1_of m c main_arg0 (by decide)).trans rfl
theorem W2_arg0 (c : Dev nD) : W2 m c (Proc.devRef .tc main_arg0) = m ((c.tc : Thread nD τ).loc main_arg0) :=
  (W2_of m c main_arg0 (by decide)).trans (W1_arg0 m c)
theorem W3_arg0 (c : Dev nD) : W3 m c (Proc.devRef .tc main_arg0) = m ((c.tc : Thread nD τ).loc main_arg0) :=
  (W3_of m c main_arg0 (by decide)).trans (W2_arg0 m c)
theorem W4_arg0 (c : Dev nD) : W4 m c (Proc.devRef .tc main_arg0) = m ((c.tc : Thread nD τ).loc main_arg0) :=
  (W4_of m c main_arg0 (by decide)).trans (W3_arg0 m c)
theorem W5_arg0 (c : Dev nD) : W5 m c (Proc.devRef .tc main_arg0) = m ((c.tc : Thread nD τ).loc main_arg0) :=
  (W5_of m c main_arg0 (by decide)).trans (W4_arg0 m c)
theorem W6_arg0 (c : Dev nD) : W6 m c (Proc.devRef .tc main_arg0) = m ((c.tc : Thread nD τ).loc main_arg0) :=
  (W6_of m c main_arg0 (by decide)).trans (W5_arg0 m c)
theorem W7_arg0 (c : Dev nD) : W7 m c (Proc.devRef .tc main_arg0) = m ((c.tc : Thread nD τ).loc main_arg0) :=
  (W7_of m c main_arg0 (by decide)).trans (W6_arg0 m c)
theorem W8_arg0 (c : Dev nD) : W8 m c (Proc.devRef .tc main_arg0) = m ((c.tc : Thread nD τ).loc main_arg0) :=
  (W8_of m c main_arg0 (by decide)).trans (W7_arg0 m c)
theorem W9_arg0 (c : Dev nD) : W9 m c (Proc.devRef .tc main_arg0) = m ((c.tc : Thread nD τ).loc main_arg0) :=
  (W9_of m c main_arg0 (by decide)).trans (W8_arg0 m c)
theorem W1_arg1 (c : Dev nD) : W1 m c (Proc.devRef .tc main_arg1) = m ((c.tc : Thread nD τ).loc main_arg1) :=
  (W1_of m c main_arg1 (by decide)).trans rfl
theorem W2_arg1 (c : Dev nD) : W2 m c (Proc.devRef .tc main_arg1) = m ((c.tc : Thread nD τ).loc main_arg1) :=
  (W2_of m c main_arg1 (by decide)).trans (W1_arg1 m c)
theorem W3_arg1 (c : Dev nD) : W3 m c (Proc.devRef .tc main_arg1) = m ((c.tc : Thread nD τ).loc main_arg1) :=
  (W3_of m c main_arg1 (by decide)).trans (W2_arg1 m c)
theorem W4_arg1 (c : Dev nD) : W4 m c (Proc.devRef .tc main_arg1) = m ((c.tc : Thread nD τ).loc main_arg1) :=
  (W4_of m c main_arg1 (by decide)).trans (W3_arg1 m c)
theorem W5_arg1 (c : Dev nD) : W5 m c (Proc.devRef .tc main_arg1) = m ((c.tc : Thread nD τ).loc main_arg1) :=
  (W5_of m c main_arg1 (by decide)).trans (W4_arg1 m c)
theorem W6_arg1 (c : Dev nD) : W6 m c (Proc.devRef .tc main_arg1) = m ((c.tc : Thread nD τ).loc main_arg1) :=
  (W6_of m c main_arg1 (by decide)).trans (W5_arg1 m c)
theorem W7_arg1 (c : Dev nD) : W7 m c (Proc.devRef .tc main_arg1) = m ((c.tc : Thread nD τ).loc main_arg1) :=
  (W7_of m c main_arg1 (by decide)).trans (W6_arg1 m c)
theorem W8_arg1 (c : Dev nD) : W8 m c (Proc.devRef .tc main_arg1) = m ((c.tc : Thread nD τ).loc main_arg1) :=
  (W8_of m c main_arg1 (by decide)).trans (W7_arg1 m c)
theorem W9_arg1 (c : Dev nD) : W9 m c (Proc.devRef .tc main_arg1) = m ((c.tc : Thread nD τ).loc main_arg1) :=
  (W9_of m c main_arg1 (by decide)).trans (W8_arg1 m c)
theorem W1_arg2 (c : Dev nD) : W1 m c (Proc.devRef .tc main_arg2) = m ((c.tc : Thread nD τ).loc main_arg2) :=
  (W1_of m c main_arg2 (by decide)).trans rfl
theorem W2_arg2 (c : Dev nD) : W2 m c (Proc.devRef .tc main_arg2) = m ((c.tc : Thread nD τ).loc main_arg2) :=
  (W2_of m c main_arg2 (by decide)).trans (W1_arg2 m c)
theorem W3_arg2 (c : Dev nD) : W3 m c (Proc.devRef .tc main_arg2) = m ((c.tc : Thread nD τ).loc main_arg2) :=
  (W3_of m c main_arg2 (by decide)).trans (W2_arg2 m c)
theorem W4_arg2 (c : Dev nD) : W4 m c (Proc.devRef .tc main_arg2) = m ((c.tc : Thread nD τ).loc main_arg2) :=
  (W4_of m c main_arg2 (by decide)).trans (W3_arg2 m c)
theorem W5_arg2 (c : Dev nD) : W5 m c (Proc.devRef .tc main_arg2) = m ((c.tc : Thread nD τ).loc main_arg2) :=
  (W5_of m c main_arg2 (by decide)).trans (W4_arg2 m c)
theorem W6_arg2 (c : Dev nD) : W6 m c (Proc.devRef .tc main_arg2) = m ((c.tc : Thread nD τ).loc main_arg2) :=
  (W6_of m c main_arg2 (by decide)).trans (W5_arg2 m c)
theorem W7_arg2 (c : Dev nD) : W7 m c (Proc.devRef .tc main_arg2) = m ((c.tc : Thread nD τ).loc main_arg2) :=
  (W7_of m c main_arg2 (by decide)).trans (W6_arg2 m c)
theorem W8_arg2 (c : Dev nD) : W8 m c (Proc.devRef .tc main_arg2) = m ((c.tc : Thread nD τ).loc main_arg2) :=
  (W8_of m c main_arg2 (by decide)).trans (W7_arg2 m c)
theorem W9_arg2 (c : Dev nD) : W9 m c (Proc.devRef .tc main_arg2) = m ((c.tc : Thread nD τ).loc main_arg2) :=
  (W9_of m c main_arg2 (by decide)).trans (W8_arg2 m c)
theorem W1_arg3 (c : Dev nD) : W1 m c (Proc.devRef .tc main_arg3) = m ((c.tc : Thread nD τ).loc main_arg3) :=
  (W1_of m c main_arg3 (by decide)).trans rfl
theorem W2_arg3 (c : Dev nD) : W2 m c (Proc.devRef .tc main_arg3) = m ((c.tc : Thread nD τ).loc main_arg3) :=
  (W2_of m c main_arg3 (by decide)).trans (W1_arg3 m c)
theorem W3_arg3 (c : Dev nD) : W3 m c (Proc.devRef .tc main_arg3) = m ((c.tc : Thread nD τ).loc main_arg3) :=
  (W3_of m c main_arg3 (by decide)).trans (W2_arg3 m c)
theorem W4_arg3 (c : Dev nD) : W4 m c (Proc.devRef .tc main_arg3) = m ((c.tc : Thread nD τ).loc main_arg3) :=
  (W4_of m c main_arg3 (by decide)).trans (W3_arg3 m c)
theorem W5_arg3 (c : Dev nD) : W5 m c (Proc.devRef .tc main_arg3) = m ((c.tc : Thread nD τ).loc main_arg3) :=
  (W5_of m c main_arg3 (by decide)).trans (W4_arg3 m c)
theorem W6_arg3 (c : Dev nD) : W6 m c (Proc.devRef .tc main_arg3) = m ((c.tc : Thread nD τ).loc main_arg3) :=
  (W6_of m c main_arg3 (by decide)).trans (W5_arg3 m c)
theorem W7_arg3 (c : Dev nD) : W7 m c (Proc.devRef .tc main_arg3) = m ((c.tc : Thread nD τ).loc main_arg3) :=
  (W7_of m c main_arg3 (by decide)).trans (W6_arg3 m c)
theorem W8_arg3 (c : Dev nD) : W8 m c (Proc.devRef .tc main_arg3) = m ((c.tc : Thread nD τ).loc main_arg3) :=
  (W8_of m c main_arg3 (by decide)).trans (W7_arg3 m c)
theorem W9_arg3 (c : Dev nD) : W9 m c (Proc.devRef .tc main_arg3) = m ((c.tc : Thread nD τ).loc main_arg3) :=
  (W9_of m c main_arg3 (by decide)).trans (W8_arg3 m c)
theorem W1_arg4 (c : Dev nD) : W1 m c (Proc.devRef .tc main_arg4) = m ((c.tc : Thread nD τ).loc main_arg4) :=
  (W1_of m c main_arg4 (by decide)).trans rfl
theorem W2_arg4 (c : Dev nD) : W2 m c (Proc.devRef .tc main_arg4) = m ((c.tc : Thread nD τ).loc main_arg4) :=
  (W2_of m c main_arg4 (by decide)).trans (W1_arg4 m c)
theorem W3_arg4 (c : Dev nD) : W3 m c (Proc.devRef .tc main_arg4) = m ((c.tc : Thread nD τ).loc main_arg4) :=
  (W3_of m c main_arg4 (by decide)).trans (W2_arg4 m c)
theorem W4_arg4 (c : Dev nD) : W4 m c (Proc.devRef .tc main_arg4) = m ((c.tc : Thread nD τ).loc main_arg4) :=
  (W4_of m c main_arg4 (by decide)).trans (W3_arg4 m c)
theorem W5_arg4 (c : Dev nD) : W5 m c (Proc.devRef .tc main_arg4) = m ((c.tc : Thread nD τ).loc main_arg4) :=
  (W5_of m c main_arg4 (by decide)).trans (W4_arg4 m c)
theorem W6_arg4 (c : Dev nD) : W6 m c (Proc.devRef .tc main_arg4) = m ((c.tc : Thread nD τ).loc main_arg4) :=
  (W6_of m c main_arg4 (by decide)).trans (W5_arg4 m c)
theorem W7_arg4 (c : Dev nD) : W7 m c (Proc.devRef .tc main_arg4) = m ((c.tc : Thread nD τ).loc main_arg4) :=
  (W7_of m c main_arg4 (by decide)).trans (W6_arg4 m c)
theorem W8_arg4 (c : Dev nD) : W8 m c (Proc.devRef .tc main_arg4) = m ((c.tc : Thread nD τ).loc main_arg4) :=
  (W8_of m c main_arg4 (by decide)).trans (W7_arg4 m c)
theorem W9_arg4 (c : Dev nD) : W9 m c (Proc.devRef .tc main_arg4) = m ((c.tc : Thread nD τ).loc main_arg4) :=
  (W9_of m c main_arg4 (by decide)).trans (W8_arg4 m c)
theorem W1_arg5 (c : Dev nD) : W1 m c (Proc.devRef .tc main_arg5) = m ((c.tc : Thread nD τ).loc main_arg5) :=
  (W1_of m c main_arg5 (by decide)).trans rfl
theorem W2_arg5 (c : Dev nD) : W2 m c (Proc.devRef .tc main_arg5) = m ((c.tc : Thread nD τ).loc main_arg5) :=
  (W2_of m c main_arg5 (by decide)).trans (W1_arg5 m c)
theorem W3_arg5 (c : Dev nD) : W3 m c (Proc.devRef .tc main_arg5) = m ((c.tc : Thread nD τ).loc main_arg5) :=
  (W3_of m c main_arg5 (by decide)).trans (W2_arg5 m c)
theorem W4_arg5 (c : Dev nD) : W4 m c (Proc.devRef .tc main_arg5) = m ((c.tc : Thread nD τ).loc main_arg5) :=
  (W4_of m c main_arg5 (by decide)).trans (W3_arg5 m c)
theorem W5_arg5 (c : Dev nD) : W5 m c (Proc.devRef .tc main_arg5) = m ((c.tc : Thread nD τ).loc main_arg5) :=
  (W5_of m c main_arg5 (by decide)).trans (W4_arg5 m c)
theorem W6_arg5 (c : Dev nD) : W6 m c (Proc.devRef .tc main_arg5) = m ((c.tc : Thread nD τ).loc main_arg5) :=
  (W6_of m c main_arg5 (by decide)).trans (W5_arg5 m c)
theorem W7_arg5 (c : Dev nD) : W7 m c (Proc.devRef .tc main_arg5) = m ((c.tc : Thread nD τ).loc main_arg5) :=
  (W7_of m c main_arg5 (by decide)).trans (W6_arg5 m c)
theorem W8_arg5 (c : Dev nD) : W8 m c (Proc.devRef .tc main_arg5) = m ((c.tc : Thread nD τ).loc main_arg5) :=
  (W8_of m c main_arg5 (by decide)).trans (W7_arg5 m c)
theorem W9_arg5 (c : Dev nD) : W9 m c (Proc.devRef .tc main_arg5) = m ((c.tc : Thread nD τ).loc main_arg5) :=
  (W9_of m c main_arg5 (by decide)).trans (W8_arg5 m c)
theorem W1_arg6 (c : Dev nD) : W1 m c (Proc.devRef .tc main_arg6) = m ((c.tc : Thread nD τ).loc main_arg6) :=
  (W1_of m c main_arg6 (by decide)).trans rfl
theorem W2_arg6 (c : Dev nD) : W2 m c (Proc.devRef .tc main_arg6) = m ((c.tc : Thread nD τ).loc main_arg6) :=
  (W2_of m c main_arg6 (by decide)).trans (W1_arg6 m c)
theorem W3_arg6 (c : Dev nD) : W3 m c (Proc.devRef .tc main_arg6) = m ((c.tc : Thread nD τ).loc main_arg6) :=
  (W3_of m c main_arg6 (by decide)).trans (W2_arg6 m c)
theorem W4_arg6 (c : Dev nD) : W4 m c (Proc.devRef .tc main_arg6) = m ((c.tc : Thread nD τ).loc main_arg6) :=
  (W4_of m c main_arg6 (by decide)).trans (W3_arg6 m c)
theorem W5_arg6 (c : Dev nD) : W5 m c (Proc.devRef .tc main_arg6) = m ((c.tc : Thread nD τ).loc main_arg6) :=
  (W5_of m c main_arg6 (by decide)).trans (W4_arg6 m c)
theorem W6_arg6 (c : Dev nD) : W6 m c (Proc.devRef .tc main_arg6) = m ((c.tc : Thread nD τ).loc main_arg6) :=
  (W6_of m c main_arg6 (by decide)).trans (W5_arg6 m c)
theorem W7_arg6 (c : Dev nD) : W7 m c (Proc.devRef .tc main_arg6) = m ((c.tc : Thread nD τ).loc main_arg6) :=
  (W7_of m c main_arg6 (by decide)).trans (W6_arg6 m c)
theorem W8_arg6 (c : Dev nD) : W8 m c (Proc.devRef .tc main_arg6) = m ((c.tc : Thread nD τ).loc main_arg6) :=
  (W8_of m c main_arg6 (by decide)).trans (W7_arg6 m c)
theorem W9_arg6 (c : Dev nD) : W9 m c (Proc.devRef .tc main_arg6) = m ((c.tc : Thread nD τ).loc main_arg6) :=
  (W9_of m c main_arg6 (by decide)).trans (W8_arg6 m c)
theorem W1_arg7 (c : Dev nD) : W1 m c (Proc.devRef .tc main_arg7) = m ((c.tc : Thread nD τ).loc main_arg7) :=
  (W1_of m c main_arg7 (by decide)).trans rfl
theorem W2_arg7 (c : Dev nD) : W2 m c (Proc.devRef .tc main_arg7) = m ((c.tc : Thread nD τ).loc main_arg7) :=
  (W2_of m c main_arg7 (by decide)).trans (W1_arg7 m c)
theorem W3_arg7 (c : Dev nD) : W3 m c (Proc.devRef .tc main_arg7) = m ((c.tc : Thread nD τ).loc main_arg7) :=
  (W3_of m c main_arg7 (by decide)).trans (W2_arg7 m c)
theorem W4_arg7 (c : Dev nD) : W4 m c (Proc.devRef .tc main_arg7) = m ((c.tc : Thread nD τ).loc main_arg7) :=
  (W4_of m c main_arg7 (by decide)).trans (W3_arg7 m c)
theorem W5_arg7 (c : Dev nD) : W5 m c (Proc.devRef .tc main_arg7) = m ((c.tc : Thread nD τ).loc main_arg7) :=
  (W5_of m c main_arg7 (by decide)).trans (W4_arg7 m c)
theorem W6_arg7 (c : Dev nD) : W6 m c (Proc.devRef .tc main_arg7) = m ((c.tc : Thread nD τ).loc main_arg7) :=
  (W6_of m c main_arg7 (by decide)).trans (W5_arg7 m c)
theorem W7_arg7 (c : Dev nD) : W7 m c (Proc.devRef .tc main_arg7) = m ((c.tc : Thread nD τ).loc main_arg7) :=
  (W7_of m c main_arg7 (by decide)).trans (W6_arg7 m c)
theorem W8_arg7 (c : Dev nD) : W8 m c (Proc.devRef .tc main_arg7) = m ((c.tc : Thread nD τ).loc main_arg7) :=
  (W8_of m c main_arg7 (by decide)).trans (W7_arg7 m c)
theorem W9_arg7 (c : Dev nD) : W9 m c (Proc.devRef .tc main_arg7) = m ((c.tc : Thread nD τ).loc main_arg7) :=
  (W9_of m c main_arg7 (by decide)).trans (W8_arg7 m c)
theorem W1_arg8 (c : Dev nD) : W1 m c (Proc.devRef .tc main_arg8) = m ((c.tc : Thread nD τ).loc main_arg8) :=
  (W1_of m c main_arg8 (by decide)).trans rfl
theorem W2_arg8 (c : Dev nD) : W2 m c (Proc.devRef .tc main_arg8) = m ((c.tc : Thread nD τ).loc main_arg8) :=
  (W2_of m c main_arg8 (by decide)).trans (W1_arg8 m c)
theorem W3_arg8 (c : Dev nD) : W3 m c (Proc.devRef .tc main_arg8) = m ((c.tc : Thread nD τ).loc main_arg8) :=
  (W3_of m c main_arg8 (by decide)).trans (W2_arg8 m c)
theorem W4_arg8 (c : Dev nD) : W4 m c (Proc.devRef .tc main_arg8) = m ((c.tc : Thread nD τ).loc main_arg8) :=
  (W4_of m c main_arg8 (by decide)).trans (W3_arg8 m c)
theorem W5_arg8 (c : Dev nD) : W5 m c (Proc.devRef .tc main_arg8) = m ((c.tc : Thread nD τ).loc main_arg8) :=
  (W5_of m c main_arg8 (by decide)).trans (W4_arg8 m c)
theorem W6_arg8 (c : Dev nD) : W6 m c (Proc.devRef .tc main_arg8) = m ((c.tc : Thread nD τ).loc main_arg8) :=
  (W6_of m c main_arg8 (by decide)).trans (W5_arg8 m c)
theorem W7_arg8 (c : Dev nD) : W7 m c (Proc.devRef .tc main_arg8) = m ((c.tc : Thread nD τ).loc main_arg8) :=
  (W7_of m c main_arg8 (by decide)).trans (W6_arg8 m c)
theorem W8_arg8 (c : Dev nD) : W8 m c (Proc.devRef .tc main_arg8) = m ((c.tc : Thread nD τ).loc main_arg8) :=
  (W8_of m c main_arg8 (by decide)).trans (W7_arg8 m c)
theorem W9_arg8 (c : Dev nD) : W9 m c (Proc.devRef .tc main_arg8) = m ((c.tc : Thread nD τ).loc main_arg8) :=
  (W9_of m c main_arg8 (by decide)).trans (W8_arg8 m c)
theorem W1_arg9 (c : Dev nD) : W1 m c (Proc.devRef .tc main_arg9) = m ((c.tc : Thread nD τ).loc main_arg9) :=
  (W1_of m c main_arg9 (by decide)).trans rfl
theorem W2_arg9 (c : Dev nD) : W2 m c (Proc.devRef .tc main_arg9) = m ((c.tc : Thread nD τ).loc main_arg9) :=
  (W2_of m c main_arg9 (by decide)).trans (W1_arg9 m c)
theorem W3_arg9 (c : Dev nD) : W3 m c (Proc.devRef .tc main_arg9) = m ((c.tc : Thread nD τ).loc main_arg9) :=
  (W3_of m c main_arg9 (by decide)).trans (W2_arg9 m c)
theorem W4_arg9 (c : Dev nD) : W4 m c (Proc.devRef .tc main_arg9) = m ((c.tc : Thread nD τ).loc main_arg9) :=
  (W4_of m c main_arg9 (by decide)).trans (W3_arg9 m c)
theorem W5_arg9 (c : Dev nD) : W5 m c (Proc.devRef .tc main_arg9) = m ((c.tc : Thread nD τ).loc main_arg9) :=
  (W5_of m c main_arg9 (by decide)).trans (W4_arg9 m c)
theorem W6_arg9 (c : Dev nD) : W6 m c (Proc.devRef .tc main_arg9) = m ((c.tc : Thread nD τ).loc main_arg9) :=
  (W6_of m c main_arg9 (by decide)).trans (W5_arg9 m c)
theorem W7_arg9 (c : Dev nD) : W7 m c (Proc.devRef .tc main_arg9) = m ((c.tc : Thread nD τ).loc main_arg9) :=
  (W7_of m c main_arg9 (by decide)).trans (W6_arg9 m c)
theorem W8_arg9 (c : Dev nD) : W8 m c (Proc.devRef .tc main_arg9) = m ((c.tc : Thread nD τ).loc main_arg9) :=
  (W8_of m c main_arg9 (by decide)).trans (W7_arg9 m c)
theorem W9_arg9 (c : Dev nD) : W9 m c (Proc.devRef .tc main_arg9) = m ((c.tc : Thread nD τ).loc main_arg9) :=
  (W9_of m c main_arg9 (by decide)).trans (W8_arg9 m c)
theorem W1_arg10 (c : Dev nD) : W1 m c (Proc.devRef .tc main_arg10) = m ((c.tc : Thread nD τ).loc main_arg10) :=
  (W1_of m c main_arg10 (by decide)).trans rfl
theorem W2_arg10 (c : Dev nD) : W2 m c (Proc.devRef .tc main_arg10) = m ((c.tc : Thread nD τ).loc main_arg10) :=
  (W2_of m c main_arg10 (by decide)).trans (W1_arg10 m c)
theorem W3_arg10 (c : Dev nD) : W3 m c (Proc.devRef .tc main_arg10) = m ((c.tc : Thread nD τ).loc main_arg10) :=
  (W3_of m c main_arg10 (by decide)).trans (W2_arg10 m c)
theorem W4_arg10 (c : Dev nD) : W4 m c (Proc.devRef .tc main_arg10) = m ((c.tc : Thread nD τ).loc main_arg10) :=
  (W4_of m c main_arg10 (by decide)).trans (W3_arg10 m c)
theorem W5_arg10 (c : Dev nD) : W5 m c (Proc.devRef .tc main_arg10) = m ((c.tc : Thread nD τ).loc main_arg10) :=
  (W5_of m c main_arg10 (by decide)).trans (W4_arg10 m c)
theorem W6_arg10 (c : Dev nD) : W6 m c (Proc.devRef .tc main_arg10) = m ((c.tc : Thread nD τ).loc main_arg10) :=
  (W6_of m c main_arg10 (by decide)).trans (W5_arg10 m c)
theorem W7_arg10 (c : Dev nD) : W7 m c (Proc.devRef .tc main_arg10) = m ((c.tc : Thread nD τ).loc main_arg10) :=
  (W7_of m c main_arg10 (by decide)).trans (W6_arg10 m c)
theorem W8_arg10 (c : Dev nD) : W8 m c (Proc.devRef .tc main_arg10) = m ((c.tc : Thread nD τ).loc main_arg10) :=
  (W8_of m c main_arg10 (by decide)).trans (W7_arg10 m c)
theorem W9_arg10 (c : Dev nD) : W9 m c (Proc.devRef .tc main_arg10) = m ((c.tc : Thread nD τ).loc main_arg10) :=
  (W9_of m c main_arg10 (by decide)).trans (W8_arg10 m c)
theorem W1_arg11 (c : Dev nD) : W1 m c (Proc.devRef .tc main_arg11) = m ((c.tc : Thread nD τ).loc main_arg11) :=
  (W1_of m c main_arg11 (by decide)).trans rfl
theorem W2_arg11 (c : Dev nD) : W2 m c (Proc.devRef .tc main_arg11) = m ((c.tc : Thread nD τ).loc main_arg11) :=
  (W2_of m c main_arg11 (by decide)).trans (W1_arg11 m c)
theorem W3_arg11 (c : Dev nD) : W3 m c (Proc.devRef .tc main_arg11) = m ((c.tc : Thread nD τ).loc main_arg11) :=
  (W3_of m c main_arg11 (by decide)).trans (W2_arg11 m c)
theorem W4_arg11 (c : Dev nD) : W4 m c (Proc.devRef .tc main_arg11) = m ((c.tc : Thread nD τ).loc main_arg11) :=
  (W4_of m c main_arg11 (by decide)).trans (W3_arg11 m c)
theorem W5_arg11 (c : Dev nD) : W5 m c (Proc.devRef .tc main_arg11) = m ((c.tc : Thread nD τ).loc main_arg11) :=
  (W5_of m c main_arg11 (by decide)).trans (W4_arg11 m c)
theorem W6_arg11 (c : Dev nD) : W6 m c (Proc.devRef .tc main_arg11) = m ((c.tc : Thread nD τ).loc main_arg11) :=
  (W6_of m c main_arg11 (by decide)).trans (W5_arg11 m c)
theorem W7_arg11 (c : Dev nD) : W7 m c (Proc.devRef .tc main_arg11) = m ((c.tc : Thread nD τ).loc main_arg11) :=
  (W7_of m c main_arg11 (by decide)).trans (W6_arg11 m c)
theorem W8_arg11 (c : Dev nD) : W8 m c (Proc.devRef .tc main_arg11) = m ((c.tc : Thread nD τ).loc main_arg11) :=
  (W8_of m c main_arg11 (by decide)).trans (W7_arg11 m c)
theorem W9_arg11 (c : Dev nD) : W9 m c (Proc.devRef .tc main_arg11) = m ((c.tc : Thread nD τ).loc main_arg11) :=
  (W9_of m c main_arg11 (by decide)).trans (W8_arg11 m c)
theorem W1_arg12 (c : Dev nD) : W1 m c (Proc.devRef .tc main_arg12) = m ((c.tc : Thread nD τ).loc main_arg12) :=
  (W1_of m c main_arg12 (by decide)).trans rfl
theorem W2_arg12 (c : Dev nD) : W2 m c (Proc.devRef .tc main_arg12) = m ((c.tc : Thread nD τ).loc main_arg12) :=
  (W2_of m c main_arg12 (by decide)).trans (W1_arg12 m c)
theorem W3_arg12 (c : Dev nD) : W3 m c (Proc.devRef .tc main_arg12) = m ((c.tc : Thread nD τ).loc main_arg12) :=
  (W3_of m c main_arg12 (by decide)).trans (W2_arg12 m c)
theorem W4_arg12 (c : Dev nD) : W4 m c (Proc.devRef .tc main_arg12) = m ((c.tc : Thread nD τ).loc main_arg12) :=
  (W4_of m c main_arg12 (by decide)).trans (W3_arg12 m c)
theorem W5_arg12 (c : Dev nD) : W5 m c (Proc.devRef .tc main_arg12) = m ((c.tc : Thread nD τ).loc main_arg12) :=
  (W5_of m c main_arg12 (by decide)).trans (W4_arg12 m c)
theorem W6_arg12 (c : Dev nD) : W6 m c (Proc.devRef .tc main_arg12) = m ((c.tc : Thread nD τ).loc main_arg12) :=
  (W6_of m c main_arg12 (by decide)).trans (W5_arg12 m c)
theorem W7_arg12 (c : Dev nD) : W7 m c (Proc.devRef .tc main_arg12) = m ((c.tc : Thread nD τ).loc main_arg12) :=
  (W7_of m c main_arg12 (by decide)).trans (W6_arg12 m c)
theorem W8_arg12 (c : Dev nD) : W8 m c (Proc.devRef .tc main_arg12) = m ((c.tc : Thread nD τ).loc main_arg12) :=
  (W8_of m c main_arg12 (by decide)).trans (W7_arg12 m c)
theorem W9_arg12 (c : Dev nD) : W9 m c (Proc.devRef .tc main_arg12) = m ((c.tc : Thread nD τ).loc main_arg12) :=
  (W9_of m c main_arg12 (by decide)).trans (W8_arg12 m c)

end Keep

/-! ## The values, item by item -/

section Values

variable (m : (ℓ : Loc nD τ sig) → Buf (Elt Ideal) ℓ)

/-- Row 0 of the edge list, as region 0 finds it. -/
theorem val_v1 (c : Dev nD) : W1 m c (Proc.devRef .tc main_v1) = KFun.src (m ((c.tc : Thread nD τ).loc main_arg1)) :=
  host0_v1 (W0 m c)
/-- Row 1 of the edge list. -/
theorem val_v3 (c : Dev nD) : W1 m c (Proc.devRef .tc main_v3) = KFun.dst (m ((c.tc : Thread nD τ).loc main_arg1)) :=
  host0_v3 (W0 m c)
/-- The reciprocal of the clamped in-degree. -/
theorem val_v11 (c : Dev nD) : W1 m c (Proc.devRef .tc main_v11) = KFun.dinvOf (KFun.dst (m ((c.tc : Thread nD τ).loc main_arg1))) :=
  host0_v11 (W0 m c)
/-- Layer 0's neighbour means. -/
theorem val_v26 (c : Dev nD) : W1 m c (Proc.devRef .tc main_v26) = KFun.agg128 (m ((c.tc : Thread nD τ).loc main_arg0)) (m ((c.tc : Thread nD τ).loc main_arg1)) :=
  host0_v26 (W0 m c)
theorem W2_v1 (c : Dev nD) : W2 m c (Proc.devRef .tc main_v1) = KFun.src (m ((c.tc : Thread nD τ).loc main_arg1)) :=
  (W2_of m c main_v1 (by decide)).trans (val_v1 m c)
theorem W3_v1 (c : Dev nD) : W3 m c (Proc.devRef .tc main_v1) = KFun.src (m ((c.tc : Thread nD τ).loc main_arg1)) :=
  (W3_of m c main_v1 (by decide)).trans (W2_v1 m c)
theorem W4_v1 (c : Dev nD) : W4 m c (Proc.devRef .tc main_v1) = KFun.src (m ((c.tc : Thread nD τ).loc main_arg1)) :=
  (W4_of m c main_v1 (by decide)).trans (W3_v1 m c)
theorem W5_v1 (c : Dev nD) : W5 m c (Proc.devRef .tc main_v1) = KFun.src (m ((c.tc : Thread nD τ).loc main_arg1)) :=
  (W5_of m c main_v1 (by decide)).trans (W4_v1 m c)
theorem W2_v3 (c : Dev nD) : W2 m c (Proc.devRef .tc main_v3) = KFun.dst (m ((c.tc : Thread nD τ).loc main_arg1)) :=
  (W2_of m c main_v3 (by decide)).trans (val_v3 m c)
theorem W3_v3 (c : Dev nD) : W3 m c (Proc.devRef .tc main_v3) = KFun.dst (m ((c.tc : Thread nD τ).loc main_arg1)) :=
  (W3_of m c main_v3 (by decide)).trans (W2_v3 m c)
theorem W4_v3 (c : Dev nD) : W4 m c (Proc.devRef .tc main_v3) = KFun.dst (m ((c.tc : Thread nD τ).loc main_arg1)) :=
  (W4_of m c main_v3 (by decide)).trans (W3_v3 m c)
theorem W5_v3 (c : Dev nD) : W5 m c (Proc.devRef .tc main_v3) = KFun.dst (m ((c.tc : Thread nD τ).loc main_arg1)) :=
  (W5_of m c main_v3 (by decide)).trans (W4_v3 m c)
theorem W2_v11 (c : Dev nD) : W2 m c (Proc.devRef .tc main_v11) = KFun.dinvOf (KFun.dst (m ((c.tc : Thread nD τ).loc main_arg1))) :=
  (W2_of m c main_v11 (by decide)).trans (val_v11 m c)
theorem W3_v11 (c : Dev nD) : W3 m c (Proc.devRef .tc main_v11) = KFun.dinvOf (KFun.dst (m ((c.tc : Thread nD τ).loc main_arg1))) :=
  (W3_of m c main_v11 (by decide)).trans (W2_v11 m c)
theorem W4_v11 (c : Dev nD) : W4 m c (Proc.devRef .tc main_v11) = KFun.dinvOf (KFun.dst (m ((c.tc : Thread nD τ).loc main_arg1))) :=
  (W4_of m c main_v11 (by decide)).trans (W3_v11 m c)
theorem W5_v11 (c : Dev nD) : W5 m c (Proc.devRef .tc main_v11) = KFun.dinvOf (KFun.dst (m ((c.tc : Thread nD τ).loc main_arg1))) :=
  (W5_of m c main_v11 (by decide)).trans (W4_v11 m c)

/-- Layer 0's output: what region 0 leaves. -/
theorem val_v27 (c : Dev nD) : W2 m c (Proc.devRef .tc main_v27) = KFun.h0 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  refine (W2_self m c).trans ?_
  refine (arr0 (U1 m) c).trans ?_
  show KFun.combine (W1 m c (Proc.devRef .tc main_v26)) (W1 m c (Proc.devRef .tc main_arg0)) (W1 m c (Proc.devRef .tc main_arg4)) (W1 m c (Proc.devRef .tc main_arg5)) (W1 m c (Proc.devRef .tc main_arg6)) = _
  rw [val_v26 m c, W1_arg0 m c, W1_arg4 m c, W1_arg5 m c, W1_arg6 m c]
  rfl

/-- Layer 1's neighbour means. -/
theorem val_v41 (c : Dev nD) : W3 m c (Proc.devRef .tc main_v41) = KFun.agg128 (KFun.h0 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) (m ((c.tc : Thread nD τ).loc main_arg1)) := by
  refine (host1_v41 (W2 m c)).trans ?_
  rw [val_v27 m c, W2_v1 m c, W2_v3 m c, W2_v11 m c]
  rfl

theorem W3_v27 (c : Dev nD) : W3 m c (Proc.devRef .tc main_v27) = KFun.h0 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) :=
  (W3_of m c main_v27 (by decide)).trans (val_v27 m c)

/-- Layer 1's output: what region 1 leaves. -/
theorem val_v42 (c : Dev nD) : W4 m c (Proc.devRef .tc main_v42) = KFun.h1 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W4_self m c).trans ?_
  refine (arr1 (U3 m) c).trans ?_
  show KFun.combine (W3 m c (Proc.devRef .tc main_v41)) (W3 m c (Proc.devRef .tc main_v27)) (W3 m c (Proc.devRef .tc main_arg7)) (W3 m c (Proc.devRef .tc main_arg8)) (W3 m c (Proc.devRef .tc main_arg9)) = _
  rw [val_v41 m c, W3_v27 m c, W3_arg7 m c, W3_arg8 m c, W3_arg9 m c]
  rfl

/-- Layer 2's dense product: what region 2 leaves. -/
theorem val_v43 (c : Dev nD) : W5 m c (Proc.devRef .tc main_v43) = KFun.dense (KFun.h1 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10)) := by
  refine (W5_self m c).trans ?_
  refine (arr2 (U4 m) c).trans ?_
  show KFun.dense (W4 m c (Proc.devRef .tc main_v42)) (W4 m c (Proc.devRef .tc main_arg10)) = _
  rw [val_v42 m c, W4_arg10 m c]

/-- Layer 2's neighbour means. -/
theorem val_v57 (c : Dev nD) : W6 m c (Proc.devRef .tc main_v57) = KFun.agg64 (KFun.dense (KFun.h1 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) (m ((c.tc : Thread nD τ).loc main_arg10))) (m ((c.tc : Thread nD τ).loc main_arg1)) := by
  refine (host3_v57 (W5 m c)).trans ?_
  rw [val_v43 m c, W5_v1 m c, W5_v3 m c, W5_v11 m c]
  rfl

theorem W6_v42 (c : Dev nD) : W6 m c (Proc.devRef .tc main_v42) = KFun.h1 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W6_of m c main_v42 (by decide)).trans ((W5_of m c main_v42 (by decide)).trans (val_v42 m c))

/-- Layer 2's output: what region 3 leaves. -/
theorem val_v58 (c : Dev nD) : W7 m c (Proc.devRef .tc main_v58) = KFun.h2 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W7_self m c).trans ?_
  refine (arr3 (U6 m) c).trans ?_
  show KFun.final (W6 m c (Proc.devRef .tc main_v57)) (W6 m c (Proc.devRef .tc main_v42)) (W6 m c (Proc.devRef .tc main_arg11)) (W6 m c (Proc.devRef .tc main_arg12)) = _
  rw [val_v57 m c, W6_v42 m c, W6_arg11 m c, W6_arg12 m c]
  rfl

/-- The graph ids re-laid. -/
theorem val_v59 (c : Dev nD) : W8 m c (Proc.devRef .tc main_v59) = KFun.batR (m ((c.tc : Thread nD τ).loc main_arg2)) :=
  (host4_v59 (W7 m c)).trans (congrArg KFun.batR (W7_arg2 m c))

theorem W8_v58 (c : Dev nD) : W8 m c (Proc.devRef .tc main_v58) = KFun.h2 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) :=
  (W8_of m c main_v58 (by decide)).trans (val_v58 m c)

/-- The program's result: what region 4 leaves. -/
theorem W9_out (c : Dev nD) : W9 (F := Ideal) m c (Proc.devRef .tc main_v60)
    = KFun.out (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  refine (W9_self m c).trans ?_
  refine (arr4 (U8 m) c).trans ?_
  show KFun.pool (W8 m c (Proc.devRef .tc main_v58)) (W8 m c (Proc.devRef .tc main_v59)) = _
  rw [W8_v58 m c, val_v59 m c]
  rfl

end Values

end Cert.KernelIdeal.Hand

end
-- ==== Proof.Bridge.Layers01.lean ====
/-
  Layers 0 and 1 of the two programs agree at the exact extended reals. Each layer is
  relu(agg · Wl + h · Wr + b); the kernel program takes agg as the neighbour sum times 1 / max(deg, 1), the
  reference divides the neighbour sum by max(deg, 1). Since max(deg, 1) ≥ 1 is not zero, the two agree with no
  finiteness hypothesis.
-/
import proofs.«404932_j73151882985825_3_alg».proof.Proof.KI.KFun
import proofs.«404932_j73151882985825_3_alg».proof.Proof.Gen.ReferenceIdeal.Read
import Idealize.ShloMosaic.PureOps.Ideal.Laws
import Idealize.ShloMosaic.Lib.ValueIdx
import Idealize.ShloMosaic.Lib.Pipeline.Value
import Mathlib.Data.EReal.Operations
import Mathlib.Data.EReal.Inv

noncomputable section

namespace Cert.Bridge

open Idealize.ShloMosaic Idealize.ShloMosaic.ValueIdx
open Cert.KernelIdeal
open Cert.ReferenceIdeal.Read

/-- The bit pattern 0x3F800000 is the real 1. -/
theorem ofBits_one_f32 : Ideal.ofBits .f32 0x3F800000#32 = 1 := by
  simp [Ideal.ofBits, Ideal.ieee, -EReal.coe_mul]; norm_num

/-- Multiplying by 1 / d is dividing by d, for d at least 1. -/
theorem mul_div_one (a d : EReal) (hd : 1 ≤ d) : a * Ideal.div 1 d = Ideal.div a d := by
  have h0 : d ≠ 0 := fun h => by rw [h] at hd; exact absurd hd (by norm_num)
  unfold Ideal.div
  rw [if_neg h0, if_neg h0, one_mul]

/-- The reference's neighbour sum of one layer, its input array abstract. -/
def RefSum (h : Cert.ReferenceIdeal.S100000x128.Idx → EReal) (x1 : IVec Cert.ReferenceIdeal.S2x1600000 32) :
    Cert.ReferenceIdeal.S100000x128.Idx → EReal :=
  Host.scatterAdd (F := Ideal) (φ := .f32) Cert.ReferenceIdeal.scatter_S100000x128_S1600000x1_S1600000x128_1_0_0_1
    (val_main_v11 (F := Ideal)) (val_main_v12 (F := Ideal) x1)
    (Host.gather Cert.ReferenceIdeal.gather_S100000x128_S1600000x1_S1600000x128_1_0_n_n_0_1_1128 h (val_main_v9 (F := Ideal) x1))

/-- One layer of the reference with its input array abstract. -/
def RefLayer (h : Cert.ReferenceIdeal.S100000x128.Idx → EReal) (x1 : IVec Cert.ReferenceIdeal.S2x1600000 32)
    (wl wr : Cert.ReferenceIdeal.S128x128.Idx → EReal) (b : Cert.ReferenceIdeal.S128.Idx → EReal) :
    Cert.ReferenceIdeal.S100000x128.Idx → EReal :=
  maximumf (F := Ideal) (φ := .f32)
    (addf (F := Ideal) (φ := .f32)
      (addf (F := Ideal) (φ := .f32)
        (val_main_v24 (F := Ideal)
          (Host.divf (F := Ideal) (φ := .f32) (RefSum h x1) (val_main_v21 (F := Ideal) x1))
          wl)
        (val_main_v24 (F := Ideal) h wr))
      (val_main_v27 (F := Ideal) b))
    (val_main_call0_v0 (F := Ideal))

theorem v29_eq_RefLayer (x0 x1 x4 x5 x6) :
    val_main_v29 (F := Ideal) x0 x1 x4 x5 x6 = RefLayer x0 x1 x4 x5 x6 := rfl

theorem v59_eq_RefLayer (x0 x1 x4 x5 x6 x7 x8 x9) :
    val_main_v59 (F := Ideal) x0 x1 x4 x5 x6 x7 x8 x9 = RefLayer (val_main_v29 (F := Ideal) x0 x1 x4 x5 x6) x1 x7 x8 x9 := rfl

/-- The kernel program's aggregate in the reference's terms: the same neighbour sum, times the row-broadcast of
    1 / max(deg, 1). -/
theorem agg128_eq (h : S100000x128.Idx → EReal) (x1 : IVec S2x1600000 32) :
    KFun.agg128 h x1 = mulf (F := Ideal) (φ := .f32) (RefSum h x1)
      (broadcastInDim Cert.ReferenceIdeal.S100000x128 ![0, 1] Cert.ReferenceIdeal.Facts₀.bcast_S100000x1_S100000x128_0_1
        (broadcastInDim Cert.ReferenceIdeal.S100000x1 ![0] Cert.ReferenceIdeal.Facts₀.bcast_S100000_S100000x1_0
          (Host.divf (F := Ideal) (φ := .f32) (val_main_v18 (F := Ideal)) (val_main_v19 (F := Ideal) x1)))) := rfl

/-- The two row broadcasts read at an index: the row's entry. -/
theorem rowBcast_apply (r : Cert.ReferenceIdeal.S100000.Idx → EReal) (j : Cert.ReferenceIdeal.S100000x128.Idx) :
    broadcastInDim Cert.ReferenceIdeal.S100000x128 ![0, 1] Cert.ReferenceIdeal.Facts₀.bcast_S100000x1_S100000x128_0_1
        (broadcastInDim Cert.ReferenceIdeal.S100000x1 ![0] Cert.ReferenceIdeal.Facts₀.bcast_S100000_S100000x1_0 r) j
      = r (idx_main_v20 (idx_main_v21 j)) := by
  rw [broadcastInDim_apply _ Cert.ReferenceIdeal.Facts₀.bcast_S100000x1_S100000x128_0_1 _ j (idx_main_v21 j) (fun a => match a with
      | ⟨0, _⟩ => by show (j 0).val = if (100000 : Nat) = 1 then 0 else (j 0).val; rw [if_neg (by decide)]
      | ⟨1, _⟩ => by show 0 = if (1 : Nat) = 1 then 0 else (j 1).val; rw [if_pos rfl]),
    broadcastInDim_apply _ Cert.ReferenceIdeal.Facts₀.bcast_S100000_S100000x1_0 r (idx_main_v21 j) (idx_main_v20 (idx_main_v21 j)) (fun a => match a with
      | ⟨0, _⟩ => by show (j 0).val = if (100000 : Nat) = 1 then 0 else (j 0).val; rw [if_neg (by decide)])]

/-- The host's division read at an index. -/
theorem hostDivf_apply {s : Shape} (a b : FVec Ideal s .f32) (i : s.Idx) :
    Host.divf (F := Ideal) (φ := .f32) a b i = Ideal.div (a i) (b i) := rfl

/-- The constant-1 row reads 1. -/
theorem v18_apply (a : Cert.ReferenceIdeal.S100000.Idx) : val_main_v18 (F := Ideal) a = 1 := by
  rw [val_main_v18_apply]
  rw [val_main_cst_3_apply]
  exact ofBits_one_f32

/-- The larger of the in-degree and 1, at a node, is at least 1. -/
theorem one_le_v19 (x1 : IVec Cert.ReferenceIdeal.S2x1600000 32) (a : Cert.ReferenceIdeal.S100000.Idx) :
    (1 : EReal) ≤ val_main_v19 (F := Ideal) x1 a := by
  rw [val_main_v19_apply]
  rw [v18_apply]
  rw [Ideal.maximumf_def]
  exact le_max_right _ _

/-- An entry of the aggregate: the kernel program's product is the reference's quotient. -/
theorem agg_entry (h : S100000x128.Idx → EReal) (x1 : IVec S2x1600000 32) (j : S100000x128.Idx) :
    KFun.agg128 h x1 j = Host.divf (F := Ideal) (φ := .f32) (RefSum h x1) (val_main_v21 (F := Ideal) x1) j := by
  rw [agg128_eq, mulf_apply, rowBcast_apply]
  rw [hostDivf_apply, hostDivf_apply]
  rw [val_main_v21_apply, val_main_v20_apply]
  rw [v18_apply]
  exact mul_div_one _ _ (one_le_v19 x1 _)

/-- The contraction's left index is (row, k). -/
theorem lidx_eq (i : S100000x128.Idx) (k : Fin 128) : lidx_main_v24 i k = ix2 (i 0 : Fin 100000) k := by
  funext a; match a with | ⟨0, _⟩ => rfl | ⟨1, _⟩ => rfl

/-- The contraction's right index is (k, column). -/
theorem ridx_eq (i : S100000x128.Idx) (k : Fin 128) : ridx_main_v24 i k = ix2 k (i 1 : Fin 128) := by
  funext a; match a with | ⟨0, _⟩ => rfl | ⟨1, _⟩ => rfl

/-- The bias is read at the column. -/
theorem bidx_eq (i : S100000x128.Idx) : idx_main_v26 (idx_main_v27 i) = ix1 (i 1 : Fin 128) := by
  funext a; match a with | ⟨0, _⟩ => rfl

/-- The zero array of the relu reads 0. -/
theorem relu0_apply (i : S100000x128.Idx) : val_main_call0_v0 (F := Ideal) i = 0 := by
  rw [val_main_call0_v0_apply]
  rw [val_main_call0_cst_apply]
  exact Ideal.ofBits_zero_f32

/-- One layer: the kernel program's relu(agg · Wl + h · Wr + b) is the reference's. -/
theorem layer_eq (h : S100000x128.Idx → EReal) (x1 : IVec S2x1600000 32) (wl wr : S128x128.Idx → EReal)
    (b : S128.Idx → EReal) : KFun.combine (KFun.agg128 h x1) h wl wr b = RefLayer h x1 wl wr b := by
  funext i
  unfold RefLayer
  rw [maximumf_apply, addf_apply, addf_apply, val_main_v24_apply, val_main_v24_apply, val_main_v27_apply,
    val_main_v26_apply, relu0_apply, bidx_eq]
  unfold KFun.combine
  simp only [lidx_eq, ridx_eq, agg_entry]
  rfl

theorem h0_eq (x0 x1 x4 x5 x6) :
    KFun.h0 x0 x1 x4 x5 x6 = Cert.ReferenceIdeal.Read.val_main_v29 (F := Ideal) x0 x1 x4 x5 x6 := by
  rw [v29_eq_RefLayer]
  exact layer_eq x0 x1 x4 x5 x6

theorem h1_eq (x0 x1 x4 x5 x6 x7 x8 x9) :
    KFun.h1 x0 x1 x4 x5 x6 x7 x8 x9 = Cert.ReferenceIdeal.Read.val_main_v59 (F := Ideal) x0 x1 x4 x5 x6 x7 x8 x9 := by
  rw [v59_eq_RefLayer, ← h0_eq]
  exact layer_eq (KFun.h0 x0 x1 x4 x5 x6) x1 x7 x8 x9

end Cert.Bridge

end
-- ==== Proof.Bridge.Layer2.lean ====
/-
  Layer 2 of the two programs agrees at the exact extended reals. The reference sums the 128-column rows of the
  sources over the edges landing at a node, divides by max(deg, 1) and then applies the left weights; the kernel
  program applies the left weights first, sums the 64-column rows over the same edges and multiplies by
  1 / max(deg, 1). The rows are relu outputs, hence nonnegative, and 1 / max(deg, 1) is a nonnegative real, so the
  product distributes over both sums in the extended reals with no finiteness hypothesis.
  * a scatter of rows and a gather of rows read at an index, for any sizes (`rowScatter_sum`, `rowGather_apply`);
  * the two distributions and the exchange of the sums (`agg_swap`);
  * the two programs' layer 2 at an entry (`agg64_entry`, `refterm_entry`) and their equality (`layer2_eq`, `h2_eq`).
-/
import proofs.«404932_j73151882985825_3_alg».proof.Proof.KI.KFun
import proofs.«404932_j73151882985825_3_alg».proof.Proof.Gen.ReferenceIdeal.Read
import Idealize.ShloMosaic.PureOps.Ideal.Laws
import Idealize.ShloMosaic.Lib.ValueIdx
import Idealize.ShloMosaic.Lib.Pipeline.Value
import Mathlib.Data.EReal.Operations
import Mathlib.Data.EReal.Inv

noncomputable section

open scoped BigOperators

namespace Cert.Bridge

open Idealize.ShloMosaic Idealize.ShloMosaic.ValueIdx
open Cert.KernelIdeal Cert.KernelIdeal.Facts₀
open Cert.ReferenceIdeal.Read

namespace L2

/-! ## A scatter of rows and a gather of rows, read at an index -/

/-- The dimension numbers of a scatter of `E` rows of width `W` into an `N × W` array, one row index per update row. -/
abbrev rowScatter (N E W : Nat) (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ where
  updateWindowDims := [1]
  insertedWindowDims := [0]
  scatterDimsToOperandDims := [0]
  indexVectorDim := 1
  wf := wf

section
variable {N E W w : Nat} (wf : ScatterDims.WF ⟨2, ![N, W]⟩ ⟨2, ![E, 1]⟩ ⟨2, ![E, W]⟩ [1] [0] [0] 1)

theorem rowScatter_start0 (j : (⟨2, ![E, W]⟩ : Shape).Idx) (idx : IVec ⟨2, ![E, 1]⟩ w) :
    (rowScatter N E W wf).start j idx 0 = (idx (ix2 (j 0 : Fin E) (0 : Fin 1))).toInt := by
  unfold ScatterDims.start
  rw [dif_pos (show (0 : Fin 2) ∈ (rowScatter N E W wf).scatterDimsToOperandDims from List.mem_singleton.mpr rfl)]
  have hsi : (rowScatter N E W wf).siIdx j ⟨List.idxOf (0 : Fin 2) (rowScatter N E W wf).scatterDimsToOperandDims,
      List.idxOf_lt_length_iff.2 (List.mem_singleton.mpr rfl)⟩ = ix2 (j 0 : Fin E) (0 : Fin 1) := by
    funext b; refine Fin.ext ?_
    match b with
    | ⟨0, _⟩ => rfl
    | ⟨1, _⟩ => rfl
  rw [hsi]
  rfl

theorem rowScatter_start1 (j : (⟨2, ![E, W]⟩ : Shape).Idx) (idx : IVec ⟨2, ![E, 1]⟩ w) :
    (rowScatter N E W wf).start j idx 1 = 0 := by
  unfold ScatterDims.start
  rw [dif_neg (show (1 : Fin 2) ∉ (rowScatter N E W wf).scatterDimsToOperandDims from by simp)]

theorem rowScatter_window0 (j : (⟨2, ![E, W]⟩ : Shape).Idx) : (rowScatter N E W wf).window j 0 = 0 := by
  unfold ScatterDims.window
  rw [dif_neg (show (0 : Fin 2) ∉ (rowScatter N E W wf).sKept from by simp [ScatterDims.sKept, Shape.kept, List.mem_filter, List.mem_finRange])]

theorem rowScatter_window1 (j : (⟨2, ![E, W]⟩ : Shape).Idx) : (rowScatter N E W wf).window j 1 = (j 1).val := by
  unfold ScatterDims.window
  rw [dif_pos (show (1 : Fin 2) ∈ (rowScatter N E W wf).sKept from by simp [ScatterDims.sKept, Shape.kept, List.mem_filter, List.mem_finRange])]
  rfl

end

section
variable {N E W w : Nat} (wf : ScatterDims.WF ⟨2, ![N, W]⟩ ⟨2, ![E, 1]⟩ ⟨2, ![E, W]⟩ [1] [0] [0] 1)

/-- An update element lands at `(n, p)` exactly when its row's index word, read signed, is `n` and its column is `p`. -/
theorem rowScatter_resultIdx_iff (j : (⟨2, ![E, W]⟩ : Shape).Idx) (idx : IVec ⟨2, ![E, 1]⟩ w) (n : Fin N) (p : Fin W) :
    (rowScatter N E W wf).resultIdx? j idx = some (ix2 n p) ↔
      ((idx (ix2 (j 0 : Fin E) (0 : Fin 1))).toInt = (n.val : Int) ∧ (j 1).val = p.val) := by
  have hi0 : n.val < N := n.isLt
  have hi1 : p.val < W := p.isLt
  have hj1 : (j 1).val < W := idx2_lt1 j
  unfold ScatterDims.resultIdx?
  constructor
  · intro h
    split at h
    · rename_i H
      have hi := Option.some.inj h
      have h0 : ((rowScatter N E W wf).start j idx 0 + ((rowScatter N E W wf).window j 0 : Int)).toNat = n.val :=
        congrArg (fun f : (⟨2, ![N, W]⟩ : Shape).Idx => (f 0).val) hi
      have h1 : ((rowScatter N E W wf).start j idx 1 + ((rowScatter N E W wf).window j 1 : Int)).toNat = p.val :=
        congrArg (fun f : (⟨2, ![N, W]⟩ : Shape).Idx => (f 1).val) hi
      have H0 := (H 0).1
      rw [rowScatter_start0, rowScatter_window0] at h0 H0
      rw [rowScatter_start1, rowScatter_window1] at h1
      constructor <;> omega
    · exact absurd h (by simp)
  · rintro ⟨h0, h1⟩
    have H : ∀ a, 0 ≤ (rowScatter N E W wf).start j idx a + ((rowScatter N E W wf).window j a : Int) ∧
        (rowScatter N E W wf).start j idx a + ((rowScatter N E W wf).window j a : Int) < ((⟨2, ![N, W]⟩ : Shape).size a : Int) := by
      intro a
      match a with
      | ⟨0, _⟩ =>
        show 0 ≤ (rowScatter N E W wf).start j idx 0 + ((rowScatter N E W wf).window j 0 : Int) ∧
          (rowScatter N E W wf).start j idx 0 + ((rowScatter N E W wf).window j 0 : Int) < (N : Int)
        rw [rowScatter_start0, rowScatter_window0]
        constructor <;> omega
      | ⟨1, _⟩ =>
        show 0 ≤ (rowScatter N E W wf).start j idx 1 + ((rowScatter N E W wf).window j 1 : Int) ∧
          (rowScatter N E W wf).start j idx 1 + ((rowScatter N E W wf).window j 1 : Int) < (W : Int)
        rw [rowScatter_start1, rowScatter_window1]
        constructor <;> omega
    rw [dif_pos H]
    congr 1
    funext a
    refine Fin.ext ?_
    match a with
    | ⟨0, _⟩ =>
      show ((rowScatter N E W wf).start j idx 0 + ((rowScatter N E W wf).window j 0 : Int)).toNat = n.val
      rw [rowScatter_start0, rowScatter_window0]; omega
    | ⟨1, _⟩ =>
      show ((rowScatter N E W wf).start j idx 1 + ((rowScatter N E W wf).window j 1 : Int)).toNat = p.val
      rw [rowScatter_start1, rowScatter_window1]; omega

/-- The updates landing at `(n, p)`, summed: over the rows whose index word is `n`, the update at column `p`. -/
theorem rowScatter_sum {M : Type} [AddCommMonoid M] (upd : (⟨2, ![E, W]⟩ : Shape).Idx → M) (idx : IVec ⟨2, ![E, 1]⟩ w)
    (n : Fin N) (p : Fin W)
    [DecidablePred fun j : (⟨2, ![E, W]⟩ : Shape).Idx => (rowScatter N E W wf).resultIdx? j idx = some (ix2 n p)] :
    ∑ j ∈ Finset.univ.filter (fun j : (⟨2, ![E, W]⟩ : Shape).Idx => (rowScatter N E W wf).resultIdx? j idx = some (ix2 n p)), upd j =
      ∑ e ∈ Finset.univ.filter (fun e : Fin E => (idx (ix2 e (0 : Fin 1))).toInt = (n.val : Int)), upd (ix2 e p) := by
  rw [Finset.sum_filter, Finset.sum_filter, sum_idx2]
  refine Finset.sum_congr rfl fun e _ => ?_
  by_cases he : (idx (ix2 e (0 : Fin 1))).toInt = (n.val : Int)
  · rw [if_pos he]
    refine (Finset.sum_eq_single p ?_ ?_).trans ?_
    · intro q _ hq
      rw [if_neg]
      intro h
      exact hq (Fin.ext ((rowScatter_resultIdx_iff wf _ idx n p).1 h).2)
    · intro h; exact absurd (Finset.mem_univ _) h
    · rw [if_pos ((rowScatter_resultIdx_iff wf _ idx n p).2 ⟨he, rfl⟩)]
  · rw [if_neg he]
    refine Finset.sum_eq_zero fun q _ => ?_
    rw [if_neg]
    intro h
    exact he ((rowScatter_resultIdx_iff wf _ idx n p).1 h).1

end

/-- The dimension numbers of a gather of `E` rows of width `W` out of an `N × W` array, one row index per result row. -/
abbrev rowGather (N E W : Nat) (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ where
  offsetDims := [1]
  collapsedSliceDims := [0]
  operandBatchingDims := []
  startIndicesBatchingDims := []
  startIndexMap := [0]
  indexVectorDim := 1
  sliceSizes := ![1, W]
  wf := wf

/-- The row a gather reads for its result row `e`: the index word read signed and clamped into the array. -/
def rowAt {N E w : Nat} (hN : 0 < N) (idx : IVec ⟨2, ![E, 1]⟩ w) (e : Fin E) : Fin N :=
  ⟨min (idx (ix2 e (0 : Fin 1))).toInt.toNat (N - 1), by omega⟩

theorem rowGather_apply {α : Type} {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (j : (⟨2, ![E, W]⟩ : Shape).Idx) :
    Host.gather (rowGather N E W wf) x idx j = x (ix2 (rowAt hN idx (j 0 : Fin E)) (j 1 : Fin W)) := by
  unfold Host.gather
  congr 1
  funext a
  refine Fin.ext ?_
  match a with
  | ⟨0, _⟩ =>
    show (rowGather N E W wf).start j idx 0 + (rowGather N E W wf).batchCoord j 0 + (rowGather N E W wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E W wf).startIndexMap from List.mem_singleton.mpr rfl)]
    have hsi : (rowGather N E W wf).siIdx j ⟨List.idxOf (0 : Fin 2) (rowGather N E W wf).startIndexMap,
        List.idxOf_lt_length_iff.2 (List.mem_singleton.mpr rfl)⟩ = ix2 (j 0 : Fin E) (0 : Fin 1) := by
      funext b; refine Fin.ext ?_
      match b with
      | ⟨0, _⟩ => rfl
      | ⟨1, _⟩ => rfl
    rw [hsi]
    rfl
  | ⟨1, _⟩ =>
    show (rowGather N E W wf).start j idx 1 + (rowGather N E W wf).batchCoord j 1 + (rowGather N E W wf).offCoord j 1 = (j 1).val
    rw [GatherDims.batchCoord_eq_zero _ _ _ List.not_mem_nil]
    unfold GatherDims.start
    rw [dif_neg (show (1 : Fin 2) ∉ (rowGather N E W wf).startIndexMap from by simp)]
    unfold GatherDims.offCoord
    rw [dif_pos (show (1 : Fin 2) ∈ (rowGather N E W wf).sKept from (GatherDims.mem_sKept _ _).2 ⟨by simp, by simp⟩)]
    simp only [Nat.zero_add, Nat.add_zero]
    rfl

/-- The host's accumulating scatter of rows, read at `(n, p)`. -/
theorem hostScatterAdd_row {N E W w : Nat} (wf : ScatterDims.WF ⟨2, ![N, W]⟩ ⟨2, ![E, 1]⟩ ⟨2, ![E, W]⟩ [1] [0] [0] 1)
    (x : (⟨2, ![N, W]⟩ : Shape).Idx → EReal) (idx : IVec ⟨2, ![E, 1]⟩ w) (upd : (⟨2, ![E, W]⟩ : Shape).Idx → EReal)
    (n : Fin N) (p : Fin W) :
    Ideal.hostScatterAdd (rowScatter N E W wf) x idx upd (ix2 n p) =
      x (ix2 n p) + ∑ e ∈ Finset.univ.filter (fun e : Fin E => (idx (ix2 e (0 : Fin 1))).toInt = (n.val : Int)), upd (ix2 e p) := by
  unfold Ideal.hostScatterAdd
  rw [rowScatter_sum]

/-! ## Broadcasts read at an index -/

theorem bcast0_apply {α : Type} {t : Shape} (h : (⟨0, ![]⟩ : Shape).BroadcastsInDim t ![]) (y : (⟨0, ![]⟩ : Shape).Idx → α) (i : t.Idx) :
    broadcastInDim t ![] h y i = y ix0 :=
  broadcastInDim_apply _ h y i ix0 (fun a => a.elim0)

theorem rowBcast_apply {α : Type} {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (r : (⟨1, ![n]⟩ : Shape).Idx → α) (p : Fin n) (q : Fin m) :
    broadcastInDim ⟨2, ![n, m]⟩ ![0, 1] h₂ (broadcastInDim ⟨2, ![n, 1]⟩ ![0] h₁ r) (ix2 p q) = r (ix1 p) := by
  have hp := p.isLt
  rw [broadcastInDim_apply _ h₂ _ (ix2 p q) (ix2 p (0 : Fin 1)) (fun a => match a with
      | ⟨0, _⟩ => by show p.val = if n = 1 then 0 else p.val; split <;> omega
      | ⟨1, _⟩ => by show 0 = if (1 : Nat) = 1 then 0 else q.val; rw [if_pos rfl]),
    broadcastInDim_apply _ h₁ r (ix2 p (0 : Fin 1)) (ix1 p) (fun a => match a with
      | ⟨0, _⟩ => by show p.val = if n = 1 then 0 else p.val; split <;> omega)]

theorem colBcast_apply {α : Type} {n m : Nat} (h₁ : (⟨1, ![m]⟩ : Shape).BroadcastsInDim ⟨2, ![1, m]⟩ ![1])
    (h₂ : (⟨2, ![1, m]⟩ : Shape).BroadcastsInDim ⟨2, ![n, m]⟩ ![0, 1]) (b : (⟨1, ![m]⟩ : Shape).Idx → α) (p : Fin n) (q : Fin m) :
    broadcastInDim ⟨2, ![n, m]⟩ ![0, 1] h₂ (broadcastInDim ⟨2, ![1, m]⟩ ![1] h₁ b) (ix2 p q) = b (ix1 q) := by
  have hq := q.isLt
  rw [broadcastInDim_apply _ h₂ _ (ix2 p q) (ix2 (0 : Fin 1) q) (fun a => match a with
      | ⟨0, _⟩ => by show 0 = if (1 : Nat) = 1 then 0 else p.val; rw [if_pos rfl]
      | ⟨1, _⟩ => by show q.val = if m = 1 then 0 else q.val; split <;> omega),
    broadcastInDim_apply _ h₁ b (ix2 (0 : Fin 1) q) (ix1 q) (fun a => match a with
      | ⟨0, _⟩ => by show q.val = if m = 1 then 0 else q.val; split <;> omega)]

/-! ## Sums over the extended reals -/

theorem sum_mul_of_nonneg {ι : Type} (s : Finset ι) (f : ι → EReal) (hf : ∀ e, 0 ≤ f e) (c : EReal) :
    (∑ e ∈ s, f e) * c = ∑ e ∈ s, f e * c := by
  classical
  refine Finset.induction_on s (by simp) ?_
  intro a s ha ih
  rw [Finset.sum_insert ha, Finset.sum_insert ha,
    EReal.right_distrib_of_nonneg (hf a) (Finset.sum_nonneg fun e _ => hf e), ih]

theorem sum_mul_of_nonneg_ne_top {ι : Type} (s : Finset ι) (f : ι → EReal) {c : EReal} (hc : 0 ≤ c) (hc' : c ≠ ⊤) :
    (∑ e ∈ s, f e) * c = ∑ e ∈ s, f e * c := by
  classical
  refine Finset.induction_on s (by simp) ?_
  intro a s ha ih
  rw [Finset.sum_insert ha, Finset.sum_insert ha, EReal.right_distrib_of_nonneg_of_ne_top hc hc', ih]

theorem div_of_one_le (x D : EReal) (hD : 1 ≤ D) : Ideal.div x D = x * D⁻¹ := by
  have h0 : D ≠ 0 := fun h => by rw [h] at hD; exact absurd hD (by norm_num)
  unfold Ideal.div
  rw [if_neg h0]

/-- The neighbour sum of the products, scaled, is the product of the scaled neighbour sums: every summand of the
    neighbour sum is nonnegative and the scale is a nonnegative real. -/
theorem agg_swap {ε : Type} (s : Finset ε) (g : ε → Fin 128 → EReal) (hg : ∀ e k, 0 ≤ g e k) (wl : Fin 128 → EReal)
    (D : EReal) (hD : 1 ≤ D) :
    (0 + ∑ e ∈ s, ∑ k : Fin 128, g e k * wl k) * Ideal.div 1 D = ∑ k : Fin 128, Ideal.div (0 + ∑ e ∈ s, g e k) D * wl k := by
  have hc : (0 : EReal) ≤ D⁻¹ := EReal.inv_nonneg_of_nonneg (le_trans (by norm_num) hD)
  have hc' : D⁻¹ ≠ ⊤ := (EReal.inv_lt_top D).ne
  rw [div_of_one_le _ _ hD, one_mul, zero_add, Finset.sum_comm, sum_mul_of_nonneg_ne_top _ _ hc hc']
  refine Finset.sum_congr rfl fun k _ => ?_
  rw [div_of_one_le _ _ hD, zero_add, mul_right_comm, sum_mul_of_nonneg _ _ (fun e => hg e k)]

theorem ofBits_one : Ideal.ofBits .f32 0x3F800000#32 = 1 := by
  simp [Ideal.ofBits, Ideal.ieee, -EReal.coe_mul]; norm_num

/-! ## The two programs' layer 2 -/

/-- The reference's layer 2 with its input array abstract. -/
def RefL2 (h : S100000x128.Idx → EReal) (x1 : IVec S2x1600000 32) (wl wr : S128x64.Idx → EReal) (b : S64.Idx → EReal) :
    S100000x64.Idx → EReal :=
  addf (F := Ideal) (φ := .f32)
    (addf (F := Ideal) (φ := .f32)
      (Host.dotGeneral (F := Ideal) (φ₁ := .f32) (φ₂ := .f32) Cert.ReferenceIdeal.dot_S100000x128_S128x64_S100000x64_1_0_0_1_n_n none
        (Host.divf (F := Ideal) (φ := .f32)
          (Host.scatterAdd (F := Ideal) (φ := .f32) Cert.ReferenceIdeal.scatter_S100000x128_S1600000x1_S1600000x128_1_0_0_1
            (val_main_v71 (F := Ideal)) (val_main_v72 (F := Ideal) x1)
            (Host.gather Cert.ReferenceIdeal.gather_S100000x128_S1600000x1_S1600000x128_1_0_n_n_0_1_1128 h (val_main_v69 (F := Ideal) x1)))
          (val_main_v81 (F := Ideal) x1))
        wl)
      (Host.dotGeneral (F := Ideal) (φ₁ := .f32) (φ₂ := .f32) Cert.ReferenceIdeal.dot_S100000x128_S128x64_S100000x64_1_0_0_1_n_n none h wr))
    (val_main_v87 (F := Ideal) b)

theorem v88_eq_RefL2 (x0 x1 x4 x5 x6 x7 x8 x9 x10 x11 x12) :
    val_main_v88 (F := Ideal) x0 x1 x4 x5 x6 x7 x8 x9 x10 x11 x12 =
      RefL2 (val_main_v59 (F := Ideal) x0 x1 x4 x5 x6 x7 x8 x9) x1 x10 x11 x12 := rfl

/-- The kernel program's 64-column aggregate over the reference's index columns and degree row. -/
theorem agg64_eq (y : S100000x64.Idx → EReal) (x1 : IVec S2x1600000 32) :
    KFun.agg64 y x1 = mulf (F := Ideal) (φ := .f32)
      (Host.scatterAdd (F := Ideal) (φ := .f32) scatter_S100000x64_S1600000x1_S1600000x64_1_0_0_1
        (broadcastInDim S100000x64 ![] bcast_S_S100000x64 (constant S_ .f32 0x00000000#32)) (val_main_v72 (F := Ideal) x1)
        (Host.gather gather_S100000x64_S1600000x1_S1600000x64_1_0_n_n_0_1_164 y (val_main_v69 (F := Ideal) x1)))
      (broadcastInDim S100000x64 ![0, 1] bcast_S100000x1_S100000x64_0_1
        (broadcastInDim S100000x1 ![0] bcast_S100000_S100000x1_0
          (Host.divf (F := Ideal) (φ := .f32) (val_main_v78 (F := Ideal)) (val_main_v79 (F := Ideal) x1)))) := rfl

/-! ## The programs' records are the row scatter and the row gather -/

theorem sc64_eq : scatter_S100000x64_S1600000x1_S1600000x64_1_0_0_1 =
    rowScatter 100000 1600000 64 scatter_S100000x64_S1600000x1_S1600000x64_1_0_0_1_wf := rfl

theorem sc128_eq : Cert.ReferenceIdeal.scatter_S100000x128_S1600000x1_S1600000x128_1_0_0_1 =
    rowScatter 100000 1600000 128 Cert.ReferenceIdeal.Facts₀.scatter_S100000x128_S1600000x1_S1600000x128_1_0_0_1_wf := rfl

theorem ga64_eq : gather_S100000x64_S1600000x1_S1600000x64_1_0_n_n_0_1_164 =
    rowGather 100000 1600000 64 gather_S100000x64_S1600000x1_S1600000x64_1_0_n_n_0_1_164_wf := rfl

theorem ga128_eq : Cert.ReferenceIdeal.gather_S100000x128_S1600000x1_S1600000x128_1_0_n_n_0_1_1128 =
    rowGather 100000 1600000 128 Cert.ReferenceIdeal.Facts₀.gather_S100000x128_S1600000x1_S1600000x128_1_0_n_n_0_1_1128_wf := rfl

theorem scatterAdd_row {N E W w : Nat} (wf : ScatterDims.WF ⟨2, ![N, W]⟩ ⟨2, ![E, 1]⟩ ⟨2, ![E, W]⟩ [1] [0] [0] 1)
    (x : FVec Ideal ⟨2, ![N, W]⟩ .f32) (idx : IVec ⟨2, ![E, 1]⟩ w) (upd : FVec Ideal ⟨2, ![E, W]⟩ .f32)
    (n : Fin N) (p : Fin W) :
    Host.scatterAdd (F := Ideal) (φ := .f32) (rowScatter N E W wf) x idx upd (ix2 n p) =
      x (ix2 n p) + ∑ e ∈ Finset.univ.filter (fun e : Fin E => (idx (ix2 e (0 : Fin 1))).toInt = (n.val : Int)), upd (ix2 e p) :=
  hostScatterAdd_row wf x idx upd n p

theorem gather_row {α : Type} {N E W w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (q : Fin W) :
    Host.gather (rowGather N E W wf) x idx (ix2 e q) = x (ix2 (rowAt hN idx e) q) :=
  rowGather_apply hN wf x idx (ix2 e q)

theorem hostDivf_at {s : Shape} (a b : FVec Ideal s .f32) (i : s.Idx) :
    Host.divf (F := Ideal) (φ := .f32) a b i = Ideal.div (a i) (b i) := rfl

/-- The edges whose destination is node `n`. -/
def edgesTo (x1 : IVec S2x1600000 32) (n : Fin 100000) : Finset (Fin 1600000) :=
  Finset.univ.filter (fun e : Fin 1600000 => (val_main_v72 (F := Ideal) x1 (ix2 e (0 : Fin 1))).toInt = (n.val : Int))

/-- The source node of edge `e`. -/
def srcOf (x1 : IVec S2x1600000 32) (e : Fin 1600000) : Fin 100000 :=
  rowAt (N := 100000) (by norm_num) (val_main_v69 (F := Ideal) x1) e

theorem one78 (a : S100000.Idx) : val_main_v78 (F := Ideal) a = 1 := by
  rw [val_main_v78_apply]
  rw [val_main_cst_15_apply]
  exact ofBits_one

theorem zero71 (i : S100000x128.Idx) : val_main_v71 (F := Ideal) i = 0 := by
  rw [val_main_v71_apply]
  rw [val_main_cst_12_apply]
  exact Ideal.ofBits_zero_f32

theorem one_le_v79 (x1 : IVec S2x1600000 32) (a : S100000.Idx) : (1 : EReal) ≤ val_main_v79 (F := Ideal) x1 a := by
  rw [val_main_v79_apply]
  rw [one78]
  rw [Ideal.maximumf_def]
  exact le_max_right _ _

theorem v59_nonneg (x0 x1 x4 x5 x6 x7 x8 x9) (i : S100000x128.Idx) :
    (0 : EReal) ≤ val_main_v59 (F := Ideal) x0 x1 x4 x5 x6 x7 x8 x9 i := by
  rw [val_main_v59_apply]
  rw [val_main_call1_v0_apply]
  rw [val_main_call1_cst_apply]
  rw [Ideal.maximumf_def]
  exact le_max_of_le_right (le_of_eq Ideal.ofBits_zero_f32.symm)

theorem v81_entry (x1 : IVec S2x1600000 32) (n : Fin 100000) (k : Fin 128) :
    val_main_v81 (F := Ideal) x1 (ix2 n k) = val_main_v79 (F := Ideal) x1 (ix1 n) := by
  rw [val_main_v81_apply]
  rw [val_main_v80_apply]
  exact congrArg _ (funext fun a => match a with | ⟨0, _⟩ => rfl)

theorem bias_entry (b : S64.Idx → EReal) (n : Fin 100000) (j : Fin 64) :
    val_main_v87 (F := Ideal) b (ix2 n j) = b (ix1 j) := by
  rw [val_main_v87_apply]
  rw [val_main_v86_apply]
  exact congrArg b (funext fun a => match a with | ⟨0, _⟩ => rfl)

theorem dot_entry (l : S100000x128.Idx → EReal) (r : S128x64.Idx → EReal) (n : Fin 100000) (j : Fin 64) :
    Host.dotGeneral (F := Ideal) (φ₁ := .f32) (φ₂ := .f32) Cert.ReferenceIdeal.dot_S100000x128_S128x64_S100000x64_1_0_0_1_n_n none l r (ix2 n j) =
      ∑ k : Fin 128, l (ix2 n k) * r (ix2 k j) := by
  simp only [Host.dotGeneral]
  rw [Ideal.dotGeneral_apply, ← Equiv.sum_comp (ValueIdx.contrEquiv1 Cert.ReferenceIdeal.dot_S100000x128_S128x64_S100000x64_1_0_0_1_n_n 128 rfl rfl).symm]
  refine Finset.sum_congr rfl fun k _ => ?_
  have hk := ValueIdx.contrEquiv1_symm_val Cert.ReferenceIdeal.dot_S100000x128_S128x64_S100000x64_1_0_0_1_n_n 128 rfl rfl k
  have el : Cert.ReferenceIdeal.dot_S100000x128_S128x64_S100000x64_1_0_0_1_n_n.lhsIdx (ix2 n j) ((ValueIdx.contrEquiv1 Cert.ReferenceIdeal.dot_S100000x128_S128x64_S100000x64_1_0_0_1_n_n 128 rfl rfl).symm k) = ix2 n k := funext fun a => Fin.ext (by
    match a with
    | ⟨0, _⟩ => exact lhs_main_v84_0 _ _
    | ⟨1, _⟩ => exact (lhs_main_v84_1 _ _).trans hk)
  have er : Cert.ReferenceIdeal.dot_S100000x128_S128x64_S100000x64_1_0_0_1_n_n.rhsIdx (ix2 n j) ((ValueIdx.contrEquiv1 Cert.ReferenceIdeal.dot_S100000x128_S128x64_S100000x64_1_0_0_1_n_n 128 rfl rfl).symm k) = ix2 k j := funext fun a => Fin.ext (by
    match a with
    | ⟨0, _⟩ => exact (rhs_main_v84_0 _ _).trans hk
    | ⟨1, _⟩ => exact rhs_main_v84_1 _ _)
  rw [el, er]

theorem dense_entry (h : S100000x128.Idx → EReal) (wl : S128x64.Idx → EReal) (m : Fin 100000) (j : Fin 64) :
    KFun.dense h wl (ix2 m j) = ∑ k : Fin 128, h (ix2 m k) * wl (ix2 k j) := rfl

/-- An entry of the kernel program's 64-column aggregate. -/
theorem agg64_entry (y : S100000x64.Idx → EReal) (x1 : IVec S2x1600000 32) (n : Fin 100000) (j : Fin 64) :
    KFun.agg64 y x1 (ix2 n j) =
      (0 + ∑ e ∈ edgesTo x1 n, y (ix2 (srcOf x1 e) j)) * Ideal.div 1 (val_main_v79 (F := Ideal) x1 (ix1 n)) := by
  rw [agg64_eq]
  rw [mulf_apply]
  rw [sc64_eq]
  rw [scatterAdd_row]
  rw [ga64_eq]
  rw [rowBcast_apply]
  rw [bcast0_apply]
  rw [constant_apply]
  rw [Ideal.ofBits_zero_f32]
  rw [hostDivf_at]
  rw [one78]
  simp only [gather_row (by norm_num : 0 < 100000), edgesTo, srcOf]

/-- An entry of the reference's 128-column neighbour sum. -/
theorem refsum_entry (h : S100000x128.Idx → EReal) (x1 : IVec S2x1600000 32) (n : Fin 100000) (k : Fin 128) :
    Host.scatterAdd (F := Ideal) (φ := .f32) Cert.ReferenceIdeal.scatter_S100000x128_S1600000x1_S1600000x128_1_0_0_1
        (val_main_v71 (F := Ideal)) (val_main_v72 (F := Ideal) x1)
        (Host.gather Cert.ReferenceIdeal.gather_S100000x128_S1600000x1_S1600000x128_1_0_n_n_0_1_1128 h (val_main_v69 (F := Ideal) x1)) (ix2 n k) =
      0 + ∑ e ∈ edgesTo x1 n, h (ix2 (srcOf x1 e) k) := by
  rw [sc128_eq]
  rw [scatterAdd_row]
  rw [ga128_eq]
  rw [zero71]
  simp only [gather_row (by norm_num : 0 < 100000), edgesTo, srcOf]

/-- A term of the reference's aggregate: the neighbour sum over the larger of the in-degree and 1. -/
theorem refterm_entry (h : S100000x128.Idx → EReal) (x1 : IVec S2x1600000 32) (n : Fin 100000) (k : Fin 128) :
    Host.divf (F := Ideal) (φ := .f32)
        (Host.scatterAdd (F := Ideal) (φ := .f32) Cert.ReferenceIdeal.scatter_S100000x128_S1600000x1_S1600000x128_1_0_0_1
          (val_main_v71 (F := Ideal)) (val_main_v72 (F := Ideal) x1)
          (Host.gather Cert.ReferenceIdeal.gather_S100000x128_S1600000x1_S1600000x128_1_0_n_n_0_1_1128 h (val_main_v69 (F := Ideal) x1)))
        (val_main_v81 (F := Ideal) x1) (ix2 n k) =
      Ideal.div (0 + ∑ e ∈ edgesTo x1 n, h (ix2 (srcOf x1 e) k)) (val_main_v79 (F := Ideal) x1 (ix1 n)) := by
  rw [hostDivf_at]
  rw [refsum_entry]
  rw [v81_entry]

/-- Layer 2: the kernel program applies the left weights before the aggregation, the reference after it. -/
theorem layer2_eq (h : S100000x128.Idx → EReal) (hh : ∀ i, 0 ≤ h i) (x1 : IVec S2x1600000 32)
    (wl wr : S128x64.Idx → EReal) (b : S64.Idx → EReal) :
    KFun.final (KFun.agg64 (KFun.dense h wl) x1) h wr b = RefL2 h x1 wl wr b := by
  funext i
  obtain ⟨n, j, rfl⟩ : ∃ (n : Fin 100000) (j : Fin 64), i = ix2 n j := ⟨i 0, i 1, eq_ix2 i⟩
  have hD : (1 : EReal) ≤ val_main_v79 (F := Ideal) x1 (ix1 n) := one_le_v79 x1 _
  have hK : KFun.final (KFun.agg64 (KFun.dense h wl) x1) h wr b (ix2 n j) =
      ((∑ k : Fin 128, h (ix2 n k) * wr (ix2 k j)) + KFun.agg64 (KFun.dense h wl) x1 (ix2 n j)) + b (ix1 j) := rfl
  rw [hK]
  rw [agg64_entry]
  unfold RefL2
  rw [addf_apply]
  rw [addf_apply]
  rw [dot_entry]
  rw [dot_entry]
  rw [bias_entry]
  have hR : (∑ k : Fin 128, Host.divf (F := Ideal) (φ := .f32)
        (Host.scatterAdd (F := Ideal) (φ := .f32) Cert.ReferenceIdeal.scatter_S100000x128_S1600000x1_S1600000x128_1_0_0_1
          (val_main_v71 (F := Ideal)) (val_main_v72 (F := Ideal) x1)
          (Host.gather Cert.ReferenceIdeal.gather_S100000x128_S1600000x1_S1600000x128_1_0_n_n_0_1_1128 h (val_main_v69 (F := Ideal) x1)))
        (val_main_v81 (F := Ideal) x1) (ix2 n k) * wl (ix2 k j)) =
      ∑ k : Fin 128, Ideal.div (0 + ∑ e ∈ edgesTo x1 n, h (ix2 (srcOf x1 e) k)) (val_main_v79 (F := Ideal) x1 (ix1 n)) * wl (ix2 k j) :=
    Finset.sum_congr rfl fun k _ => by rw [refterm_entry]
  rw [hR]
  simp only [dense_entry]
  have hsw : (0 + ∑ e ∈ edgesTo x1 n, ∑ k : Fin 128, h (ix2 (srcOf x1 e) k) * wl (ix2 k j)) *
        Ideal.div 1 (val_main_v79 (F := Ideal) x1 (ix1 n)) =
      ∑ k : Fin 128, Ideal.div (0 + ∑ e ∈ edgesTo x1 n, h (ix2 (srcOf x1 e) k)) (val_main_v79 (F := Ideal) x1 (ix1 n)) * wl (ix2 k j) :=
    agg_swap (edgesTo x1 n) (fun e k => h (ix2 (srcOf x1 e) k)) (fun e k => hh _) (fun k => wl (ix2 k j))
      (val_main_v79 (F := Ideal) x1 (ix1 n)) hD
  rw [hsw]
  rw [add_comm (∑ k : Fin 128, h (ix2 n k) * wr (ix2 k j))]

end L2

theorem h2_eq (x0 x1 x4 x5 x6 x7 x8 x9 x10 x11 x12)
    (e1 : KFun.h1 x0 x1 x4 x5 x6 x7 x8 x9 = Cert.ReferenceIdeal.Read.val_main_v59 (F := Ideal) x0 x1 x4 x5 x6 x7 x8 x9) :
    KFun.h2 x0 x1 x4 x5 x6 x7 x8 x9 x10 x11 x12 =
      Cert.ReferenceIdeal.Read.val_main_v88 (F := Ideal) x0 x1 x4 x5 x6 x7 x8 x9 x10 x11 x12 := by
  rw [L2.v88_eq_RefL2]
  unfold KFun.h2
  rw [e1]
  exact L2.layer2_eq _ (L2.v59_nonneg x0 x1 x4 x5 x6 x7 x8 x9) x1 x10 x11 x12

end Cert.Bridge

end
-- ==== Proof.Bridge.Pool.lean ====
/-
  The pool (region 4) against the reference's per-graph mean, at the exact extended reals.
  The kernel multiplies each node's row by 1 or 0 according to whether the node's graph id is g and sums over all
  nodes; the reference scatter-adds the rows at their graph ids. Both are the sum of the rows of the nodes whose id,
  read as a signed word, is g (an id outside 0..63 matches no g on either side); the counts likewise; and both divide
  the sum by the larger of the count and 1.
-/
import proofs.«404932_j73151882985825_3_alg».proof.Proof.KI.KFun
import proofs.«404932_j73151882985825_3_alg».proof.Proof.Gen.ReferenceIdeal.Read
import Idealize.ShloMosaic.PureOps.Ideal.Laws
import Idealize.ShloMosaic.Lib.ValueIdx
import Idealize.ShloMosaic.Lib.Pipeline.Value
import Mathlib.Data.EReal.Operations
import Mathlib.Data.EReal.Inv

noncomputable section

namespace Cert.Bridge.Pool

open Idealize.ShloMosaic Idealize.ShloMosaic.ValueIdx

/-- Scatter dimension numbers: rows of an [N, C] update land at the row of a [G, C] operand that an [N, 1] index names. -/
abbrev rowDims (N G C : Nat)
    (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

theorem rowDims_start0 {N G C w : Nat} (wf) (j : (⟨2, ![N, C]⟩ : Shape).Idx) (idx : IVec ⟨2, ![N, 1]⟩ w) :
    (rowDims N G C wf).start j idx 0 = (idx (ix2 (j 0 : Fin N) (0 : Fin 1))).toInt := by
  unfold ScatterDims.start
  rw [dif_pos (show (0 : Fin 2) ∈ (rowDims N G C wf).scatterDimsToOperandDims from List.mem_singleton.mpr rfl)]
  have hsi : (rowDims N G C wf).siIdx j ⟨List.idxOf (0 : Fin 2) (rowDims N G C wf).scatterDimsToOperandDims,
      List.idxOf_lt_length_iff.2 (List.mem_singleton.mpr rfl)⟩ = ix2 (j 0 : Fin N) (0 : Fin 1) := by
    funext b; refine Fin.ext ?_
    match b with
    | ⟨0, _⟩ => rfl
    | ⟨1, _⟩ => rfl
  rw [hsi]
  rfl

theorem rowDims_start1 {N G C w : Nat} (wf) (j : (⟨2, ![N, C]⟩ : Shape).Idx) (idx : IVec ⟨2, ![N, 1]⟩ w) :
    (rowDims N G C wf).start j idx 1 = 0 := by
  unfold ScatterDims.start
  have h1 : ¬ (1 : Fin 2) ∈ (rowDims N G C wf).scatterDimsToOperandDims :=
    show ¬ (1 : Fin 2) ∈ ([0] : List (Fin 2)) by decide
  rw [dif_neg h1]

theorem rowDims_window0 {N G C : Nat} (wf) (j : (⟨2, ![N, C]⟩ : Shape).Idx) :
    (rowDims N G C wf).window j 0 = 0 := by
  unfold ScatterDims.window
  have h0 : ¬ (0 : Fin 2) ∈ (rowDims N G C wf).sKept :=
    show ¬ (0 : Fin 2) ∈ (List.finRange 2).filter (· ∉ ([0] : List (Fin 2))) by decide
  rw [dif_neg h0]

theorem rowDims_window1 {N G C : Nat} (wf) (j : (⟨2, ![N, C]⟩ : Shape).Idx) :
    (rowDims N G C wf).window j 1 = (j 1).val := by
  unfold ScatterDims.window
  have h1 : (1 : Fin 2) ∈ (rowDims N G C wf).sKept :=
    show (1 : Fin 2) ∈ (List.finRange 2).filter (· ∉ ([0] : List (Fin 2))) by decide
  rw [dif_pos h1]
  rfl

/-- An update element lands at (g, c) exactly when its row's index word, read signed, is g and its column is c. -/
theorem rowDims_resultIdx_iff {N G C w : Nat} (wf) (j : (⟨2, ![N, C]⟩ : Shape).Idx) (idx : IVec ⟨2, ![N, 1]⟩ w)
    (i : (⟨2, ![G, C]⟩ : Shape).Idx) :
    (rowDims N G C wf).resultIdx? j idx = some i ↔
      (idx (ix2 (j 0 : Fin N) (0 : Fin 1))).toInt = ((i 0 : Fin G).val : Int) ∧ (j 1 : Fin C).val = (i 1 : Fin C).val := by
  have hi0 : (i 0 : Fin G).val < G := (i 0).isLt
  have hj1 : (j 1 : Fin C).val < C := (j 1).isLt
  unfold ScatterDims.resultIdx?
  by_cases h : ∀ a, 0 ≤ (rowDims N G C wf).start j idx a + (rowDims N G C wf).window j a ∧
      (rowDims N G C wf).start j idx a + (rowDims N G C wf).window j a < (⟨2, ![G, C]⟩ : Shape).size a
  · rw [dif_pos h]
    have h0 := h 0
    have h1 := h 1
    rw [rowDims_start0, rowDims_window0] at h0
    rw [rowDims_start1, rowDims_window1] at h1
    constructor
    · intro e
      have e' := Option.some.inj e
      have e0 := congrArg (fun f => (f 0 : Fin G).val) e'
      have e1 := congrArg (fun f => (f 1 : Fin C).val) e'
      simp only [rowDims_start0, rowDims_window0, rowDims_start1, rowDims_window1] at e0 e1
      constructor
      · omega
      · omega
    · rintro ⟨e0, e1⟩
      congr 1
      funext a
      refine Fin.ext ?_
      match a with
      | ⟨0, _⟩ =>
        show ((rowDims N G C wf).start j idx 0 + (rowDims N G C wf).window j 0).toNat = (i 0).val
        rw [rowDims_start0, rowDims_window0]; omega
      | ⟨1, _⟩ =>
        show ((rowDims N G C wf).start j idx 1 + (rowDims N G C wf).window j 1).toNat = (i 1).val
        rw [rowDims_start1, rowDims_window1]; omega
  · rw [dif_neg h]
    constructor
    · intro e; exact absurd e (by simp)
    · rintro ⟨e0, e1⟩
      exfalso; apply h
      intro a
      match a with
      | ⟨0, _⟩ =>
        show 0 ≤ (rowDims N G C wf).start j idx 0 + (rowDims N G C wf).window j 0 ∧
          (rowDims N G C wf).start j idx 0 + (rowDims N G C wf).window j 0 < (G : Int)
        rw [rowDims_start0, rowDims_window0]; omega
      | ⟨1, _⟩ =>
        show 0 ≤ (rowDims N G C wf).start j idx 1 + (rowDims N G C wf).window j 1 ∧
          (rowDims N G C wf).start j idx 1 + (rowDims N G C wf).window j 1 < (C : Int)
        rw [rowDims_start1, rowDims_window1]; omega

/-- Scatter dimension numbers: the N scalar updates land at the element of a [G] operand that an [N, 1] index names. -/
abbrev cntDims (N G : Nat)
    (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

theorem cntDims_start0 {N G w : Nat} (wf) (j : (⟨1, ![N]⟩ : Shape).Idx) (idx : IVec ⟨2, ![N, 1]⟩ w) :
    (cntDims N G wf).start j idx 0 = (idx (ix2 (j 0 : Fin N) (0 : Fin 1))).toInt := by
  unfold ScatterDims.start
  rw [dif_pos (show (0 : Fin 1) ∈ (cntDims N G wf).scatterDimsToOperandDims from List.mem_singleton.mpr rfl)]
  have hsi : (cntDims N G wf).siIdx j ⟨List.idxOf (0 : Fin 1) (cntDims N G wf).scatterDimsToOperandDims,
      List.idxOf_lt_length_iff.2 (List.mem_singleton.mpr rfl)⟩ = ix2 (j 0 : Fin N) (0 : Fin 1) := by
    funext b; refine Fin.ext ?_
    match b with
    | ⟨0, _⟩ => rfl
    | ⟨1, _⟩ => rfl
  rw [hsi]
  rfl

theorem cntDims_window0 {N G : Nat} (wf) (j : (⟨1, ![N]⟩ : Shape).Idx) :
    (cntDims N G wf).window j 0 = 0 := by
  unfold ScatterDims.window
  have h0 : ¬ (0 : Fin 1) ∈ (cntDims N G wf).sKept :=
    show ¬ (0 : Fin 1) ∈ (List.finRange 1).filter (· ∉ ([0] : List (Fin 1))) by decide
  rw [dif_neg h0]

/-- An update lands at g exactly when its index word, read signed, is g. -/
theorem cntDims_resultIdx_iff {N G w : Nat} (wf) (j : (⟨1, ![N]⟩ : Shape).Idx) (idx : IVec ⟨2, ![N, 1]⟩ w)
    (i : (⟨1, ![G]⟩ : Shape).Idx) :
    (cntDims N G wf).resultIdx? j idx = some i ↔
      (idx (ix2 (j 0 : Fin N) (0 : Fin 1))).toInt = ((i 0 : Fin G).val : Int) := by
  have hi0 : (i 0 : Fin G).val < G := (i 0).isLt
  unfold ScatterDims.resultIdx?
  by_cases h : ∀ a, 0 ≤ (cntDims N G wf).start j idx a + (cntDims N G wf).window j a ∧
      (cntDims N G wf).start j idx a + (cntDims N G wf).window j a < (⟨1, ![G]⟩ : Shape).size a
  · rw [dif_pos h]
    have h0 := h 0
    rw [cntDims_start0, cntDims_window0] at h0
    constructor
    · intro e
      have e' := Option.some.inj e
      have e0 := congrArg (fun f => (f 0 : Fin G).val) e'
      simp only [cntDims_start0, cntDims_window0] at e0
      omega
    · intro e0
      congr 1
      funext a
      refine Fin.ext ?_
      match a with
      | ⟨0, _⟩ =>
        show ((cntDims N G wf).start j idx 0 + (cntDims N G wf).window j 0).toNat = (i 0).val
        rw [cntDims_start0, cntDims_window0]; omega
  · rw [dif_neg h]
    constructor
    · intro e; exact absurd e (by simp)
    · intro e0
      exfalso; apply h
      intro a
      match a with
      | ⟨0, _⟩ =>
        show 0 ≤ (cntDims N G wf).start j idx 0 + (cntDims N G wf).window j 0 ∧
          (cntDims N G wf).start j idx 0 + (cntDims N G wf).window j 0 < (G : Int)
        rw [cntDims_start0, cntDims_window0]; omega

/-- A word equals a small natural exactly when it reads, signed, as that natural. -/
theorem ofNat_eq_iff_toInt (g : Nat) (hg : g < 64) (v : BitVec 32) :
    BitVec.ofNat 32 g = v ↔ v.toInt = (g : Int) := by
  have hv := v.isLt
  rw [BitVec.toInt_eq_toNat_cond]
  constructor
  · intro e
    have : v.toNat = g := by rw [← e, BitVec.toNat_ofNat]; omega
    split <;> omega
  · intro e
    apply BitVec.eq_of_toNat_eq
    rw [BitVec.toNat_ofNat]
    split at e <;> omega

/-- Rank-1 indices are their coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

open Cert.KernelIdeal.KFun in
/-- Ten blocks of ten thousand nodes are the hundred thousand nodes. -/
def nodeEquiv : Fin 10 × Fin 10000 ≃ Fin 100000 where
  toFun p := node p.1 p.2
  invFun m := (⟨m.val / 10000, by have := m.isLt; omega⟩, ⟨m.val % 10000, by omega⟩)
  left_inv p := by
    obtain ⟨t, n⟩ := p
    have := t.isLt; have := n.isLt
    refine Prod.ext (Fin.ext ?_) (Fin.ext ?_)
    · show (t.val * 10000 + n.val) / 10000 = t.val; omega
    · show (t.val * 10000 + n.val) % 10000 = n.val; omega
  right_inv m := by
    refine Fin.ext ?_
    show m.val / 10000 * 10000 + m.val % 10000 = m.val; omega

open Cert.KernelIdeal.KFun in
theorem sum_node {M : Type*} [AddCommMonoid M] (f : Fin 100000 → M) :
    ∑ t : Fin 10, ∑ n : Fin 10000, f (node t n) = ∑ m : Fin 100000, f m := by
  rw [← Equiv.sum_comp nodeEquiv f, Fintype.sum_prod_type]
  rfl

theorem ofBits_one_f32 : Ideal.ofBits .f32 0x3F800000#32 = 1 := by
  simp [Ideal.ofBits, Ideal.ieee]
  rw [← EReal.coe_mul, ← EReal.coe_one]
  congr 1
  norm_num

open Cert.KernelIdeal.KFun Cert.ReferenceIdeal.Read

/-- The graph ids re-laid as ten rows: row t, position n holds node t * 10000 + n's id. -/
theorem batR_apply (x2 : IVec Cert.KernelIdeal.S100000 32) (t : Fin 10) (n : Fin 10000) :
    batR x2 (ix3 t (0 : Fin 1) n) = x2 (ix1 (node t n)) := by
  unfold batR
  refine shapeCast_apply x2 _ _ _ ?_
  rw [Shape.rowMajor_val_one, Shape.rowMajor_val_three]
  show t.val * 10000 + n.val = (t.val * 1 + 0) * 10000 + n.val
  omega

/-- Membership as a test on the id word read signed. -/
theorem member_batR (x2 : IVec Cert.KernelIdeal.S100000 32) (t : Fin 10) (g : Fin 64) (n : Fin 10000) :
    member (batR x2) t g n = if (x2 (ix1 (node t n))).toInt = (g.val : Int) then 1 else 0 := by
  unfold member
  rw [batR_apply]
  simp only [ofNat_eq_iff_toInt g.val g.isLt]

/-- The index column read at row a is the id of node a. -/
theorem v90_at (x2 : IVec Cert.KernelIdeal.S100000 32) (a : Fin 100000) :
    val_main_v90 (F := Ideal) x2 (ix2 a (0 : Fin 1)) = x2 (ix1 a) := by
  rw [val_main_v90_apply]
  congr 1
  funext d
  match d with
  | ⟨0, _⟩ => rfl

theorem v94_at (x2 : IVec Cert.KernelIdeal.S100000 32) (a : Fin 100000) :
    val_main_v94 (F := Ideal) x2 (ix2 a (0 : Fin 1)) = x2 (ix1 a) := by
  rw [val_main_v94_apply]
  congr 1
  funext d
  match d with
  | ⟨0, _⟩ => rfl

/-- The kernel's sum of the member rows is the sum over the nodes whose id reads g. -/
theorem num_kernel (h : Cert.KernelIdeal.S100000x64.Idx → EReal) (x2 : IVec Cert.KernelIdeal.S100000 32) (g c : Fin 64) :
    (∑ t : Fin 10, ∑ n : Fin 10000, member (batR x2) t g n * h (ix2 (node t n) c))
      = ∑ a : Fin 100000, if (x2 (ix1 a)).toInt = (g.val : Int) then h (ix2 a c) else 0 := by
  simp only [member_batR]
  refine (sum_node (fun a => (if (x2 (ix1 a)).toInt = (g.val : Int) then (1 : EReal) else 0) * h (ix2 a c))).trans ?_
  refine Finset.sum_congr rfl fun a _ => ?_
  by_cases hA : (x2 (ix1 a)).toInt = (g.val : Int)
  · rw [if_pos hA, if_pos hA, one_mul]
  · rw [if_neg hA, if_neg hA, zero_mul]

theorem den_kernel (x2 : IVec Cert.KernelIdeal.S100000 32) (g : Fin 64) :
    (∑ t : Fin 10, ∑ n : Fin 10000, member (batR x2) t g n)
      = ∑ a : Fin 100000, if (x2 (ix1 a)).toInt = (g.val : Int) then (1 : EReal) else 0 := by
  simp only [member_batR]
  exact sum_node (fun a => if (x2 (ix1 a)).toInt = (g.val : Int) then (1 : EReal) else 0)

/-- The reference's scatter-add of the rows at (g, c) is the same sum. -/
theorem num_ref (h : Cert.KernelIdeal.S100000x64.Idx → EReal) (x2 : IVec Cert.KernelIdeal.S100000 32) (g c : Fin 64) :
    Host.scatterAdd (F := Ideal) (φ := .f32) Cert.ReferenceIdeal.scatter_S64x64_S100000x1_S100000x64_1_0_0_1
        (val_main_v89 (F := Ideal)) (val_main_v90 (F := Ideal) x2) h (ix2 g c)
      = ∑ a : Fin 100000, if (x2 (ix1 a)).toInt = (g.val : Int) then h (ix2 a c) else 0 := by
  have hd : Cert.ReferenceIdeal.scatter_S64x64_S100000x1_S100000x64_1_0_0_1
      = rowDims 100000 64 64 Cert.ReferenceIdeal.Facts₀.scatter_S64x64_S100000x1_S100000x64_1_0_0_1_wf := rfl
  rw [hd]
  show val_main_v89 (F := Ideal) (ix2 g c) + ∑ j ∈ Finset.univ.filter (fun j =>
      (rowDims 100000 64 64 Cert.ReferenceIdeal.Facts₀.scatter_S64x64_S100000x1_S100000x64_1_0_0_1_wf).resultIdx? j
        (val_main_v90 (F := Ideal) x2) = some (ix2 g c)), h j = _
  rw [val_main_v89_apply, val_main_cst_16_apply, Ideal.ofBits_def, Ideal.ofBits_zero_f32, zero_add]
  simp only [rowDims_resultIdx_iff]
  rw [Finset.sum_filter, sum_idx2]
  refine Finset.sum_congr rfl fun a _ => ?_
  show (∑ b : Fin 64, if (val_main_v90 (F := Ideal) x2 (ix2 a (0 : Fin 1))).toInt = (g.val : Int) ∧ b.val = c.val
      then h (ix2 a b) else 0) = _
  rw [v90_at]
  by_cases hA : (x2 (ix1 a)).toInt = (g.val : Int)
  · simp only [hA, true_and, if_true, Fin.val_inj]
    rw [Finset.sum_ite_eq' Finset.univ c (fun b => h (ix2 a b)), if_pos (Finset.mem_univ c)]
  · simp only [hA, false_and, if_false, Finset.sum_const_zero]

/-- The reference's count at g is the number of nodes whose id reads g. -/
theorem den_ref (x2 : IVec Cert.KernelIdeal.S100000 32) (g : Fin 64) :
    val_main_v95 (F := Ideal) x2 (ix1 g)
      = ∑ a : Fin 100000, if (x2 (ix1 a)).toInt = (g.val : Int) then (1 : EReal) else 0 := by
  unfold val_main_v95
  have hd : Cert.ReferenceIdeal.scatter_S64_S100000x1_S100000_n_0_0_1
      = cntDims 100000 64 Cert.ReferenceIdeal.Facts₀.scatter_S64_S100000x1_S100000_n_0_0_1_wf := rfl
  rw [hd]
  show val_main_v93 (F := Ideal) (ix1 g) + ∑ j ∈ Finset.univ.filter (fun j =>
      (cntDims 100000 64 Cert.ReferenceIdeal.Facts₀.scatter_S64_S100000x1_S100000_n_0_0_1_wf).resultIdx? j
        (val_main_v94 (F := Ideal) x2) = some (ix1 g)), val_main_v92 (F := Ideal) j = _
  rw [val_main_v93_apply, val_main_cst_18_apply, Ideal.ofBits_def, Ideal.ofBits_zero_f32, zero_add]
  simp only [cntDims_resultIdx_iff, val_main_v92_apply, val_main_cst_17_apply, Ideal.ofBits_def, ofBits_one_f32]
  rw [Finset.sum_filter, sum_idx1]
  refine Finset.sum_congr rfl fun a _ => ?_
  show (if (val_main_v94 (F := Ideal) x2 (ix2 a (0 : Fin 1))).toInt = (g.val : Int) then (1 : EReal) else 0) = _
  rw [v94_at]

theorem pool_apply (h : Cert.KernelIdeal.S100000x64.Idx → EReal) (bat : IVec Cert.KernelIdeal.S10x1x10000 32) (g c : Fin 64) :
    pool h bat (ix2 g c) = Ideal.div (∑ t : Fin 10, ∑ n : Fin 10000, member bat t g n * h (ix2 (node t n) c))
      (max (∑ t : Fin 10, ∑ n : Fin 10000, member bat t g n) 1) := rfl

theorem hostDivf_at {s : Shape} {φ : FTy} (a b : FVec Ideal s φ) (i : s.Idx) :
    Host.divf a b i = Ideal.div (a i) (b i) := rfl

/-- The reference's divisor at (g, c): the larger of the count at g and 1. -/
theorem v99_at (x2 : IVec Cert.KernelIdeal.S100000 32) (g c : Fin 64) :
    val_main_v99 (F := Ideal) x2 (ix2 g c)
      = max (∑ a : Fin 100000, if (x2 (ix1 a)).toInt = (g.val : Int) then (1 : EReal) else 0) 1 := by
  rw [val_main_v99_apply, val_main_v98_apply, val_main_v97_apply, Ideal.maximumf_def]
  have hk : idx_main_v98 (idx_main_v99 (ix2 g c)) = ix1 g := by
    funext d
    match d with
    | ⟨0, _⟩ => rfl
  rw [hk, den_ref, val_main_v96_apply, val_main_cst_19_apply, Ideal.ofBits_def, ofBits_one_f32]

end Cert.Bridge.Pool

namespace Cert.Bridge

open Idealize.ShloMosaic Idealize.ShloMosaic.ValueIdx Cert.KernelIdeal.KFun Cert.ReferenceIdeal.Read Cert.Bridge.Pool

/-- Region 4 is the reference's pool, for any rows. -/
theorem pool_eq (h : Cert.KernelIdeal.S100000x64.Idx → EReal) (x2 : IVec Cert.KernelIdeal.S100000 32) :
    pool h (batR x2) = Host.divf (F := Ideal) (φ := .f32)
      (Host.scatterAdd (F := Ideal) (φ := .f32) Cert.ReferenceIdeal.scatter_S64x64_S100000x1_S100000x64_1_0_0_1
        (val_main_v89 (F := Ideal)) (val_main_v90 (F := Ideal) x2) h)
      (val_main_v99 (F := Ideal) x2) := by
  funext i
  obtain ⟨g, c, rfl⟩ : ∃ (g c : Fin 64), i = ix2 g c := ⟨i 0, i 1, eq_ix2 i⟩
  rw [pool_apply, hostDivf_at, num_kernel, den_kernel, num_ref, v99_at]

theorem out_eq (x0 : Cert.KernelIdeal.S100000x128.Idx → EReal) (x1 : IVec Cert.KernelIdeal.S2x1600000 32)
    (x2 : IVec Cert.KernelIdeal.S100000 32) (x4 x5 : Cert.KernelIdeal.S128x128.Idx → EReal)
    (x6 : Cert.KernelIdeal.S128.Idx → EReal) (x7 x8 : Cert.KernelIdeal.S128x128.Idx → EReal)
    (x9 : Cert.KernelIdeal.S128.Idx → EReal) (x10 x11 : Cert.KernelIdeal.S128x64.Idx → EReal)
    (x12 : Cert.KernelIdeal.S64.Idx → EReal)
    (e2 : Cert.KernelIdeal.KFun.h2 x0 x1 x4 x5 x6 x7 x8 x9 x10 x11 x12
      = Cert.ReferenceIdeal.Read.val_main_v88 (F := Ideal) x0 x1 x4 x5 x6 x7 x8 x9 x10 x11 x12) :
    Cert.KernelIdeal.KFun.out x0 x1 x2 x4 x5 x6 x7 x8 x9 x10 x11 x12
      = Cert.ReferenceIdeal.Read.val_main_v100 (F := Ideal) x0 x1 x2 x4 x5 x6 x7 x8 x9 x10 x11 x12 := by
  unfold Cert.KernelIdeal.KFun.out
  rw [e2]
  exact pool_eq _ x2

end Cert.Bridge

end
-- ==== Proof.lean ====
/-
  The five claims of this certificate.
  The kernel program is three GraphSAGE layers (neighbour means by a host gather and scatter-add, the dense
  combine in a kernel region per layer, the last layer's left product taken before the aggregation) and a
  per-graph mean pool computed as a one-hot product accumulated over ten row blocks; the reference is the same
  network written with whole-array operations.
  * The three frames: both kernel programs run as five regions between host stretches, every region's body
    touching only its staging buffers and (the pool) its two scratch accumulators; the reference is a straight
    line of host operations.
  * The idealization's one rewrite, widening a value just narrowed, is the identity on the extended reals.
  * At the extended reals the two programs end with the same 64 x 64 array: multiplying a neighbour sum by
    1 / max(deg, 1) is dividing it by max(deg, 1), which is at least 1; a product taken before or after the
    aggregation is the same sum because the rows aggregated are relu outputs, hence nonnegative, and the scale is
    a nonnegative real; and a one-hot product is the sum over the rows the one-hot selects.
-/
import proofs.«404932_j73151882985825_3_alg».proof.Defs
import proofs.«404932_j73151882985825_3_alg».proof.Proof.Gen.Kernel
import proofs.«404932_j73151882985825_3_alg».proof.Proof.Gen.KernelIdeal
import proofs.«404932_j73151882985825_3_alg».proof.Proof.Gen.ReferenceIdeal
import proofs.«404932_j73151882985825_3_alg».proof.Proof.Gen.Pre_finite_inputs
import proofs.«404932_j73151882985825_3_alg».proof.Proof.Gen.ReferenceIdeal.Run
import proofs.«404932_j73151882985825_3_alg».proof.Proof.Gen.ReferenceIdeal.Read
import proofs.«404932_j73151882985825_3_alg».proof.Proof.K.Run
import proofs.«404932_j73151882985825_3_alg».proof.Proof.KI.RunAll
import proofs.«404932_j73151882985825_3_alg».proof.Proof.KI.Value
import proofs.«404932_j73151882985825_3_alg».proof.Proof.Bridge.Layers01
import proofs.«404932_j73151882985825_3_alg».proof.Proof.Bridge.Layer2
import proofs.«404932_j73151882985825_3_alg».proof.Proof.Bridge.Pool
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Hand.frame m ρ

/-- So does the idealized kernel program. -/
theorem frame_kernelIdeal : Cert.frame_KernelIdeal := fun m ρ _ => Cert.KernelIdeal.Hand.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Widening a value that was just narrowed is the identity on the extended reals. -/
theorem preserves : Cert.preserves_Kernel_KernelIdeal :=
  IdealRules.truncf_extf.statement Cert.KernelIdeal.S64x10000 .f32 .bf16

/-- An unscoped TensorCore reference is among those read back at the end of the run. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- From memories agreeing on the arguments both idealized programs end with the same result array: the kernel's
    last valuation read at the result buffer is the composition of its five regions' functions of the arguments,
    and that composition is the reference's last stage. -/
theorem algebraic : Cert.algebraic_KernelIdeal_ReferenceIdeal := by
  intro m ρ m' ρ' _ hagree
  refine ⟨fun c => Cert.KernelIdeal.KFun.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · refine (θ_run Cert.KernelIdeal.defs _ _).mono (fun r h c => ?_) (Cert.KernelIdeal.Hand.run_all (F := Ideal) m ρ)
    exact ⟨(h c _ (mem_uc Cert.KernelIdeal.main_v60 (by decide))).trans (Cert.KernelIdeal.Hand.W9_out m c),
      (h c _ (mem_uc Cert.KernelIdeal.main_arg0 (by decide))).trans (Cert.KernelIdeal.Hand.W9_arg0 m c),
      (h c _ (mem_uc Cert.KernelIdeal.main_arg1 (by decide))).trans (Cert.KernelIdeal.Hand.W9_arg1 m c),
      (h c _ (mem_uc Cert.KernelIdeal.main_arg2 (by decide))).trans (Cert.KernelIdeal.Hand.W9_arg2 m c),
      (h c _ (mem_uc Cert.KernelIdeal.main_arg3 (by decide))).trans (Cert.KernelIdeal.Hand.W9_arg3 m c),
      (h c _ (mem_uc Cert.KernelIdeal.main_arg4 (by decide))).trans (Cert.KernelIdeal.Hand.W9_arg4 m c),
      (h c _ (mem_uc Cert.KernelIdeal.main_arg5 (by decide))).trans (Cert.KernelIdeal.Hand.W9_arg5 m c),
      (h c _ (mem_uc Cert.KernelIdeal.main_arg6 (by decide))).trans (Cert.KernelIdeal.Hand.W9_arg6 m c),
      (h c _ (mem_uc Cert.KernelIdeal.main_arg7 (by decide))).trans (Cert.KernelIdeal.Hand.W9_arg7 m c),
      (h c _ (mem_uc Cert.KernelIdeal.main_arg8 (by decide))).trans (Cert.KernelIdeal.Hand.W9_arg8 m c),
      (h c _ (mem_uc Cert.KernelIdeal.main_arg9 (by decide))).trans (Cert.KernelIdeal.Hand.W9_arg9 m c),
      (h c _ (mem_uc Cert.KernelIdeal.main_arg10 (by decide))).trans (Cert.KernelIdeal.Hand.W9_arg10 m c),
      (h c _ (mem_uc Cert.KernelIdeal.main_arg11 (by decide))).trans (Cert.KernelIdeal.Hand.W9_arg11 m c),
      (h c _ (mem_uc Cert.KernelIdeal.main_arg12 (by decide))).trans (Cert.KernelIdeal.Hand.W9_arg12 m c)⟩
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12⟩ := hagree c
    rw [Cert.ReferenceIdeal.Read.val_main_v100_eq, e0, e1, e2, e4, e5, e6, e7, e8, e9, e10, e11, e12]
    exact (Cert.Bridge.out_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
      (Cert.Bridge.h2_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
        (Cert.Bridge.h1_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))))).symm

end Cert.Proof

namespace Cert.Proof

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
